-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x6 : Shape := ⟨2, ![600000, 6]⟩
abbrev S600000x128 : Shape := ⟨2, ![600000, 128]⟩
abbrev S128x128 : Shape := ⟨2, ![128, 128]⟩
abbrev S128 : Shape := ⟨1, ![128]⟩
abbrev S8x6 : Shape := ⟨2, ![8, 6]⟩
abbrev S128x8 : Shape := ⟨2, ![128, 8]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x6 : S_.BroadcastsInDim S8x6 (![] : Fin 0 → Fin S8x6.rank)
  reducesTo_S8x6_S_d0_1 : S8x6.ReducesTo [0, 1] S_
  bcast_S_S128x8 : S_.BroadcastsInDim S128x8 (![] : Fin 0 → Fin S128x8.rank)
  reducesTo_S128x8_S_d0_1 : S128x8.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part8 {F : FTy → Type} [FloatOps F] (main_v133 : IVec S_ 1) (main_v136 : IVec S1x128 1) : IVec S_ 1 :=
  let main_c_53 : IVec S_ 1 := constantI S_ 1 1#1
  let main_v137 : IVec S_ 1 := (fun x v => Host.reduce IntOp.andi x v reducesTo_S1x128_S_d0_1 h_S_) main_v136 main_c_53
  let main_v138 : IVec S_ 1 := andi main_v133 main_v137
  main_v138

def fn_part7 {F : FTy → Type} [FloatOps F] (main_arg25 : FVec F S2x128x128 .f32) (main_arg26 : FVec F S2x128 .f32) (main_arg27 : FVec F S1x128 .f32) (main_v118 : IVec S_ 1) (main_v119 : FVec F S2x128 .f32) : IVec S_ 1 :=
  let main_cst_46 : FVec F S_ .f32 := constant S_ .f32 0x7F800000#32
  let main_v120 : FVec F S2x128 .f32 := broadcastInDim S2x128 ![] bcast_S_S2x128 main_cst_46
  let main_v121 : IVec S2x128 1 := cmpf .olt main_v119 main_v120
  let main_c_47 : IVec S_ 1 := constantI S_ 1 1#1
  let main_v122 : IVec S_ 1 := (fun x v => Host.reduce IntOp.andi x v reducesTo_S2x128_S_d0_1 h_S_) main_v121 main_c_47
  let main_v123 : IVec S_ 1 := andi main_v118 main_v122
  let main_v124 : FVec F S2x128x128 .f32 := Host.absf main_arg25
  let main_cst_48 : FVec F S_ .f32 := constant S_ .f32 0x7F800000#32
  let main_v125 : FVec F S2x128x128 .f32 := broadcastInDim S2x128x128 ![] bcast_S_S2x128x128 main_cst_48
  let main_v126 : IVec S2x128x128 1 := cmpf .olt main_v124 main_v125
  let main_c_49 : IVec S_ 1 := constantI S_ 1 1#1
  let main_v127 : IVec S_ 1 := (fun x v => Host.reduce IntOp.andi x v reducesTo_S2x128x128_S_d0_1_2 h_S_) main_v126 main_c_49
  let main_v128 : IVec S_ 1 := andi main_v123 main_v127
  let main_v129 : FVec F S2x128 .f32 := Host.absf main_arg26
  let main_cst_50 : FVec F S_ .f32 := constant S_ .f32 0x7F800000#32
  let main_v130 : FVec F S2x128 .f32 := broadcastInDim S2x128 ![] bcast_S_S2x128 main_cst_50
  let main_v131 : IVec S2x128 1 := cmpf .olt main_v129 main_v130
  let main_c_51 : IVec S_ 1 := constantI S_ 1 1#1
  let main_v132 : IVec S_ 1 := (fun x v => Host.reduce IntOp.andi x v reducesTo_S2x128_S_d0_1 h_S_) main_v131 main_c_51
  let main_v133 : IVec S_ 1 := andi main_v128 main_v132
  let main_v134 : FVec F S1x128 .f32 := Host.absf main_arg27
  let main_cst_52 : FVec F S_ .f32 := constant S_ .f32 0x7F800000#32
  let main_v135 : FVec F S1x128 .f32 := broadcastInDim S1x128 ![] bcast_S_S1x128 main_cst_52
  let main_v136 : IVec S1x128 1 := cmpf .olt main_v134 main_v135
  fn_part8 (F := F) main_v133 main_v136

def fn_part6 {F : FTy → Type} [FloatOps F] (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S1x128x128 .f32 := Host.absf main_arg21
  let main_cst_40 : FVec F S_ .f32 := constant S_ .f32 0x7F800000#32
  let main_v105 : FVec F S1x128x128 .f32 := broadcastInDim S1x128x128 ![] bcast_S_S1x128x128 main_cst_40
  let main_v106 : IVec S1x128x128 1 := cmpf .olt main_v104 main_v105
  let main_c_41 : IVec S_ 1 := constantI S_ 1 1#1
  let main_v107 : IVec S_ 1 := (fun x v => Host.reduce IntOp.andi x v reducesTo_S1x128x128_S_d0_1_2 h_S_) main_v106 main_c_41
  let main_v108 : IVec S_ 1 := andi main_v103 main_v107
  let main_v109 : FVec F S1x128 .f32 := Host.absf main_arg22
  let main_cst_42 : FVec F S_ .f32 := constant S_ .f32 0x7F800000#32
  let main_v110 : FVec F S1x128 .f32 := broadcastInDim S1x128 ![] bcast_S_S1x128 main_cst_42
  let main_v111 : IVec S1x128 1 := cmpf .olt main_v109 main_v110
  let main_c_43 : IVec S_ 1 := constantI S_ 1 1#1
  let main_v112 : IVec S_ 1 := (fun x v => Host.reduce IntOp.andi x v reducesTo_S1x128_S_d0_1 h_S_) main_v111 main_c_43
  let main_v113 : IVec S_ 1 := andi main_v108 main_v112
  let main_v114 : FVec F S2x128x128 .f32 := Host.absf main_arg23
  let main_cst_44 : FVec F S_ .f32 := constant S_ .f32 0x7F800000#32
  let main_v115 : FVec F S2x128x128 .f32 := broadcastInDim S2x128x128 ![] bcast_S_S2x128x128 main_cst_44
  let main_v116 : IVec S2x128x128 1 := cmpf .olt main_v114 main_v115
  let main_c_45 : IVec S_ 1 := constantI S_ 1 1#1
  let main_v117 : IVec S_ 1 := (fun x v => Host.reduce IntOp.andi x v reducesTo_S2x128x128_S_d0_1_2 h_S_) main_v116 main_c_45
  let main_v118 : IVec S_ 1 := andi main_v113 main_v117
  let main_v119 : FVec F S2x128 .f32 := Host.absf main_arg24
  fn_part7 (F := F) main_arg25 main_arg26 main_arg27 main_v118 main_v119

def fn_part5 {F : FTy → Type} [FloatOps F] (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S1x128x128 .f32 := Host.absf main_arg19
  let main_cst_36 : FVec F S_ .f32 := constant S_ .f32 0x7F800000#32
  let main_v95 : FVec F S1x128x128 .f32 := broadcastInDim S1x128x128 ![] bcast_S_S1x128x128 main_cst_36
  let main_v96 : IVec S1x128x128 1 := cmpf .olt main_v94 main_v95
  let main_c_37 : IVec S_ 1 := constantI S_ 1 1#1
  let main_v97 : IVec S_ 1 := (fun x v => Host.reduce IntOp.andi x v reducesTo_S1x128x128_S_d0_1_2 h_S_) main_v96 main_c_37
  let main_v98 : IVec S_ 1 := andi main_v93 main_v97
  let main_v99 : FVec F S1x128 .f32 := Host.absf main_arg20
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S128x128 .f32) (main_arg8 : FVec F S128 .f32) (main_arg9 : FVec F S8x6 .f32) (main_arg10 : FVec F S128x8 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S8x6 .f32 := Host.absf main_arg9
  let main_cst_16 : FVec F S_ .f32 := constant S_ .f32 0x7F800000#32
  let main_v45 : FVec F S8x6 .f32 := broadcastInDim S8x6 ![] bcast_S_S8x6 main_cst_16
  let main_v46 : IVec S8x6 1 := cmpf .olt main_v44 main_v45
  let main_c_17 : IVec S_ 1 := constantI S_ 1 1#1
  let main_v47 : IVec S_ 1 := (fun x v => Host.reduce IntOp.andi x v reducesTo_S8x6_S_d0_1 h_S_) main_v46 main_c_17
  let main_v48 : IVec S_ 1 := andi main_v43 main_v47
  let main_v49 : FVec F S128x8 .f32 := Host.absf main_arg10
  let main_cst_18 : FVec F S_ .f32 := constant S_ .f32 0x7F800000#32
  let main_v50 : FVec F S128x8 .f32 := broadcastInDim S128x8 ![] bcast_S_S128x8 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S8x6 .f32) (main_arg10 : FVec F S128x8 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x128 .f32) (main_arg1 : FVec F S600000x6 .f32) (main_arg2 : FVec F S600000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S8x6 .f32) (main_arg10 : FVec F S128x8 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S1x128x128 .f32) (main_arg20 : FVec F S1x128 .f32) (main_arg21 : FVec F S1x128x128 .f32) (main_arg22 : FVec F S1x128 .f32) (main_arg23 : FVec F S2x128x128 .f32) (main_arg24 : FVec F S2x128 .f32) (main_arg25 : FVec F S2x128x128 .f32) (main_arg26 : FVec F S2x128 .f32) (main_arg27 : FVec F S1x128 .f32) (main_arg28 : IVec S600000 32) (main_arg29 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x6 .f32 := Host.absf main_arg1
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S600000x128 .f32 := Host.absf main_arg2
  let main_cst_2 : FVec F S_ .f32 := constant S_ .f32 0x7F800000#32
  let main_v10 : FVec F S600000x128 .f32 := broadcastInDim S600000x128 ![] bcast_S_S600000x128 main_cst_2
  let main_v11 : IVec S600000x128 1 := cmpf .olt main_v9 main_v10
  let main_c_3 : IVec S_ 1 := constantI S_ 1 1#1
  let main_v12 : IVec S_ 1 := (fun x v => Host.reduce IntOp.andi x v reducesTo_S600000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x128 : Shape := ⟨2, ![50000, 128]⟩
abbrev S600000x6 : Shape := ⟨2, ![600000, 6]⟩
abbrev S600000x128 : Shape := ⟨2, ![600000, 128]⟩
abbrev S128x128 : Shape := ⟨2, ![128, 128]⟩
abbrev S128 : Shape := ⟨1, ![128]⟩
abbrev S8x6 : Shape := ⟨2, ![8, 6]⟩
abbrev S128x8 : Shape := ⟨2, ![128, 8]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S600000 : Shape := ⟨1, ![600000]⟩
abbrev S_ : Shape := ⟨0, ![]⟩
abbrev S600000x1 : Shape := ⟨2, ![600000, 1]⟩
abbrev S2000x128 : Shape := ⟨2, ![2000, 128]⟩
abbrev S1 : Shape := ⟨1, ![1]⟩
abbrev S1x1 : Shape := ⟨2, ![1, 1]⟩
abbrev S128x6 : Shape := ⟨2, ![128, 6]⟩
abbrev S8000x6 : Shape := ⟨2, ![8000, 6]⟩
abbrev S8000x128 : Shape := ⟨2, ![8000, 128]⟩
abbrev S50000x1 : Shape := ⟨2, ![50000, 1]⟩
abbrev S2000x1 : Shape := ⟨2, ![2000, 1]⟩

abbrev nBuf : Space → Nat
  | .hbm => 73
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S600000x6, .f32⟩
  | .hbm, ⟨2, _⟩ => ⟨S600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S8x6, .f32⟩
  | .hbm, ⟨10, _⟩ => ⟨S128x8, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x128x128, .f32⟩
  | .hbm, ⟨20, _⟩ => ⟨S1x128, .f32⟩
  | .hbm, ⟨21, _⟩ => ⟨S1x128x128, .f32⟩
  | .hbm, ⟨22, _⟩ => ⟨S1x128, .f32⟩
  | .hbm, ⟨23, _⟩ => ⟨S2x128x128, .f32⟩
  | .hbm, ⟨24, _⟩ => ⟨S2x128, .f32⟩
  | .hbm, ⟨25, _⟩ => ⟨S2x128x128, .f32⟩
  | .hbm, ⟨26, _⟩ => ⟨S2x128, .f32⟩
  | .hbm, ⟨27, _⟩ => ⟨S1x128, .f32⟩
  | .hbm, ⟨28, _⟩ => ⟨S600000, .i32⟩
  | .hbm, ⟨29, _⟩ => ⟨S600000, .i32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S1, .i32⟩
  | .hbm, ⟨45, _⟩ => ⟨S_, .i32⟩
  | .hbm, ⟨46, _⟩ => ⟨S600000x1, .i32⟩
  | .hbm, ⟨47, _⟩ => ⟨S600000x1, .i1⟩
  | .hbm, ⟨48, _⟩ => ⟨S1x1, .i32⟩
  | .hbm, ⟨49, _⟩ => ⟨S600000x1, .i32⟩
  | .hbm, ⟨50, _⟩ => ⟨S600000x1, .i1⟩
  | .hbm, ⟨51, _⟩ => ⟨S600000x1, .i1⟩
  | .hbm, ⟨52, _⟩ => ⟨S_, .i1⟩
  | .hbm, ⟨53, _⟩ => ⟨S600000, .i1⟩
  | .hbm, ⟨54, _⟩ => ⟨S600000x128, .f32⟩
  | .hbm, ⟨55, _⟩ => ⟨S600000x128, .i1⟩
  | .hbm, ⟨56, _⟩ => ⟨S_, .f32⟩
  | .hbm, ⟨57, _⟩ => ⟨S600000x128, .f32⟩
  | .hbm, ⟨58, _⟩ => ⟨S600000x128, .f32⟩
  | .hbm, ⟨59, _⟩ => ⟨S128x6, .f32⟩
  | .hbm, ⟨60, _⟩ => ⟨S1x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S50000x128, .f32⟩
  | .hbm, ⟨72, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x6, .f32⟩
  | .local _ .vmem, ⟨7, _⟩ => ⟨S8000x6, .f32⟩
  | .local _ .vmem, ⟨8, _⟩ => ⟨S8000x128, .f32⟩
  | .local _ .vmem, ⟨9, _⟩ => ⟨S8000x128, .f32⟩
  | .local _ .vmem, ⟨10, _⟩ => ⟨S128x6, .f32⟩
  | .local _ .vmem, ⟨11, _⟩ => ⟨S128x128, .f32⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128x128, .f32⟩
  | .local _ .vmem, ⟨30, _⟩ => ⟨S1x128, .f32⟩
  | .local _ .vmem, ⟨31, _⟩ => ⟨S1x128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S2x128x128, .f32⟩
  | .local _ .vmem, ⟨36, _⟩ => ⟨S2x128, .f32⟩
  | .local _ .vmem, ⟨37, _⟩ => ⟨S2x128x128, .f32⟩
  | .local _ .vmem, ⟨38, _⟩ => ⟨S2x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x1, .f32⟩
  | .local _ .vmem, ⟨43, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_cst_0 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17_0 : Ref sig .tc := ⟨.hbm, 71, rfl⟩
abbrev main_v17_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg15_0 : Ref sig .tc := ⟨.vmem, 33, rfl⟩
abbrev cc2_stg16_0 : Ref sig .tc := ⟨.vmem, 34, rfl⟩
abbrev cc2_stg17_0 : Ref sig .tc := ⟨.vmem, 35, rfl⟩
abbrev cc2_stg18_0 : Ref sig .tc := ⟨.vmem, 36, rfl⟩
abbrev cc2_stg19_0 : Ref sig .tc := ⟨.vmem, 37, rfl⟩
abbrev cc2_stg20_0 : Ref sig .tc := ⟨.vmem, 38, rfl⟩
abbrev cc2_stg21_0 : Ref sig .tc := ⟨.vmem, 39, rfl⟩
abbrev cc2_stg22_0 : Ref sig .tc := ⟨.vmem, 40, rfl⟩
abbrev cc2_stg22_1 : Ref sig .tc := ⟨.vmem, 41, rfl⟩
abbrev cc2_stg23_0 : Ref sig .tc := ⟨.vmem, 42, rfl⟩
abbrev cc2_stg23_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35
abbrev cc2_sem18_0 : DmaSem sig := 36
abbrev cc2_sem19_0 : DmaSem sig := 37
abbrev cc2_sem20_0 : DmaSem sig := 38
abbrev cc2_sem21_0 : DmaSem sig := 39
abbrev cc2_sem22_0 : DmaSem sig := 40
abbrev cc2_sem22_1 : DmaSem sig := 41
abbrev cc2_sem23_0 : DmaSem sig := 42
abbrev cc2_sem23_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_23 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S2x128x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S2x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S2x128x128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S2x128 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S1x128 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 2 → Memref sig .tc .vmem S2000x128 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S2000x1 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

class Facts₀ : Prop where
  bcast_S_S50000x128 : S_.BroadcastsInDim S50000x128 (![] : Fin 0 → Fin S50000x128.rank)
  bcast_S600000_S600000x1_0 : S600000.BroadcastsInDim S600000x1 (![0] : Fin 1 → Fin S600000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S8000x6_S8000x6_0_0 : ∀ a, (![0, 0] : Fin 2 → Nat) a + S8000x6.size a ≤ S8000x6.size a
  h_S8000x6 : 0 < S8000x6.numel
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  shapeCasts_S2000x128_S2000x128 : S2000x128.ShapeCasts S2000x128
  inb_S1x128x128_S1x128x128_0_0_0 : ∀ a, (![0, 0, 0] : Fin 3 → Nat) a + S1x128x128.size a ≤ S1x128x128.size a
  h_S1x128x128 : 0 < S1x128x128.numel
  inb_S2x128x128_S2x128x128_0_0_0 : ∀ a, (![0, 0, 0] : Fin 3 → Nat) a + S2x128x128.size a ≤ S2x128x128.size a
  h_S2x128x128 : 0 < S2x128x128.numel
  inb_S2x128_S2x128_0_0 : ∀ a, (![0, 0] : Fin 2 → Nat) a + S2x128.size a ≤ S2x128.size a
  h_S2x128 : 0 < S2x128.numel
  shapeCasts_S1x128x128_S128x128 : S1x128x128.ShapeCasts S128x128
  slices_S2x128x128_o0_0_0_S1x128x128 : S2x128x128.Slices ![0, 0, 0] S1x128x128
  slices_S2x128_o0_0_S1x128 : S2x128.Slices ![0, 0] S1x128
  slices_S2x128x128_o1_0_0_S1x128x128 : S2x128x128.Slices ![1, 0, 0] S1x128x128
  slices_S2x128_o1_0_S1x128 : S2x128.Slices ![1, 0] S1x128
  inb_S2000x1_S2000x1_0_0 : ∀ a, (![0, 0] : Fin 2 → Nat) a + S2000x1.size a ≤ S2000x1.size a
  h_S2000x1 : 0 < S2000x1.numel
  scatter_S50000x128_S600000x1_S600000x128_1_0_0_1_wf : ScatterDims.WF S50000x128 S600000x1 S600000x128 [1] [0] [0] 1
  dot_S2000x128_S128x128_S2000x128_1_1_0_0_n_n_wf : DotDims.WF S2000x128 S128x128 S2000x128 [1] [1] [0] [0] [] []
  gather_S50000x128_S600000x1_S600000x128_1_0_n_n_0_1_1128_wf : GatherDims.WF S50000x128 S600000x1 S600000x128 [1] [0] [] [0] [] 1 ![1, 128]
  dot_S128x8_S8x6_S128x6_1_0_0_1_n_n_wf : DotDims.WF S128x8 S8x6 S128x6 [1] [0] [0] [1] [] []
  dot_S8000x6_S128x6_S8000x128_1_1_0_0_n_n_wf : DotDims.WF S8000x6 S128x6 S8000x128 [1] [1] [0] [0] [] []
  dot_S8000x128_S128x128_S8000x128_1_1_0_0_n_n_wf : DotDims.WF S8000x128 S128x128 S8000x128 [1] [1] [0] [0] [] []
  dot_S2000x128_S1x128_S2000x1_1_1_0_0_n_n_wf : DotDims.WF S2000x128 S1x128 S2000x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x6.size a ≤ S600000x6.size a
  hwx1_0 : ∀ i : grid1.Coords, EltTy.bits .f32 = 32 ∨ (Rect.block (s := S600000x6) S8000x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S600000x128.size a
  hwx1_1 : ∀ i : grid1.Coords, EltTy.bits .f32 = 32 ∨ (Rect.block (s := S600000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x6.size a ≤ S128x6.size a
  hwx1_2 : ∀ i : grid1.Coords, EltTy.bits .f32 = 32 ∨ (Rect.block (s := S128x6) S128x6.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S600000x128.size a
  hwx1_5 : ∀ i : grid1.Coords, EltTy.bits .f32 = 32 ∨ (Rect.block (s := S600000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128x128.size a ≤ S1x128x128.size a
  hwx2_11 : ∀ i : grid2.Coords, EltTy.bits .f32 = 32 ∨ (Rect.block (s := S1x128x128) S1x128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128x128.size a ≤ S1x128x128.size a
  hwx2_13 : ∀ i : grid2.Coords, EltTy.bits .f32 = 32 ∨ (Rect.block (s := S1x128x128) S1x128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S2x128x128.size a ≤ S2x128x128.size a
  hwx2_17 : ∀ i : grid2.Coords, EltTy.bits .f32 = 32 ∨ (Rect.block (s := S2x128x128) S2x128x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S2x128.size a ≤ S2x128.size a
  hwx2_18 : ∀ i : grid2.Coords, EltTy.bits .f32 = 32 ∨ (Rect.block (s := S2x128) S2x128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S2x128x128.size a ≤ S2x128x128.size a
  hwx2_19 : ∀ i : grid2.Coords, EltTy.bits .f32 = 32 ∨ (Rect.block (s := S2x128x128) S2x128x128.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S2x128.size a ≤ S2x128.size a
  hwx2_20 : ∀ i : grid2.Coords, EltTy.bits .f32 = 32 ∨ (Rect.block (s := S2x128) S2x128.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S1x128.size a ≤ S1x128.size a
  hwx2_21 : ∀ i : grid2.Coords, EltTy.bits .f32 = 32 ∨ (Rect.block (s := S1x128) S1x128.size (cc2_transform_21 i) (hinb2_21 i)).WholeWords (EltTy.packing .f32)
  hstage2_22 : ∀ j, (stage2_22 j).IsWhole
  nbuf2_22 : grid2.bufCount reads2_22 false = 2
  hreads2_22 : ∀ i i' : grid2.Coords, (∀ a, reads2_22 a = true → i a = i' a) → cc2_transform_22 i = cc2_transform_22 i'
  hinb2_22 : ∀ (i : grid2.Coords) a, (cc2_transform_22 i a + 1) * S2000x128.size a ≤ S50000x128.size a
  hwx2_22 : ∀ i : grid2.Coords, EltTy.bits .f32 = 32 ∨ (Rect.block (s := S50000x128) S2000x128.size (cc2_transform_22 i) (hinb2_22 i)).WholeWords (EltTy.packing .f32)
  hstage2_23 : ∀ j, (stage2_23 j).IsWhole
  nbuf2_23 : grid2.bufCount reads2_23 false = 2
  hreads2_23 : ∀ i i' : grid2.Coords, (∀ a, reads2_23 a = true → i a = i' a) → cc2_transform_23 i = cc2_transform_23 i'
  hinb2_23 : ∀ (i : grid2.Coords) a, (cc2_transform_23 i a + 1) * S2000x1.size a ≤ S50000x1.size a
  hwx2_23 : ∀ i : grid2.Coords, EltTy.bits .f32 = 32 ∨ (Rect.block (s := S50000x1) S2000x1.size (cc2_transform_23 i) (hinb2_23 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S128x8_S8x6_S128x6_1_0_0_1_n_n : DotDims S128x8 S8x6 S128x6 where
  lhsContracting := [1]
  rhsContracting := [0]
  lhsNonContracting := [0]
  rhsNonContracting := [1]
  lhsBatch := []
  rhsBatch := []
  wf := dot_S128x8_S8x6_S128x6_1_0_0_1_n_n_wf
def dot_S8000x6_S128x6_S8000x128_1_1_0_0_n_n : DotDims S8000x6 S128x6 S8000x128 where
  lhsContracting := [1]
  rhsContracting := [1]
  lhsNonContracting := [0]
  rhsNonContracting := [0]
  lhsBatch := []
  rhsBatch := []
  wf := dot_S8000x6_S128x6_S8000x128_1_1_0_0_n_n_wf
def dot_S8000x128_S128x128_S8000x128_1_1_0_0_n_n : DotDims S8000x128 S128x128 S8000x128 where
  lhsContracting := [1]
  rhsContracting := [1]
  lhsNonContracting := [0]
  rhsNonContracting := [0]
  lhsBatch := []
  rhsBatch := []
  wf := dot_S8000x128_S128x128_S8000x128_1_1_0_0_n_n_wf
def dot_S2000x128_S1x128_S2000x1_1_1_0_0_n_n : DotDims S2000x128 S1x128 S2000x1 where
  lhsContracting := [1]
  rhsContracting := [1]
  lhsNonContracting := [0]
  rhsNonContracting := [0]
  lhsBatch := []
  rhsBatch := []
  wf := dot_S2000x128_S1x128_S2000x1_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg15) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v15) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg19) S1x128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg20) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg21) S1x128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg22) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg17) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v16) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg23) S2x128x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_arg24) S2x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg25) S2x128x128.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_arg26) S2x128.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_arg27) S1x128.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v17_0) S2000x128.size cc2_transform_22 reads2_22 true false 2 stage2_22 sem2_22
    hrank2 hreads2_22 hinb2_22 nbuf2_22 (Memref.isWhole_whole _) hwx2_22 hstage2_22

abbrev win2_23 : Pipeline.Window sig grid2 :=
  Pipeline.Window.ofSpec (Memref.whole main_v17_1) S2000x1.size cc2_transform_23 reads2_23 true false 2 stage2_23 sem2_23
    hrank2 hreads2_23 hinb2_23 nbuf2_23 (Memref.isWhole_whole _) hwx2_23 hstage2_23

abbrev win2 : Fin 24 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | ⟨_ + 24, h⟩ => absurd h (Nat.not_lt.2 (Nat.le_add_left _ _))
abbrev spec2 : Fin 24 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x6 : Shape := ⟨2, ![600000, 6]⟩
abbrev S600000x128 : Shape := ⟨2, ![600000, 128]⟩
abbrev S128x128 : Shape := ⟨2, ![128, 128]⟩
abbrev S128 : Shape := ⟨1, ![128]⟩
abbrev S8x6 : Shape := ⟨2, ![8, 6]⟩
abbrev S128x8 : Shape := ⟨2, ![128, 8]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S600000 : Shape := ⟨1, ![600000]⟩
abbrev S_ : Shape := ⟨0, ![]⟩
abbrev S600000x1 : Shape := ⟨2, ![600000, 1]⟩
abbrev S6x8 : Shape := ⟨2, ![6, 8]⟩
abbrev S600000x8 : Shape := ⟨2, ![600000, 8]⟩
abbrev S8x128 : Shape := ⟨2, ![8, 128]⟩
abbrev S128x1 : Shape := ⟨2, ![128, 1]⟩
abbrev S50000x1 : Shape := ⟨2, ![50000, 1]⟩

abbrev nBuf : Space → Nat
  | .hbm => 262
  | .vmem => 0
  | .smem => 0
  | _ => 0

abbrev hbmTy0_0 (i : Nat) : BufTy := match i % 128 with
  | 0 => ⟨S50000x128, .f32⟩
  | 1 => ⟨S600000x6, .f32⟩
  | 2 => ⟨S600000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S8x6, .f32⟩
  | 10 => ⟨S128x8, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S1x128x128, .f32⟩
  | 20 => ⟨S1x128, .f32⟩
  | 21 => ⟨S1x128x128, .f32⟩
  | 22 => ⟨S1x128, .f32⟩
  | 23 => ⟨S2x128x128, .f32⟩
  | 24 => ⟨S2x128, .f32⟩
  | 25 => ⟨S2x128x128, .f32⟩
  | 26 => ⟨S2x128, .f32⟩
  | 27 => ⟨S1x128, .f32⟩
  | 28 => ⟨S600000, .i32⟩
  | 29 => ⟨S600000, .i32⟩
  | 30 => ⟨S_, .f32⟩
  | 31 => ⟨S50000x128, .f32⟩
  | 32 => ⟨S600000x1, .i32⟩
  | 33 => ⟨S50000x128, .f32⟩
  | 34 => ⟨S128x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S128x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S6x8, .f32⟩
  | 77 => ⟨S600000x8, .f32⟩
  | 78 => ⟨S8x128, .f32⟩
  | 79 => ⟨S600000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S600000x128, .f32⟩
  | 90 => ⟨S128x128, .f32⟩
  | 91 => ⟨S600000x128, .f32⟩
  | 92 => ⟨S1x128, .f32⟩
  | 93 => ⟨S600000x128, .f32⟩
  | 94 => ⟨S600000x128, .f32⟩
  | 95 => ⟨S600000x128, .f32⟩
  | 96 => ⟨S600000x128, .f32⟩
  | 97 => ⟨S_, .f32⟩
  | 98 => ⟨S600000x128, .f32⟩
  | 99 => ⟨S600000x128, .f32⟩
  | 100 => ⟨S_, .f32⟩
  | 101 => ⟨S600000x128, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S128x128, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S50000x128, .f32⟩
  | 10 => ⟨S128x128, .f32⟩
  | 11 => ⟨S128, .f32⟩
  | 12 => ⟨S128x128, .f32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S128x128, .f32⟩
  | 27 => ⟨S128, .f32⟩
  | 28 => ⟨S128x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S50000x128, .f32⟩
  | 43 => ⟨S128x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S1x128, .f32⟩
  | 61 => ⟨S128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S128x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128x128, .f32⟩
  | 114 => ⟨S128x128, .f32⟩
  | 115 => ⟨S1x128, .f32⟩
  | 116 => ⟨S128, .f32⟩
  | 117 => ⟨S128x128, .f32⟩
  | 118 => ⟨S50000x128, .f32⟩
  | 119 => ⟨S1x128, .f32⟩
  | 120 => ⟨S50000x128, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S128x1, .f32⟩
  | 5 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_c : Ref sig .tc := ⟨.hbm, 80, rfl⟩
abbrev main_v25 : Ref sig .tc := ⟨.hbm, 81, rfl⟩
abbrev main_v26 : Ref sig .tc := ⟨.hbm, 82, rfl⟩
abbrev main_c_0 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_call3_v0 : Ref sig .tc := ⟨.hbm, 95, rfl⟩
abbrev main_call3_v1 : Ref sig .tc := ⟨.hbm, 96, rfl⟩
abbrev main_call3_cst : Ref sig .tc := ⟨.hbm, 97, rfl⟩
abbrev main_call3_v2 : Ref sig .tc := ⟨.hbm, 98, rfl⟩
abbrev main_call3_v3 : Ref sig .tc := ⟨.hbm, 99, rfl⟩
abbrev main_call3_cst_0 : Ref sig .tc := ⟨.hbm, 100, rfl⟩
abbrev main_call3_v4 : Ref sig .tc := ⟨.hbm, 101, rfl⟩
abbrev main_call3_v5 : Ref sig .tc := ⟨.hbm, 102, rfl⟩
abbrev main_v38 : Ref sig .tc := ⟨.hbm, 103, rfl⟩
abbrev main_cst_1 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_call6_v0 : Ref sig .tc := ⟨.hbm, 145, rfl⟩
abbrev main_call6_v1 : Ref sig .tc := ⟨.hbm, 146, rfl⟩
abbrev main_call6_cst : Ref sig .tc := ⟨.hbm, 147, rfl⟩
abbrev main_call6_v2 : Ref sig .tc := ⟨.hbm, 148, rfl⟩
abbrev main_call6_v3 : Ref sig .tc := ⟨.hbm, 149, rfl⟩
abbrev main_call6_cst_0 : Ref sig .tc := ⟨.hbm, 150, rfl⟩
abbrev main_call6_v4 : Ref sig .tc := ⟨.hbm, 151, rfl⟩
abbrev main_call6_v5 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_call7_v0 : Ref sig .tc := ⟨.hbm, 161, rfl⟩
abbrev main_call7_v1 : Ref sig .tc := ⟨.hbm, 162, rfl⟩
abbrev main_call7_cst : Ref sig .tc := ⟨.hbm, 163, rfl⟩
abbrev main_call7_v2 : Ref sig .tc := ⟨.hbm, 164, rfl⟩
abbrev main_call7_v3 : Ref sig .tc := ⟨.hbm, 165, rfl⟩
abbrev main_call7_cst_0 : Ref sig .tc := ⟨.hbm, 166, rfl⟩
abbrev main_call7_v4 : Ref sig .tc := ⟨.hbm, 167, rfl⟩
abbrev main_call7_v5 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_call8_v0 : Ref sig .tc := ⟨.hbm, 176, rfl⟩
abbrev main_call8_v1 : Ref sig .tc := ⟨.hbm, 177, rfl⟩
abbrev main_call8_cst : Ref sig .tc := ⟨.hbm, 178, rfl⟩
abbrev main_call8_v2 : Ref sig .tc := ⟨.hbm, 179, rfl⟩
abbrev main_call8_v3 : Ref sig .tc := ⟨.hbm, 180, rfl⟩
abbrev main_call8_cst_0 : Ref sig .tc := ⟨.hbm, 181, rfl⟩
abbrev main_call8_v4 : Ref sig .tc := ⟨.hbm, 182, rfl⟩
abbrev main_call8_v5 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_call9_v0 : Ref sig .tc := ⟨.hbm, 195, rfl⟩
abbrev main_call9_v1 : Ref sig .tc := ⟨.hbm, 196, rfl⟩
abbrev main_call9_cst : Ref sig .tc := ⟨.hbm, 197, rfl⟩
abbrev main_call9_v2 : Ref sig .tc := ⟨.hbm, 198, rfl⟩
abbrev main_call9_v3 : Ref sig .tc := ⟨.hbm, 199, rfl⟩
abbrev main_call9_cst_0 : Ref sig .tc := ⟨.hbm, 200, rfl⟩
abbrev main_call9_v4 : Ref sig .tc := ⟨.hbm, 201, rfl⟩
abbrev main_call9_v5 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_call11_v0 : Ref sig .tc := ⟨.hbm, 232, rfl⟩
abbrev main_call11_v1 : Ref sig .tc := ⟨.hbm, 233, rfl⟩
abbrev main_call11_cst : Ref sig .tc := ⟨.hbm, 234, rfl⟩
abbrev main_call11_v2 : Ref sig .tc := ⟨.hbm, 235, rfl⟩
abbrev main_call11_v3 : Ref sig .tc := ⟨.hbm, 236, rfl⟩
abbrev main_call11_cst_0 : Ref sig .tc := ⟨.hbm, 237, rfl⟩
abbrev main_call11_v4 : Ref sig .tc := ⟨.hbm, 238, rfl⟩
abbrev main_call11_v5 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_call12_v0 : Ref sig .tc := ⟨.hbm, 250, rfl⟩
abbrev main_call12_v1 : Ref sig .tc := ⟨.hbm, 251, rfl⟩
abbrev main_call12_cst : Ref sig .tc := ⟨.hbm, 252, rfl⟩
abbrev main_call12_v2 : Ref sig .tc := ⟨.hbm, 253, rfl⟩
abbrev main_call12_v3 : Ref sig .tc := ⟨.hbm, 254, rfl⟩
abbrev main_call12_cst_0 : Ref sig .tc := ⟨.hbm, 255, rfl⟩
abbrev main_call12_v4 : Ref sig .tc := ⟨.hbm, 256, rfl⟩
abbrev main_call12_v5 : Ref sig .tc := ⟨.hbm, 257, rfl⟩
abbrev main_v120 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S8x6_S6x8_1_0 : S8x6.Transposes [1, 0] S6x8
  transposes_S128x8_S8x128_1_0 : S128x8.Transposes [1, 0] S8x128
  bcast_S_S600000 : S_.BroadcastsInDim S600000 (![] : Fin 0 → Fin S600000.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  transposes_S1x128_S128x1_1_0 : S1x128.Transposes [1, 0] S128x1
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S600000x6_S6x8_S600000x8_1_0_0_1_n_n_wf : DotDims.WF S600000x6 S6x8 S600000x8 [1] [0] [0] [1] [] []
  dot_S600000x8_S8x128_S600000x128_1_0_0_1_n_n_wf : DotDims.WF S600000x8 S8x128 S600000x128 [1] [0] [0] [1] [] []
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  dot_S50000x128_S128x1_S50000x1_1_0_0_1_n_n_wf : DotDims.WF S50000x128 S128x1 S50000x1 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x6_S6x8_S600000x8_1_0_0_1_n_n : DotDims S600000x6 S6x8 S600000x8 where
  lhsContracting := [1]
  rhsContracting := [0]
  lhsNonContracting := [0]
  rhsNonContracting := [1]
  lhsBatch := []
  rhsBatch := []
  wf := dot_S600000x6_S6x8_S600000x8_1_0_0_1_n_n_wf
def dot_S600000x8_S8x128_S600000x128_1_0_0_1_n_n : DotDims S600000x8 S8x128 S600000x128 where
  lhsContracting := [1]
  rhsContracting := [0]
  lhsNonContracting := [0]
  rhsNonContracting := [1]
  lhsBatch := []
  rhsBatch := []
  wf := dot_S600000x8_S8x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  One round of message passing on a graph, read row by row on the extended reals.

  Every node row and every edge row is a vector of 128 features. The building block is an affine layer
  `x ↦ (∑ k, x k * W h k) + b h` followed by the activation `silu t = t · 1 / (1 + e^(-t))`. A node's new
  feature row is a fixed composition of such layers and of sums of rows (`nodePost`), applied to three rows of
  that node: the sum of the edge features arriving at it, its own features, and the sum of the processed messages
  arriving at it. An edge's message is one layer applied to the product, feature by feature, of the sender's
  pre-activated row and a radial weight row; the radial weight is a product of the edge's six radial values with
  two small matrices, which the two programs associate differently (`rbfLeft`, `rbfRight`): the two are equal as
  soon as every entry involved is a real number (`rbf_assoc`), by distributing and exchanging two finite sums.
-/
import Idealize.ShloMosaic.PureOps.Ideal
import Idealize.ShloMosaic.Lib.ValueIdx
import Mathlib.Algebra.BigOperators.Ring.Finset
import Mathlib.Data.EReal.Operations

noncomputable section

namespace Cert.MsgPass

open Idealize.ShloMosaic Idealize.ShloMosaic.ValueIdx
open scoped BigOperators

/-! ## Reading rows and matrices out of arrays -/

/-- Row `p` of a `[n, K]` array. -/
def row {n K : ℕ} (X : (⟨2, ![n, K]⟩ : Shape).Idx → EReal) (p : Fin n) : Fin K → EReal := fun k => X (ix2 p k)
/-- A `[N, K]` array as a matrix. -/
def mat {N K : ℕ} (W : (⟨2, ![N, K]⟩ : Shape).Idx → EReal) : Fin N → Fin K → EReal := fun h k => W (ix2 h k)
/-- A `[N]` array as a vector. -/
def vec {N : ℕ} (b : (⟨1, ![N]⟩ : Shape).Idx → EReal) : Fin N → EReal := fun h => b (ix1 h)
/-- Matrix `a` of a stack `[A, N, K]`. -/
def mat3 {A N K : ℕ} (W : (⟨3, ![A, N, K]⟩ : Shape).Idx → EReal) (a : Fin A) : Fin N → Fin K → EReal :=
  fun h k => W (ix3 a h k)

/-! ## Layers -/

/-- `silu t = t · 1 / (1 + e^(-t))` on the extended reals. -/
def silu (t : EReal) : EReal := t * Ideal.logistic t

/-- The affine map of a row: `(∑ k, x k * W h k) + b h`. -/
def aff {N K : ℕ} (W : Fin N → Fin K → EReal) (b : Fin N → EReal) (x : Fin K → EReal) : Fin N → EReal :=
  fun h => (∑ k, x k * W h k) + b h

/-- An affine map followed by the activation. -/
def layer {N K : ℕ} (W : Fin N → Fin K → EReal) (b : Fin N → EReal) (x : Fin K → EReal) : Fin N → EReal :=
  fun h => silu (aff W b x h)

/-- The weights of the node update: eleven square layers and the read-out row. -/
structure NodeW where
  Wgu : Fin 128 → Fin 128 → EReal
  bgu : Fin 128 → EReal
  Wi : Fin 128 → Fin 128 → EReal
  bi : Fin 128 → EReal
  Wu : Fin 128 → Fin 128 → EReal
  bu : Fin 128 → EReal
  Wc : Fin 128 → Fin 128 → EReal
  bc : Fin 128 → EReal
  Wb1 : Fin 128 → Fin 128 → EReal
  bb1 : Fin 128 → EReal
  Wb2 : Fin 128 → Fin 128 → EReal
  bb2 : Fin 128 → EReal
  Wl : Fin 128 → Fin 128 → EReal
  bl : Fin 128 → EReal
  Wa10 : Fin 128 → Fin 128 → EReal
  ba10 : Fin 128 → EReal
  Wa20 : Fin 128 → Fin 128 → EReal
  ba20 : Fin 128 → EReal
  Wa11 : Fin 128 → Fin 128 → EReal
  ba11 : Fin 128 → EReal
  Wa21 : Fin 128 → Fin 128 → EReal
  ba21 : Fin 128 → EReal
  W1 : Fin 128 → EReal

/-- The node's row after the three gated inputs are mixed (`up`: the summed edge features, `v`: the node's own
    row, `xa`: the summed messages) and one residual block is applied. -/
def nodeMid (P : NodeW) (up v xa : Fin 128 → EReal) : Fin 128 → EReal :=
  let vu := layer P.Wgu P.bgu up
  let xi := layer P.Wi P.bi v
  let x2 := layer P.Wu P.bu xa
  let a : Fin 128 → EReal := fun h => x2 h + xi h
  let b : Fin 128 → EReal := fun h => layer P.Wc P.bc a h + vu h
  fun h => b h + layer P.Wb2 P.bb2 (layer P.Wb1 P.bb1 b) h

/-- The node's new row: the skip connection to `v`, then two more residual blocks. -/
def nodeOut (P : NodeW) (v c : Fin 128 → EReal) : Fin 128 → EReal :=
  let d : Fin 128 → EReal := fun h => layer P.Wl P.bl c h + v h
  let e : Fin 128 → EReal := fun h => d h + layer P.Wa20 P.ba20 (layer P.Wa10 P.ba10 d) h
  fun h => e h + layer P.Wa21 P.ba21 (layer P.Wa11 P.ba11 e) h

/-- The whole node update of one row. -/
def nodePost (P : NodeW) (up v xa : Fin 128 → EReal) : Fin 128 → EReal :=
  nodeOut P v (nodeMid P up v xa)

/-- The scalar read out of a node's new row. -/
def readout (P : NodeW) (f : Fin 128 → EReal) : EReal := ∑ k, f k * P.W1 k

/-- An edge's message: one layer of the feature-wise product of the gathered row and the radial weights. -/
def edgeMsg (Wd : Fin 128 → Fin 128 → EReal) (bd : Fin 128 → EReal) (xg rbf : Fin 128 → EReal) : Fin 128 → EReal :=
  layer Wd bd fun k => xg k * rbf k

/-! ## The radial weights, associated two ways -/

/-- The radial weights with the two small matrices multiplied first: `∑ r, a r * (∑ b, C h b * B b r)`. -/
def rbfLeft {R Q N : ℕ} (B : Fin Q → Fin R → EReal) (C : Fin N → Fin Q → EReal) (a : Fin R → EReal) : Fin N → EReal :=
  fun h => ∑ r, a r * ∑ b, C h b * B b r

/-- The radial weights with the radial values applied first: `∑ b, (∑ r, a r * B b r) * C h b`. -/
def rbfRight {R Q N : ℕ} (B : Fin Q → Fin R → EReal) (C : Fin N → Fin Q → EReal) (a : Fin R → EReal) : Fin N → EReal :=
  fun h => ∑ b, (∑ r, a r * B b r) * C h b

/-- The coercion of the reals into the extended reals commutes with finite sums. -/
theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

/-- On real entries the two associations agree: distribute the products over the inner sums and exchange the
    two finite sums. (On the extended reals the distributive law fails at the infinities, hence the hypothesis.) -/
theorem rbf_assoc {R Q N : ℕ} (B : Fin Q → Fin R → EReal) (C : Fin N → Fin Q → EReal) (a : Fin R → EReal)
    (ha : ∀ r, ∃ x : ℝ, a r = (x : EReal)) (hB : ∀ b r, ∃ x : ℝ, B b r = (x : EReal))
    (hC : ∀ h b, ∃ x : ℝ, C h b = (x : EReal)) : rbfLeft B C a = rbfRight B C a := by
  choose a' ha' using ha
  choose B' hB' using hB
  choose C' hC' using hC
  funext h
  unfold rbfLeft rbfRight
  simp only [ha', hB', hC', ← EReal.coe_mul, ← coe_sum]
  refine congrArg _ ?_
  simp only [Finset.mul_sum, Finset.sum_mul]
  rw [Finset.sum_comm]
  exact Finset.sum_congr rfl fun b _ => Finset.sum_congr rfl fun r _ => by ring

/-! ## The weight record read out of the weight arrays -/

section Arrays
variable (Wgu : (⟨2, ![128, 128]⟩ : Shape).Idx → EReal) (Wi Wu Wc Wl : (⟨2, ![128, 128]⟩ : Shape).Idx → EReal)
  (Wb1 Wb2 : (⟨3, ![1, 128, 128]⟩ : Shape).Idx → EReal) (bb1 bb2 : (⟨2, ![1, 128]⟩ : Shape).Idx → EReal)
  (Wa1 Wa2 : (⟨3, ![2, 128, 128]⟩ : Shape).Idx → EReal) (ba1 ba2 : (⟨2, ![2, 128]⟩ : Shape).Idx → EReal)
  (W1 : (⟨2, ![1, 128]⟩ : Shape).Idx → EReal)

/-- The weights with the five plain bias vectors already laid out as `[1, 128]` rows (as a block of rows finds them). -/
def NodeW.ofRows (bgu bi bu bc bl : (⟨2, ![1, 128]⟩ : Shape).Idx → EReal) : NodeW where
  Wgu := mat Wgu
  bgu := row bgu 0
  Wi := mat Wi
  bi := row bi 0
  Wu := mat Wu
  bu := row bu 0
  Wc := mat Wc
  bc := row bc 0
  Wb1 := mat3 Wb1 0
  bb1 := row bb1 0
  Wb2 := mat3 Wb2 0
  bb2 := row bb2 0
  Wl := mat Wl
  bl := row bl 0
  Wa10 := mat3 Wa1 0
  ba10 := row ba1 0
  Wa20 := mat3 Wa2 0
  ba20 := row ba2 0
  Wa11 := mat3 Wa1 1
  ba11 := row ba1 1
  Wa21 := mat3 Wa2 1
  ba21 := row ba2 1
  W1 := row W1 0

/-- The weights with the five plain bias vectors as the `[128]` arrays they are given as. -/
def NodeW.ofVecs (bgu bi bu bc bl : (⟨1, ![128]⟩ : Shape).Idx → EReal) : NodeW where
  Wgu := mat Wgu
  bgu := vec bgu
  Wi := mat Wi
  bi := vec bi
  Wu := mat Wu
  bu := vec bu
  Wc := mat Wc
  bc := vec bc
  Wb1 := mat3 Wb1 0
  bb1 := row bb1 0
  Wb2 := mat3 Wb2 0
  bb2 := row bb2 0
  Wl := mat Wl
  bl := vec bl
  Wa10 := mat3 Wa1 0
  ba10 := row ba1 0
  Wa20 := mat3 Wa2 0
  ba20 := row ba2 0
  Wa11 := mat3 Wa1 1
  ba11 := row ba1 1
  Wa21 := mat3 Wa2 1
  ba21 := row ba2 1
  W1 := row W1 0

end Arrays

end Cert.MsgPass

end
-- ==== Proof.KernelHost.lean ====
import proofs.«429009_j55387898250018_2_alg».proof.Proof.KernelRun
import proofs.«429009_j55387898250018_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-! ## Carrying a buffer that nothing writes from the launch to a boundary

`W1` is the contents after the first host stretch, `W2` after the first region, `W4` after the second and third
stretches, `W5` after the second region, `W6` after the fourth stretch (the generated frame's names). A buffer that no
host operation writes and that is no region's output reads, at every boundary, what the launch memory holds. -/

set_option hygiene false in
/-- `W1 b = m b` for a buffer the first stretch does not write. -/
macro "carry1" : tactic =>
  `(tactic| (show StableHlo.after hostOps0 (W0 m ρ c) _ = _; after_results))
set_option hygiene false in
/-- `W2 b = m b` for a buffer that is not among the first region's arrays. -/
macro "carry2 " b:term : tactic =>
  `(tactic| (rw [W2_of_ne m ρ c $b (by decide)]; carry1))
set_option hygiene false in
/-- `W4 b = m b`. -/
macro "carry4 " b:term : tactic =>
  `(tactic| (show StableHlo.after hostOps1_1 (StableHlo.after hostOps1 (W2 m ρ c)) _ = _; after_results; carry2 $b))
set_option hygiene false in
/-- `W5 b = m b` for a buffer that is not among the second region's arrays. -/
macro "carry5 " b:term : tactic =>
  `(tactic| (rw [W5_of_ne m ρ c $b (by decide)]; carry4 $b))
set_option hygiene false in
/-- `W6 b = m b`. -/
macro "carry6 " b:term : tactic =>
  `(tactic| (show StableHlo.after hostOps2 (W5 m ρ c) _ = _; after_results; carry5 $b))

section
variable (c : Dev nD)

/-! ### At the first region's entry -/
theorem W1_arg0 : W1 m ρ c (Proc.devRef .tc main_arg0) = m ((c : Thread nD τ).loc main_arg0) := by carry1
theorem W1_arg7 : W1 m ρ c (Proc.devRef .tc main_arg7) = m ((c : Thread nD τ).loc main_arg7) := by carry1
/-- The bias of the first layer, laid out as a row. -/
theorem W1_v3 : W1 m ρ c (Proc.devRef .tc main_v3)
    = shapeCast S1x128 (m ((c : Thread nD τ).loc main_arg8)) shapeCasts_S128_S1x128 := by
  show StableHlo.after hostOps0 (W0 m ρ c) _ = _; after_results; rfl
/-- The edge features summed onto their receiving nodes. -/
theorem W1_v2 : W1 m ρ c (Proc.devRef .tc main_v2)
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (m ((c : Thread nD τ).loc main_arg28)))
        (m ((c : Thread nD τ).loc main_arg2)) := by
  show StableHlo.after hostOps0 (W0 m ρ c) _ = _; after_results

/-! ### At the second region's entry -/
theorem W2_arg29 : W2 m ρ c (Proc.devRef .tc main_arg29) = m ((c : Thread nD τ).loc main_arg29) := by carry2 main_arg29
theorem W4_arg1 : W4 m ρ c (Proc.devRef .tc main_arg1) = m ((c : Thread nD τ).loc main_arg1) := by carry4 main_arg1
theorem W4_arg11 : W4 m ρ c (Proc.devRef .tc main_arg11) = m ((c : Thread nD τ).loc main_arg11) := by carry4 main_arg11

/-- The sender index with its negative entries wrapped, as a column: what both the gather and its in-bounds mask read. -/
abbrev wrapCol (j : IVec S600000 32) : IVec S600000x1 32 :=
  broadcastInDim S600000x1 ![0] bcast_S600000_S600000x1_0
    (select (cmpi .slt j (broadcastInDim S600000 ![] bcast_S_S600000 (constantI S_ 32 0#32)))
      (addi j (broadcastInDim S600000 ![] bcast_S_S600000 (constantI S_ 32 50000#32))) j)

/-- The in-bounds mask of the gather: `0 ≤ jw ∧ jw ≤ 49999`, spread over the row. -/
abbrev takeMask (jc : IVec S600000x1 32) : IVec S600000x128 1 :=
  broadcastInDim S600000x128 ![0] bcast_S600000_S600000x128_0
    (Host.reduce IntOp.andi
      (andi (cmpi .sge jc (broadcastInDim S600000x1 ![] bcast_S_S600000x1 (constantI S_ 32 0#32)))
        (cmpi .sle jc (broadcastInDim S600000x1 ![0, 1] bcast_S1x1_S600000x1_0_1
          (broadcastInDim S1x1 ![1] bcast_S1_S1x1_1 (constantI S1 32 49999#32)))))
      (constantI S_ 1 1#1) reducesTo_S600000x1_S600000_d1 h_S_)

set_option maxHeartbeats 1000000 in
/-- The gathered sender rows: the first region's output read at the wrapped index where that is in bounds, a
    fill value elsewhere. -/
theorem W4_v5 : W4 m ρ c (Proc.devRef .tc main_v5)
    = select (takeMask (wrapCol (m ((c : Thread nD τ).loc main_arg29))))
        (Host.gather gather_S50000x128_S600000x1_S600000x128_1_0_n_n_0_1_1128 (W2 m ρ c (Proc.devRef .tc main_v4))
          (wrapCol (m ((c : Thread nD τ).loc main_arg29))))
        (broadcastInDim S600000x128 ![] bcast_S_S600000x128 (constant S_ .f32 0x7FC00000#32)) := by
  show StableHlo.after hostOps1_1 (StableHlo.after hostOps1 (W2 m ρ c)) _ = _
  after_results_simp
  simp only [TRef.ofBuf, TRef.toBuf, cast_eq, W2_arg29]
  rfl

/-- The two radial matrices multiplied together. -/
theorem W4_v6 : W4 m ρ c (Proc.devRef .tc main_v6)
    = Host.dotGeneral dot_S128x8_S8x6_S128x6_1_0_0_1_n_n none (m ((c : Thread nD τ).loc main_arg10)) (m ((c : Thread nD τ).loc main_arg9)) := by
  show StableHlo.after hostOps1_1 (StableHlo.after hostOps1 (W2 m ρ c)) _ = _
  after_results
  rw [show W2 m ρ c (Proc.devRef .tc main_arg10) = m ((c : Thread nD τ).loc main_arg10) from by carry2 main_arg10,
    show W2 m ρ c (Proc.devRef .tc main_arg9) = m ((c : Thread nD τ).loc main_arg9) from by carry2 main_arg9]

/-- The edge layer's bias, laid out as a row. -/
theorem W4_v7 : W4 m ρ c (Proc.devRef .tc main_v7)
    = shapeCast S1x128 (m ((c : Thread nD τ).loc main_arg12)) shapeCasts_S128_S1x128 := by
  show StableHlo.after hostOps1_1 (StableHlo.after hostOps1 (W2 m ρ c)) _ = _
  after_results
  rw [show W2 m ρ c (Proc.devRef .tc main_arg12) = m ((c : Thread nD τ).loc main_arg12) from by carry2 main_arg12]
  rfl

end

end Cert.KernelIdeal.Host

end
-- ==== Proof.KernelHost2.lean ====
/-
  The contents of the kernel program's buffers at the last region's entry: the node features and the weight arrays as
  launched, the bias vectors laid out as rows, the summed edge features carried from the first host stretch, and the
  messages summed onto their senders.
-/
import proofs.«429009_j55387898250018_2_alg».proof.Proof.KernelHost

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg) (c : Dev nD)

/-! ### The node features: an input array of the first region, so its exit contents are its entry contents -/
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

theorem W6_arg0 : W6 m ρ c (Proc.devRef .tc main_arg0) = m ((c : Thread nD τ).loc main_arg0) := by
  show StableHlo.after hostOps2 (W5 m ρ c) _ = _
  after_results
  rw [W5_of_ne m ρ c main_arg0 (by decide)]
  show StableHlo.after hostOps1_1 (StableHlo.after hostOps1 (W2 m ρ c)) _ = _
  after_results
  exact W2_arg0 m ρ c

/-! ### The weight arrays -/
theorem W6_arg3 : W6 m ρ c (Proc.devRef .tc main_arg3) = m ((c : Thread nD τ).loc main_arg3) := by carry6 main_arg3
theorem W6_arg5 : W6 m ρ c (Proc.devRef .tc main_arg5) = m ((c : Thread nD τ).loc main_arg5) := by carry6 main_arg5
theorem W6_arg13 : W6 m ρ c (Proc.devRef .tc main_arg13) = m ((c : Thread nD τ).loc main_arg13) := by carry6 main_arg13
theorem W6_arg15 : W6 m ρ c (Proc.devRef .tc main_arg15) = m ((c : Thread nD τ).loc main_arg15) := by carry6 main_arg15
theorem W6_arg17 : W6 m ρ c (Proc.devRef .tc main_arg17) = m ((c : Thread nD τ).loc main_arg17) := by carry6 main_arg17
theorem W6_arg19 : W6 m ρ c (Proc.devRef .tc main_arg19) = m ((c : Thread nD τ).loc main_arg19) := by carry6 main_arg19
theorem W6_arg20 : W6 m ρ c (Proc.devRef .tc main_arg20) = m ((c : Thread nD τ).loc main_arg20) := by carry6 main_arg20
theorem W6_arg21 : W6 m ρ c (Proc.devRef .tc main_arg21) = m ((c : Thread nD τ).loc main_arg21) := by carry6 main_arg21
theorem W6_arg22 : W6 m ρ c (Proc.devRef .tc main_arg22) = m ((c : Thread nD τ).loc main_arg22) := by carry6 main_arg22
theorem W6_arg23 : W6 m ρ c (Proc.devRef .tc main_arg23) = m ((c : Thread nD τ).loc main_arg23) := by carry6 main_arg23
theorem W6_arg24 : W6 m ρ c (Proc.devRef .tc main_arg24) = m ((c : Thread nD τ).loc main_arg24) := by carry6 main_arg24
theorem W6_arg25 : W6 m ρ c (Proc.devRef .tc main_arg25) = m ((c : Thread nD τ).loc main_arg25) := by carry6 main_arg25
theorem W6_arg26 : W6 m ρ c (Proc.devRef .tc main_arg26) = m ((c : Thread nD τ).loc main_arg26) := by carry6 main_arg26
theorem W6_arg27 : W6 m ρ c (Proc.devRef .tc main_arg27) = m ((c : Thread nD τ).loc main_arg27) := by carry6 main_arg27

/-! ### The bias vectors, laid out as rows by the last host stretch -/
theorem W6_v12 : W6 m ρ c (Proc.devRef .tc main_v12) = shapeCast S1x128 (m ((c : Thread nD τ).loc main_arg4)) shapeCasts_S128_S1x128 := by
  show StableHlo.after hostOps2 (W5 m ρ c) _ = _
  after_results
  rw [show W5 m ρ c (Proc.devRef .tc main_arg4) = m ((c : Thread nD τ).loc main_arg4) from by carry5 main_arg4]
  rfl
theorem W6_v13 : W6 m ρ c (Proc.devRef .tc main_v13) = shapeCast S1x128 (m ((c : Thread nD τ).loc main_arg6)) shapeCasts_S128_S1x128 := by
  show StableHlo.after hostOps2 (W5 m ρ c) _ = _
  after_results
  rw [show W5 m ρ c (Proc.devRef .tc main_arg6) = m ((c : Thread nD τ).loc main_arg6) from by carry5 main_arg6]
  rfl
theorem W6_v14 : W6 m ρ c (Proc.devRef .tc main_v14) = shapeCast S1x128 (m ((c : Thread nD τ).loc main_arg14)) shapeCasts_S128_S1x128 := by
  show StableHlo.after hostOps2 (W5 m ρ c) _ = _
  after_results
  rw [show W5 m ρ c (Proc.devRef .tc main_arg14) = m ((c : Thread nD τ).loc main_arg14) from by carry5 main_arg14]
  rfl
theorem W6_v15 : W6 m ρ c (Proc.devRef .tc main_v15) = shapeCast S1x128 (m ((c : Thread nD τ).loc main_arg16)) shapeCasts_S128_S1x128 := by
  show StableHlo.after hostOps2 (W5 m ρ c) _ = _
  after_results
  rw [show W5 m ρ c (Proc.devRef .tc main_arg16) = m ((c : Thread nD τ).loc main_arg16) from by carry5 main_arg16]
  rfl
theorem W6_v16 : W6 m ρ c (Proc.devRef .tc main_v16) = shapeCast S1x128 (m ((c : Thread nD τ).loc main_arg18)) shapeCasts_S128_S1x128 := by
  show StableHlo.after hostOps2 (W5 m ρ c) _ = _
  after_results
  rw [show W5 m ρ c (Proc.devRef .tc main_arg18) = m ((c : Thread nD τ).loc main_arg18) from by carry5 main_arg18]
  rfl

/-! ### The two summed arrays -/

/-- The summed edge features: written by the first host stretch, touched by nothing after it. -/
theorem W6_v2 : W6 m ρ c (Proc.devRef .tc main_v2)
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (m ((c : Thread nD τ).loc main_arg28)))
        (m ((c : Thread nD τ).loc main_arg2)) := by
  show StableHlo.after hostOps2 (W5 m ρ c) _ = _
  after_results
  rw [W5_of_ne m ρ c main_v2 (by decide)]
  show StableHlo.after hostOps1_1 (StableHlo.after hostOps1 (W2 m ρ c)) _ = _
  after_results
  rw [W2_of_ne m ρ c main_v2 (by decide)]
  exact W1_v2 m ρ c

/-- The messages (the second region's output) summed onto their senders. -/
theorem W6_v11 : W6 m ρ c (Proc.devRef .tc main_v11)
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (m ((c : Thread nD τ).loc main_arg29)))
        (W5 m ρ c (Proc.devRef .tc main_v8)) := by
  show StableHlo.after hostOps2 (W5 m ρ c) _ = _
  after_results
  rw [show W5 m ρ c (Proc.devRef .tc main_arg29) = m ((c : Thread nD τ).loc main_arg29) from by carry5 main_arg29]

end Cert.KernelIdeal.Host

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.LibRowOpsT.lean ====
/-
  A matrix product with the right operand contracted on its LAST axis, read at an index.

  `[M, K] × [N, K] → [M, N]`: the entry at `(p, j)` is `∑ k, l (p, k) * r (j, k)` — the product of a block of rows
  with the transpose of a weight matrix stored row by output feature, which is how an affine layer `x ↦ x · Wᵀ + b`
  is computed without materialising the transpose. Nothing depends on the number of rows `M`: the same statements
  serve a block of rows and the whole array. The layer lemmas add a bias row broadcast down the rows.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOpsT

open Idealize.ShloMosaic Idealize.ShloMosaic.ValueIdx
open scoped BigOperators

section TransposedRhs
variable {M K N : ℕ}

theorem trhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem trhs_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem trhs_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction at `(p, j)`: the sum over `k : Fin K` of `l (p, k) * r (j, k)`. -/
theorem trhs_sum (l : (⟨2, ![M, K]⟩ : Shape).Idx → EReal) (r : (⟨2, ![N, K]⟩ : Shape).Idx → EReal) (p : Fin M) (j : Fin N) :
    ∑ k : (DotDims.transposedRhs M K N).contr.Idx,
        l ((DotDims.transposedRhs M K N).lhsIdx (ix2 p j) k) * r ((DotDims.transposedRhs M K N).rhsIdx (ix2 p j) k)
      = ∑ k : Fin K, l (ix2 p k) * r (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact trhs_lhs_0 _ _
      | ⟨1, _⟩ => exact (trhs_lhs_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact trhs_rhs_0 _ _
      | ⟨1, _⟩ => exact (trhs_rhs_1 _ _).trans hk)
  rw [el, er]

/-- A kernel's matrix product into the zero accumulator, for any dimension record that is the transposed-right one. -/
theorem matmul_trhs_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (j : Fin N) :
    matmul d prec l r (constant ⟨2, ![M, N]⟩ .f32 0x00000000#32) (ix2 p j) = ∑ k : Fin K, l (ix2 p k) * r (ix2 j k) := by
  subst hd
  simp only [matmul]
  rw [Ideal.matmul_constant_zero_apply]
  exact trhs_sum l r p j

/-- The host's product with the same dimension numbers is the same sum. -/
theorem dotGeneral_trhs_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (j : Fin N) :
    Host.dotGeneral d prec l r (ix2 p j) = ∑ k : Fin K, l (ix2 p k) * r (ix2 j k) := by
  subst hd
  simp only [Host.dotGeneral]
  rw [Ideal.dotGeneral_apply]
  exact trhs_sum l r p j

end TransposedRhs

/-! ## A bias row, and the affine layer -/

/-- A `[1, k]` row broadcast down `n` rows reads, at `(p, q)`, entry `(0, q)`. -/
theorem rowBcast2_apply {α : Type} {n k : ℕ} (b : (⟨2, ![1, k]⟩ : Shape).Idx → α)
    (hb : (⟨2, ![1, k]⟩ : Shape).Broadcasts ⟨2, ![n, k]⟩) (p : Fin n) (q : Fin k) :
    broadcastTo ⟨2, ![n, k]⟩ b hb (ix2 p q) = b (ix2 0 q) :=
  broadcastTo_1b_ab_apply _ hb p q

/-- One affine layer as a kernel spells it — a product with the transposed weight into the zero accumulator plus a
    bias row broadcast down the rows — at `(p, j)`: `(∑ k, x k * W (j, k)) + b (0, j)`, where `x` is row `p` of the
    left operand. -/
theorem layerT_apply {n K N : ℕ} {φa φw : FTy} (d : DotDims ⟨2, ![n, K]⟩ ⟨2, ![N, K]⟩ ⟨2, ![n, N]⟩)
    (hd : d = DotDims.transposedRhs n K N) (A : FVec Ideal ⟨2, ![n, K]⟩ φa) (W : FVec Ideal ⟨2, ![N, K]⟩ φw)
    (b : FVec Ideal ⟨2, ![1, N]⟩ .f32) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ b hb) (ix2 p j)
      = (∑ k : Fin K, x k * W (ix2 j k)) + b (ix2 0 j) := by
  show matmul d none A W (constant ⟨2, ![n, N]⟩ .f32 0x00000000#32) (ix2 p j) + broadcastTo ⟨2, ![n, N]⟩ b hb (ix2 p j) = _
  rw [matmul_trhs_apply d hd, rowBcast2_apply]
  exact congrArg (· + b (ix2 0 j)) (Finset.sum_congr rfl fun k _ => by rw [hx k])

/-- The product alone, at `(p, j)`, from row `p` of the left operand. -/
theorem prodT_apply {n K N : ℕ} {φa φw : FTy} (d : DotDims ⟨2, ![n, K]⟩ ⟨2, ![N, K]⟩ ⟨2, ![n, N]⟩)
    (hd : d = DotDims.transposedRhs n K N) (A : FVec Ideal ⟨2, ![n, K]⟩ φa) (W : FVec Ideal ⟨2, ![N, K]⟩ φw)
    (p : Fin n) (j : Fin N) (x : Fin K → EReal) (hx : ∀ k, A (ix2 p k) = x k) :
    matmul d none A W (constant ⟨2, ![n, N]⟩ .f32 0x00000000#32) (ix2 p j) = ∑ k : Fin K, x k * W (ix2 j k) := by
  rw [matmul_trhs_apply d hd]
  exact Finset.sum_congr rfl fun k _ => by rw [hx k]

end Cert.LibRowOpsT

end
-- ==== Proof.Region0.lean ====
import proofs.«429009_j55387898250018_2_alg».proof.Proof.Gen.KernelIdeal.Frame
import proofs.«429009_j55387898250018_2_alg».proof.Proof.Spec
import proofs.«429009_j55387898250018_2_alg».proof.Proof.LibRowOps
import proofs.«429009_j55387898250018_2_alg».proof.Proof.LibRowOpsT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.MsgPass Cert.LibRowOpsT
open Idealize.ShloMosaic Idealize.ShloMosaic.TcCoe Idealize.ShloMosaic.ValueIdx Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The node rows, the weight matrix and the bias row as the region finds them. -/
abbrev xV (c : Dev nD) : (⟨2, ![50000, 128]⟩ : Shape).Idx → EReal := V c main_arg0
abbrev wJ (c : Dev nD) : (⟨2, ![128, 128]⟩ : Shape).Idx → EReal := V c main_arg7
abbrev bJ (c : Dev nD) : (⟨2, ![1, 128]⟩ : Shape).Idx → EReal := V c main_v3

/-! ## The body's arithmetic on one block of rows -/

/-- The product's dimension numbers: both operands are contracted on their last axis, `[2000, 128] × [128, 128]ᵀ`. -/
theorem hd0 : dot_S2000x128_S128x128_S2000x128_1_1_0_0_n_n = DotDims.transposedRhs 2000 128 128 := rfl

/-- At entry `(p, q)` of a block the body computes `silu ((∑ k, x (p, k) * W (q, k)) + b (0, q))`: one layer of row `p`
    of the block. The bias row's cast to its own shape is the identity; the product into the zero accumulator plus the
    bias broadcast down the rows is the affine map; the product of that with its logistic is `silu` of it. -/
theorem pay_apply (x0 : Vec Ideal S2000x128 .f32) (x1 : Vec Ideal S128x128 .f32) (x2 : Vec Ideal S1x128 .f32)
    (p : Fin 2000) (q : Fin 128) :
    k0_pay1 x0 x1 x2 (ix2 p q) = layer (mat x1) (row x2 0) (row x0 p) q := by
  have e : (addf (matmul (φ₁ := .f32) (φ₂ := .f32) dot_S2000x128_S128x128_S2000x128_1_1_0_0_n_n none x0 x1 (constant S2000x128 .f32 0x00000000#32))
        (broadcastTo S2000x128 (shapeCast S1x128 x2 shapeCasts_S1x128_S1x128) broadcasts_S1x128_S2000x128) : FVec Ideal S2000x128 .f32) (ix2 p q)
      = aff (mat x1) (row x2 0) (row x0 p) q := by
    rw [shapeCast_self]
    exact layerT_apply _ hd0 x0 x1 x2 _ p q (row x0 p) (fun k => rfl)
  unfold k0_pay1
  exact congrArg silu e

/-! ## Where each window's block sits -/

theorem hz : (![0, 0] : Fin 2 → Nat) = fun _ => 0 := funext fun a => by fin_cases a <;> rfl

/-- The index maps over the 25 grid points: the node rows' block moves down the rows with the output's block, both at
    column block 0; the weight matrix and the bias row stay at block (0, 0); the output's row block is below 25. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) < 25 :=
  (by decide +kernel : ∀ t : Fin grid0.N, _)

/-- Every row block `0 … 24` is some grid point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-! ## The output array as one function of the inputs -/

/-- Entry `(r, q)` of the output: feature `q` of one layer of row `r` of the node features. -/
def G (c : Dev nD) : (⟨2, ![50000, 128]⟩ : Shape).Idx → EReal :=
  fun i => layer (mat (wJ V c)) (row (bJ V c) 0) (row (xV V c) (i 0)) (i 1)

/-- The three input blocks at grid point `t`, at their literal shapes. -/
abbrev xB (c : Dev nD) (t : Fin cfg0.N) : Vec Ideal S2000x128 .f32 := iblk0 V c 0 t
abbrev wB (c : Dev nD) (t : Fin cfg0.N) : Vec Ideal S128x128 .f32 := iblk0 V c 1 t
abbrev bB (c : Dev nD) (t : Fin cfg0.N) : Vec Ideal S1x128 .f32 := iblk0 V c 2 t

/-- Row `p` of the node rows' block at point `t` is the row of the array that entry `(p, q)` of the output's block
    lands on: both blocks start at row `2000 · (row block of t)`, and the node rows' block starts at column 0. -/
theorem xB_apply (c : Dev nD) (t : Fin cfg0.N) (p : Fin 2000) (q k : Fin 128) :
    xB V c t (ix2 p k) = xV V c (ix2 ((((cfg0.win 3).blk t).view.emb (ix2 p q : S2000x128.Idx)) 0) k) := by
  obtain ⟨e0, e1, e2, e3, e4, e5, e6, e7⟩ := idx_facts t
  show V c main_arg0 (((cfg0.win 0).blk t).view.emb (ix2 p k)) = V c main_arg0 _
  refine congrArg (V c main_arg0) (funext fun a => Fin.ext ?_)
  match a with
  | ⟨0, _⟩ =>
    show win0_0.index t (0 : Fin 2) * 2000 + 1 * p.val = win0_3.index t (0 : Fin 2) * 2000 + 1 * p.val
    rw [e0]
  | ⟨1, _⟩ =>
    show win0_0.index t (1 : Fin 2) * 128 + 1 * k.val = k.val
    omega

/-- The weight block at any point is the whole weight matrix: it sits at block (0, 0). -/
theorem wB_apply (c : Dev nD) (t : Fin cfg0.N) (h k : Fin 128) : wB V c t (ix2 h k) = wJ V c (ix2 h k) := by
  obtain ⟨e0, e1, e2, e3, e4, e5, e6, e7⟩ := idx_facts t
  show V c main_arg7 (((cfg0.win 1).blk t).view.emb (ix2 h k)) = V c main_arg7 _
  refine congrArg (V c main_arg7) (funext fun a => Fin.ext ?_)
  match a with
  | ⟨0, _⟩ =>
    show win0_1.index t (0 : Fin 2) * 128 + 1 * h.val = h.val
    omega
  | ⟨1, _⟩ =>
    show win0_1.index t (1 : Fin 2) * 128 + 1 * k.val = k.val
    omega

/-- The bias block at any point is the whole bias row. -/
theorem bB_apply (c : Dev nD) (t : Fin cfg0.N) (h : Fin 128) : bB V c t (ix2 0 h) = bJ V c (ix2 0 h) := by
  obtain ⟨e0, e1, e2, e3, e4, e5, e6, e7⟩ := idx_facts t
  show V c main_v3 (((cfg0.win 2).blk t).view.emb (ix2 0 h)) = V c main_v3 _
  refine congrArg (V c main_v3) (funext fun a => Fin.ext ?_)
  match a with
  | ⟨0, _⟩ =>
    show win0_2.index t (0 : Fin 2) * 1 + 1 * 0 = 0
    omega
  | ⟨1, _⟩ =>
    show win0_2.index t (1 : Fin 2) * 128 + 1 * h.val = h.val
    omega

/-- The output's block keeps the column: it starts at column 0. -/
theorem emb_col (t : Fin cfg0.N) (y : S2000x128.Idx) : (((cfg0.win 3).blk t).view.emb y) 1 = y 1 := by
  obtain ⟨e0, e1, e2, e3, e4, e5, e6, e7⟩ := idx_facts t
  refine Fin.ext ?_
  show win0_3.index t (1 : Fin 2) * 128 + 1 * (y 1).val = (y 1).val
  omega

/-- At every entry of the block, what the body computes from the three blocks at point `t` is `G` at the array index
    the entry lands on. -/
theorem point (c : Dev nD) (t : Fin cfg0.N) (y : S2000x128.Idx) :
    k0_pay1 (xB V c t) (wB V c t) (bB V c t) y = G V c (((cfg0.win 3).blk t).view.emb y) := by
  obtain ⟨p, q, rfl⟩ : ∃ (p : Fin 2000) (q : Fin 128), y = ix2 p q := ⟨y 0, y 1, eq_ix2 y⟩
  rw [pay_apply]
  unfold G
  rw [emb_col]
  have hW : mat (wB V c t) = mat (wJ V c) := funext fun h => funext fun k => wB_apply V c t h k
  have hb : row (bB V c t) 0 = row (bJ V c) 0 := funext fun h => bB_apply V c t h
  have hx : row (xB V c t) p = row (xV V c) ((((cfg0.win 3).blk t).view.emb (ix2 p q : S2000x128.Idx)) 0) :=
    funext fun k => xB_apply V c t p q k
  rw [hW, hb, hx]

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext y
  exact point V c t y

/-! ## The blocks cover the array -/

/-- An index of the array is in point `t`'s block iff each coordinate is in the block's range on its axis. -/
theorem mem_blk (t : Fin cfg0.N) (i : (⟨2, ![50000, 128]⟩ : Shape).Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Row `r` is in the block of the point whose row block is `r / 2000`: `50000 = 25 · 2000`. -/
theorem cover (i : (⟨2, ![50000, 128]⟩ : Shape).Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region is `G`, everywhere. -/
theorem final (c : Dev nD) : (dat0 V c).arrAt 3 cfg0.N = G V c :=
  (dat0 V c).arrAt_eq_of_cover 3 (G V c) (fun t _ => flushed_eq V c t) cover

/-- After the region, row `p` of its output array is one layer of row `p` of the node features. -/
theorem value (c : Dev nD) (p : Fin 50000) (q : Fin 128) :
    ((dat0 V c).arrAt 3 cfg0.N : (⟨2, ![50000, 128]⟩ : Shape).Idx → EReal) (ix2 p q)
      = layer (mat (wJ V c)) (row (bJ V c) 0) (row (xV V c) p) q :=
  congrFun (final V c) (ix2 p q)

end Cert.KernelIdeal.Region0

end
-- ==== Proof.Region1.lean ====
import proofs.«429009_j55387898250018_2_alg».proof.Proof.Gen.KernelIdeal.Frame
import proofs.«429009_j55387898250018_2_alg».proof.Proof.Spec
import proofs.«429009_j55387898250018_2_alg».proof.Proof.LibRowOps
import proofs.«429009_j55387898250018_2_alg».proof.Proof.LibRowOpsT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.MsgPass
open Idealize.ShloMosaic Idealize.ShloMosaic.TcCoe Idealize.ShloMosaic.ValueIdx Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The radial values, the gathered rows, the folded radial matrix, the layer's matrix and bias row, as the region finds them. -/
abbrev r0 (c : Dev nD) : (⟨2, ![600000, 6]⟩ : Shape).Idx → EReal := V c main_arg1
abbrev xg (c : Dev nD) : (⟨2, ![600000, 128]⟩ : Shape).Idx → EReal := V c main_v5
abbrev wR (c : Dev nD) : (⟨2, ![128, 6]⟩ : Shape).Idx → EReal := V c main_v6
abbrev wD (c : Dev nD) : (⟨2, ![128, 128]⟩ : Shape).Idx → EReal := V c main_arg11
abbrev bD (c : Dev nD) : (⟨2, ![1, 128]⟩ : Shape).Idx → EReal := V c main_v7

/-! ## The body at one index of a block -/

open Cert.LibRowOpsT in
/-- The body's value at row `p`, feature `q` of a block: the radial weights `∑ r, v0 (p, r) * v1 (h, r)` multiply the
    gathered row `v4 p` feature by feature, and one layer (matrix `v7`, bias row `v8`) is applied to the product. -/
theorem pay_apply (v0 : Vec Ideal S8000x6 .f32) (v1 : Vec Ideal S128x6 .f32) (v4 : Vec Ideal S8000x128 .f32)
    (v7 : Vec Ideal S128x128 .f32) (v8 : Vec Ideal S1x128 .f32) (p : Fin 8000) (q : Fin 128) :
    k1_pay1 v0 v1 v4 v7 v8 (ix2 p q)
      = edgeMsg (mat v7) (row v8 0) (row v4 p) (fun h => ∑ r, row v0 p r * mat v1 h r) q := by
  have e1 : shapeCast S128x6 v1 shapeCasts_S128x6_S128x6 = v1 := shapeCast_self _ _
  have e4 : shapeCast S8000x128 v4 shapeCasts_S8000x128_S8000x128 = v4 := shapeCast_self _ _
  have e8 : shapeCast S1x128 v8 shapeCasts_S1x128_S1x128 = v8 := shapeCast_self _ _
  unfold k1_pay1
  rw [e1, e4, e8]
  -- the result is `t * logistic t` at the affine value `t`
  show (fun t : EReal => t * Ideal.logistic t)
      ((addf (matmul dot_S8000x128_S128x128_S8000x128_1_1_0_0_n_n none
          (mulf v4 (matmul dot_S8000x6_S128x6_S8000x128_1_1_0_0_n_n none v0 v1 (constant S8000x128 .f32 0x00000000#32)))
          v7 (constant S8000x128 .f32 0x00000000#32))
        (broadcastTo S8000x128 v8 broadcasts_S1x128_S8000x128) : FVec Ideal S8000x128 .f32) (ix2 p q)) = _
  refine congrArg (fun t : EReal => t * Ideal.logistic t) ?_
  -- the affine value, from row `p` of the product of the gathered rows and the radial weights
  refine (layerT_apply _ rfl _ v7 v8 _ p q (fun k => v4 (ix2 p k) * ∑ r : Fin 6, v0 (ix2 p r) * v1 (ix2 k r)) (fun k => ?_)).trans ?_
  · show v4 (ix2 p k) * (matmul dot_S8000x6_S128x6_S8000x128_1_1_0_0_n_n none v0 v1 (constant S8000x128 .f32 0x00000000#32) : FVec Ideal S8000x128 .f32) (ix2 p k) = _
    exact congrArg (v4 (ix2 p k) * ·) (matmul_trhs_apply dot_S8000x6_S128x6_S8000x128_1_1_0_0_n_n rfl none v0 v1 p k)
  · rfl

/-! ## The array the region leaves, as one function of the index -/

/-- Entry `(p, q)` is feature `q` of the message of edge `p`. -/
def msgArr (c : Dev nD) : (⟨2, ![600000, 128]⟩ : Shape).Idx → EReal := fun i =>
  edgeMsg (mat (wD V c)) (row (bD V c) 0) (row (xg V c) (i 0))
    (fun h => ∑ r, row (r0 V c) (i 0) r * mat (wR V c) h r) (i 1)

/-! ## Where each window's block sits -/

theorem hz : (![0, 0] : Fin 2 → Nat) = fun _ => 0 := funext fun a => by fin_cases a <;> rfl

/-- The block indices over the 75 grid points: the output window and the two row-tiled input windows sit at block
    row `t` at point `t`, block column 0; the three weight windows sit at block `(0, 0)` throughout. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `a` of the radial block at point `t` is row `t * 8000 + a` of the radial array. -/
theorem read0 (c : Dev nD) (t : Fin cfg1.N) (a : Fin 8000) (r : Fin 6) (P : Fin 600000) (hP : P.val = t.val * 8000 + a.val) :
    (iblk1 V c 0 t : S8000x6.Idx → EReal) (ix2 a r) = r0 V c (ix2 P r) := by
  obtain ⟨-, -, e0, e1, -⟩ := idx_facts t
  show V c main_arg1 (((cfg1.win 0).blk t).view.emb (ix2 a r)) = V c main_arg1 (ix2 P r)
  refine congrArg (V c main_arg1) (funext fun ax => Fin.ext ?_)
  match ax with
  | ⟨0, _⟩ => show win1_0.index t (0 : Fin 2) * 8000 + 1 * a.val = P.val; omega
  | ⟨1, _⟩ => show win1_0.index t (1 : Fin 2) * 6 + 1 * r.val = r.val; omega

/-- Row `a` of the gathered block at point `t` is row `t * 8000 + a` of the gathered array. -/
theorem read1 (c : Dev nD) (t : Fin cfg1.N) (a : Fin 8000) (k : Fin 128) (P : Fin 600000) (hP : P.val = t.val * 8000 + a.val) :
    (iblk1 V c 1 t : S8000x128.Idx → EReal) (ix2 a k) = xg V c (ix2 P k) := by
  obtain ⟨-, -, -, -, e0, e1, -⟩ := idx_facts t
  show V c main_v5 (((cfg1.win 1).blk t).view.emb (ix2 a k)) = V c main_v5 (ix2 P k)
  refine congrArg (V c main_v5) (funext fun ax => Fin.ext ?_)
  match ax with
  | ⟨0, _⟩ => show win1_1.index t (0 : Fin 2) * 8000 + 1 * a.val = P.val; omega
  | ⟨1, _⟩ => show win1_1.index t (1 : Fin 2) * 128 + 1 * k.val = k.val; omega

/-- The folded radial matrix is one block: every point reads all of it. -/
theorem read2 (c : Dev nD) (t : Fin cfg1.N) : (iblk1 V c 2 t : S128x6.Idx → EReal) = wR V c := by
  obtain ⟨-, -, -, -, -, -, e0, e1, -⟩ := idx_facts t
  funext y
  show V c main_v6 (((cfg1.win 2).blk t).view.emb y) = V c main_v6 y
  refine congrArg (V c main_v6) (funext fun ax => Fin.ext ?_)
  match ax with
  | ⟨0, _⟩ => show win1_2.index t (0 : Fin 2) * 128 + 1 * (y 0).val = (y 0).val; omega
  | ⟨1, _⟩ => show win1_2.index t (1 : Fin 2) * 6 + 1 * (y 1).val = (y 1).val; omega

/-- The layer's matrix is one block. -/
theorem read3 (c : Dev nD) (t : Fin cfg1.N) : (iblk1 V c 3 t : S128x128.Idx → EReal) = wD V c := by
  obtain ⟨-, -, -, -, -, -, -, -, e0, e1, -⟩ := idx_facts t
  funext y
  show V c main_arg11 (((cfg1.win 3).blk t).view.emb y) = V c main_arg11 y
  refine congrArg (V c main_arg11) (funext fun ax => Fin.ext ?_)
  match ax with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row is one block. -/
theorem read4 (c : Dev nD) (t : Fin cfg1.N) : (iblk1 V c 4 t : S1x128.Idx → EReal) = bD V c := by
  obtain ⟨-, -, -, -, -, -, -, -, -, -, e0, e1⟩ := idx_facts t
  funext y
  show V c main_v7 (((cfg1.win 4).blk t).view.emb y) = V c main_v7 y
  refine congrArg (V c main_v7) (funext fun ax => Fin.ext ?_)
  match ax with
  | ⟨0, _⟩ => show win1_4.index t (0 : Fin 2) * 1 + 1 * (y 0).val = (y 0).val; omega
  | ⟨1, _⟩ => show win1_4.index t (1 : Fin 2) * 128 + 1 * (y 1).val = (y 1).val; omega

/-! ## What one grid point writes back -/

/-- The body's value at index `y` of the block at point `t` is the array's entry at row `t * 8000 + y 0`, column `y 1`. -/
theorem body_at (c : Dev nD) (t : Fin cfg1.N) (y : S8000x128.Idx) (i : (⟨2, ![600000, 128]⟩ : Shape).Idx)
    (h0 : (i 0).val = t.val * 8000 + (y 0).val) (h1 : (i 1).val = (y 1).val) :
    k1_pay1 (iblk1 V c 0 t) (iblk1 V c 2 t) (iblk1 V c 1 t) (iblk1 V c 3 t) (iblk1 V c 4 t) y = msgArr V c i := by
  rw [eq_ix2 y]
  refine (pay_apply _ _ _ _ _ (y 0) (y 1)).trans ?_
  rw [read2 V c t, read3 V c t, read4 V c t]
  have ex : row (iblk1 V c 1 t : S8000x128.Idx → EReal) (y 0) = row (xg V c) (i 0) :=
    funext fun k => read1 V c t (y 0) k (i 0) h0
  have er : row (iblk1 V c 0 t : S8000x6.Idx → EReal) (y 0) = row (r0 V c) (i 0) :=
    funext fun r => read0 V c t (y 0) r (i 0) h0
  have eq : (y 1 : Fin 128) = i 1 := Fin.ext h1.symm
  unfold msgArr
  rw [ex, er, eq]

/-- What point `t` writes back is block `t` of `msgArr`. -/
theorem flushed_eq (c : Dev nD) (t : Fin cfg1.N) :
    (dat1 V c).flushed 5 t = ((cfg1.win 5).blk t).view.read (Elt Ideal) (msgArr V c) := by
  show (cfg1.win 5).cut (grid1.coords t) ((dat1 V c).after 5 t) = _
  rw [after1_5]
  unfold out1_5
  rw [View.canon_unit_zero hz]
  simp only [View.ld_unit_zero (S := S8000x6) hz, View.ld_unit_zero (S := S128x6) hz, View.ld_unit_zero (S := S8000x128) hz,
    View.ld_unit_zero (S := S128x128) hz, View.ld_unit_zero (S := S1x128) hz]
  obtain ⟨e0, e1, -⟩ := idx_facts t
  funext y
  show k1_pay1 (iblk1 V c 0 t) (iblk1 V c 2 t) (iblk1 V c 1 t) (iblk1 V c 3 t) (iblk1 V c 4 t) y
    = msgArr V c (((cfg1.win 5).blk t).view.emb y)
  refine body_at V c t y _ ?_ ?_
  · show win1_5.index t (0 : Fin 2) * 8000 + 1 * (y 0).val = t.val * 8000 + (y 0).val; omega
  · show win1_5.index t (1 : Fin 2) * 128 + 1 * (y 1).val = (y 1).val; omega

/-! ## The blocks cover the array -/

/-- An index of the array is in point `t`'s block iff each coordinate is in the block's range on its axis. -/
theorem mem_blk (t : Fin cfg1.N) (i : (⟨2, ![600000, 128]⟩ : Shape).Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v8).slice (win1_5.rect t)).set ↔ _
  rw [View.set_slice_whole, Rect.mem_set_unit]
  exact Iff.rfl

/-- Row `p` lies in the block of point `p / 8000`. -/
theorem cover (i : (⟨2, ![600000, 128]⟩ : Shape).Idx) :
    ∃ t : Fin cfg1.N, (cfg1.win 5).flush t = true ∧ i ∈ ((cfg1.win 5).blk t).view.set := by
  have hN : cfg1.N = 75 := N_1
  have hi0 : (i 0).val < 600000 := (i 0).isLt
  have hi1 : (i 1).val < 128 := (i 1).isLt
  let t : Fin cfg1.N := ⟨(i 0).val / 8000, by rw [hN]; omega⟩
  have ht : t.val = (i 0).val / 8000 := rfl
  obtain ⟨e0, e1, -⟩ := idx_facts t
  refine ⟨t, flush1_5 t, ?_⟩
  rw [mem_blk]
  intro a
  match a with
  | ⟨0, _⟩ =>
    show win1_5.index t (0 : Fin 2) * 8000 ≤ (i 0).val ∧ (i 0).val < win1_5.index t (0 : Fin 2) * 8000 + 8000
    omega
  | ⟨1, _⟩ =>
    show win1_5.index t (1 : Fin 2) * 128 ≤ (i 1).val ∧ (i 1).val < win1_5.index t (1 : Fin 2) * 128 + 128
    omega

/-! ## The array after the region -/

/-- The 75 write-backs tile the array, so it ends holding `msgArr`. -/
theorem final (c : Dev nD) : (dat1 V c).arrAt 5 cfg1.N = msgArr V c :=
  (dat1 V c).arrAt_eq_of_cover 5 (msgArr V c) (fun t _ => flushed_eq V c t) cover

/-- After the region, row `p` of its output array is the message of edge `p`: one layer of the product, feature by
    feature, of the gathered row and the radial weights `∑ r, rbf0 (p, r) * Wr (h, r)`. -/
theorem value (c : Dev nD) (p : Fin 600000) (q : Fin 128) :
    ((dat1 V c).arrAt 5 cfg1.N : (⟨2, ![600000, 128]⟩ : Shape).Idx → EReal) (ix2 p q)
      = edgeMsg (mat (wD V c)) (row (bD V c) 0) (row (xg V c) p)
          (fun h => ∑ r, row (r0 V c) p r * mat (wR V c) h r) q :=
  congrFun (final V c) (ix2 p q)

end Cert.KernelIdeal.Region1

end
-- ==== Proof.RefEdgeRows.lean ====
import proofs.«429009_j55387898250018_2_alg».proof.Proof.RefRead
import proofs.«429009_j55387898250018_2_alg».proof.Proof.Spec
import proofs.«429009_j55387898250018_2_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.EdgeRows

open Cert.ReferenceIdeal Cert.ReferenceIdeal.ReadP Cert.MsgPass
open Idealize.ShloMosaic Idealize.ShloMosaic.ValueIdx
open scoped BigOperators

-- the arguments the edge side reads: node features, radial values, the pre-layer, the two radial matrices, the edge layer, the sender index
variable (x0 : FVec Ideal S50000x128 .f32) (x1 : FVec Ideal S600000x6 .f32) (x7 : FVec Ideal S128x128 .f32) (x8 : FVec Ideal S128 .f32) (x9 : FVec Ideal S8x6 .f32) (x10 : FVec Ideal S128x8 .f32) (x11 : FVec Ideal S128x128 .f32) (x12 : FVec Ideal S128 .f32) (x29 : IVec S600000 32)

/-- The activation as the program spells it — negate, exponential, add one, divide one by the sum, multiply by the
    argument — is `silu`: the constant is one and `1 / (1 + e^(-t))` is the logistic function by definition. -/
theorem silu_read (t : Ideal .f32) :
    FloatOps.mulf t (FloatOps.hostDivf (FloatOps.ofBits (F := Ideal) .f32 0x3F800000#32)
        (FloatOps.addf (FloatOps.ofBits (F := Ideal) .f32 0x3F800000#32) (FloatOps.hostUnary .exp (FloatOps.hostNegf t))))
      = silu t := by
  simp only [Ideal.mulf_def, Ideal.hostDivf_def, Ideal.addf_def, Ideal.hostUnary_exp_def, Ideal.hostNegf_def,
    Ideal.negf_def, Ideal.ofBits_def, Ideal.ofBits_one_f32]
  rfl

/-- Row `n` of the senders' pre-activated features: one layer of the node's own row. -/
theorem xj_row (n : Fin 50000) (h : Fin 128) :
    val_main_v20 (F := Ideal) x0 x7 x8 (ix2 n h) = layer (mat x7) (vec x8) (row x0 n) h := by
  -- the transposed weight matrix at (k, j) is the matrix at (j, k)
  have h15 : ∀ k j : Fin 128, val_main_v15 (F := Ideal) x7 (ix2 k j) = x7 (ix2 j k) := fun k j => by
    rw [val_main_v15_apply]
    exact congrArg x7 (funext fun a => Fin.ext (by match a with | ⟨0, _⟩ => rfl | ⟨1, _⟩ => rfl))
  -- the product at (n, h) is the sum over k of v (n, k) * Wj (h, k)
  have h16 : val_main_v16 (F := Ideal) x0 x7 (ix2 n h) = ∑ k, row x0 n k * mat x7 h k := by
    rw [val_main_v16_apply]
    refine Finset.sum_congr rfl fun k _ => ?_
    have el : lidx_main_v16 (ix2 n h) k = ix2 n k :=
      funext fun a => Fin.ext (by match a with | ⟨0, _⟩ => rfl | ⟨1, _⟩ => rfl)
    have er : ridx_main_v16 (ix2 n h) k = ix2 k h :=
      funext fun a => Fin.ext (by match a with | ⟨0, _⟩ => rfl | ⟨1, _⟩ => rfl)
    rw [el, er, h15]
    rfl
  -- the bias, laid out as a row and repeated down the rows, at (n, h) is bj h
  have h18 : val_main_v18 (F := Ideal) x8 (ix2 n h) = vec x8 h := by
    rw [val_main_v18_apply, val_main_v17_apply]
    exact congrArg x8 (funext fun a => Fin.ext (by match a with | ⟨0, _⟩ => rfl))
  -- the affine map of row n
  have h19 : val_main_v19 (F := Ideal) x0 x7 x8 (ix2 n h) = aff (mat x7) (vec x8) (row x0 n) h := by
    rw [val_main_v19_apply, h16, h18]
    rfl
  -- the activation, operation by operation
  rw [val_main_v20_apply, val_main_call2_v5_apply, val_main_call2_v4_apply, val_main_call2_cst_0_apply,
    val_main_call2_v3_apply, val_main_call2_v2_apply, val_main_call2_cst_apply, val_main_call2_v1_apply,
    val_main_call2_v0_apply, h19]
  exact silu_read _

/-- Row `e` of the radial weights, the radial values applied first. -/
theorem rbf_row (e : Fin 600000) (h : Fin 128) :
    val_main_v24 (F := Ideal) x1 x9 x10 (ix2 e h) = rbfRight (mat x9) (mat x10) (row x1 e) h := by
  -- the first transposed matrix at (r, b) is Wr1 (b, r)
  have h21 : ∀ (r : Fin 6) (b : Fin 8), val_main_v21 (F := Ideal) x9 (ix2 r b) = x9 (ix2 b r) := fun r b => by
    rw [val_main_v21_apply]
    exact congrArg x9 (funext fun a => Fin.ext (by match a with | ⟨0, _⟩ => rfl | ⟨1, _⟩ => rfl))
  -- the first product at (e, b): the six radial values against row b of Wr1
  have h22 : ∀ b : Fin 8, val_main_v22 (F := Ideal) x1 x9 (ix2 e b) = ∑ r, row x1 e r * mat x9 b r := fun b => by
    rw [val_main_v22_apply]
    refine Finset.sum_congr rfl fun r _ => ?_
    have el : lidx_main_v22 (ix2 e b) r = ix2 e r :=
      funext fun a => Fin.ext (by match a with | ⟨0, _⟩ => rfl | ⟨1, _⟩ => rfl)
    have er : ridx_main_v22 (ix2 e b) r = ix2 r b :=
      funext fun a => Fin.ext (by match a with | ⟨0, _⟩ => rfl | ⟨1, _⟩ => rfl)
    rw [el, er, h21]
    rfl
  -- the second transposed matrix at (b, h) is Wr2 (h, b)
  have h23 : ∀ (b : Fin 8) (j : Fin 128), val_main_v23 (F := Ideal) x10 (ix2 b j) = x10 (ix2 j b) := fun b j => by
    rw [val_main_v23_apply]
    exact congrArg x10 (funext fun a => Fin.ext (by match a with | ⟨0, _⟩ => rfl | ⟨1, _⟩ => rfl))
  -- the second product at (e, h)
  rw [val_main_v24_apply]
  refine Finset.sum_congr rfl fun b _ => ?_
  have el : lidx_main_v24 (ix2 e h) b = ix2 e b :=
    funext fun a => Fin.ext (by match a with | ⟨0, _⟩ => rfl | ⟨1, _⟩ => rfl)
  have er : ridx_main_v24 (ix2 e h) b = ix2 b h :=
    funext fun a => Fin.ext (by match a with | ⟨0, _⟩ => rfl | ⟨1, _⟩ => rfl)
  rw [el, er, h22, h23]
  rfl

/-- Row `e` of the messages: one layer of the gathered row times the radial weights, feature by feature. -/
theorem msg_row (e : Fin 600000) (h : Fin 128) :
    val_main_v38 (F := Ideal) x0 x1 x7 x8 x9 x10 x11 x12 x29 (ix2 e h)
      = edgeMsg (mat x11) (vec x12) (row (val_main_v31 (F := Ideal) x0 x7 x8 x29) e) (row (val_main_v24 (F := Ideal) x1 x9 x10) e) h := by
  -- the transposed weight matrix at (k, j) is Wd (j, k)
  have h33 : ∀ k j : Fin 128, val_main_v33 (F := Ideal) x11 (ix2 k j) = x11 (ix2 j k) := fun k j => by
    rw [val_main_v33_apply]
    exact congrArg x11 (funext fun a => Fin.ext (by match a with | ⟨0, _⟩ => rfl | ⟨1, _⟩ => rfl))
  -- the product at (e, h): the feature-wise product of the two rows against row h of Wd
  have h34 : val_main_v34 (F := Ideal) x0 x1 x7 x8 x9 x10 x11 x29 (ix2 e h)
      = ∑ k, (row (val_main_v31 (F := Ideal) x0 x7 x8 x29) e k * row (val_main_v24 (F := Ideal) x1 x9 x10) e k) * mat x11 h k := by
    rw [val_main_v34_apply]
    refine Finset.sum_congr rfl fun k _ => ?_
    have el : lidx_main_v34 (ix2 e h) k = ix2 e k :=
      funext fun a => Fin.ext (by match a with | ⟨0, _⟩ => rfl | ⟨1, _⟩ => rfl)
    have er : ridx_main_v34 (ix2 e h) k = ix2 k h :=
      funext fun a => Fin.ext (by match a with | ⟨0, _⟩ => rfl | ⟨1, _⟩ => rfl)
    rw [el, er, h33, val_main_v32_apply]
    rfl
  -- the bias at (e, h) is bd h
  have h36 : val_main_v36 (F := Ideal) x12 (ix2 e h) = vec x12 h := by
    rw [val_main_v36_apply, val_main_v35_apply]
    exact congrArg x12 (funext fun a => Fin.ext (by match a with | ⟨0, _⟩ => rfl))
  -- the affine map of the product row
  have h37 : val_main_v37 (F := Ideal) x0 x1 x7 x8 x9 x10 x11 x12 x29 (ix2 e h)
      = aff (mat x11) (vec x12) (fun k => row (val_main_v31 (F := Ideal) x0 x7 x8 x29) e k * row (val_main_v24 (F := Ideal) x1 x9 x10) e k) h := by
    rw [val_main_v37_apply, h34, h36]
    rfl
  -- the activation, operation by operation
  rw [val_main_v38_apply, val_main_call3_v5_apply, val_main_call3_v4_apply, val_main_call3_cst_0_apply,
    val_main_call3_v3_apply, val_main_call3_v2_apply, val_main_call3_cst_apply, val_main_call3_v1_apply,
    val_main_call3_v0_apply, h37]
  exact silu_read _

end Cert.ReferenceIdeal.EdgeRows

end
-- ==== Proof.Indexing.lean ====
/-
  Indexing facts of a row scatter and of a masked row gather.

  A row scatter adds update row e of a [600000, 128] array onto operand row idx[e] of a [50000, 128] array: result
  element (n, h) is the operand's plus the sum of the update elements (e, h) whose index idx[e], read as a signed
  integer, equals n; an index outside [0, 50000) sends its row nowhere. So the scatter's value only depends on the
  update rows whose index is in range (scatterAdd_congr, rowScatter_inrange).

  A row gather in "fill" mode first wraps a negative index once (j + 50000 where j < 0), then keeps a gathered row only
  where the wrapped index is in [0, 49999]: the keep bit is an AND-reduction, over a size-one axis, of the AND of the two
  signed compares. For an index already in [0, 50000) the wrap leaves it alone (wrap_of_nonneg) and the keep bit is 1
  (takeMask_eq_one). The bit is read through the converse of the "an AND-reduction that is 1 met only 1s" lemma: an
  AND-reduction from 1 over elements that are all 1 is 1 (reduce_andi_of_ones).
-/
import Idealize.ShloMosaic.Lib.ValueIdx
import Idealize.ShloMosaic.Lib.ReduceAll
import Idealize.ShloMosaic.Lib.Affine
import Mathlib.Algebra.BigOperators.Group.Finset.Basic

noncomputable section

namespace Cert.Indexing

open Idealize.ShloMosaic Idealize.ShloMosaic.ValueIdx
open scoped BigOperators

/-! ## The scatter's sum -/

/-- the scatter's sum only reads update elements that land inside the operand -/
theorem scatterAdd_congr {s si su : Shape} (d : ScatterDims s si su) {w : Nat} (x : s.Idx → EReal) (idx : IVec si w)
    (u u' : su.Idx → EReal) (h : ∀ j i, d.resultIdx? j idx = some i → u j = u' j) :
    Ideal.hostScatterAdd d x idx u = Ideal.hostScatterAdd d x idx u' := by
  funext i
  unfold Ideal.hostScatterAdd
  congr 1
  exact Finset.sum_congr rfl fun j hj => h j i (Finset.mem_filter.1 hj).2

/-- the row scatter's dimension numbers: update_window_dims = [1], inserted_window_dims = [0],
    scatter_dims_to_operand_dims = [0], index_vector_dim = 1 -/
def rowScatter : ScatterDims ⟨2, ![50000, 128]⟩ ⟨2, ![600000, 1]⟩ ⟨2, ![600000, 128]⟩ where
  updateWindowDims := [1]
  insertedWindowDims := [0]
  scatterDimsToOperandDims := [0]
  indexVectorDim := 1

/-- Dimension numbers with these four lists are the row scatter's, whatever proof of their conditions they carry. -/
theorem eq_rowScatter (wf : ScatterDims.WF ⟨2, ![50000, 128]⟩ ⟨2, ![600000, 1]⟩ ⟨2, ![600000, 128]⟩ [1] [0] [0] 1) :
    ({ updateWindowDims := [1], insertedWindowDims := [0], scatterDimsToOperandDims := [0], indexVectorDim := 1, wf := wf } :
      ScatterDims ⟨2, ![50000, 128]⟩ ⟨2, ![600000, 1]⟩ ⟨2, ![600000, 128]⟩) = rowScatter := rfl

/-- Update element (e, h) reads its start index at (e, 0) of the index column: the update's one scatter axis gives the
    row, and the index vector's axis has the one component. -/
theorem rowScatter_siIdx (e : Fin 600000) (h : Fin 128) (c : Fin rowScatter.scatterDimsToOperandDims.length) :
    rowScatter.siIdx (ix2 e h) c = ix2 e 0 := by
  funext b
  refine Fin.ext ?_
  match b with
  | ⟨0, _⟩ => rfl
  | ⟨1, _⟩ =>
    have hc : c.val = 0 := by have := c.isLt; simpa [rowScatter] using this
    show c.val = 0
    exact hc

/-- On operand axis 0 (the rows) the window starts at the edge's index, read signed. -/
theorem rowScatter_start (idx : IVec ⟨2, ![600000, 1]⟩ 32) (e : Fin 600000) (h : Fin 128) :
    rowScatter.start (ix2 e h) idx 0 = (idx (ix2 e 0)).toInt := by
  unfold ScatterDims.start
  rw [dif_pos (show (0 : Fin 2) ∈ rowScatter.scatterDimsToOperandDims from List.mem_singleton.mpr rfl), rowScatter_siIdx]

/-- Operand axis 0 is an inserted window axis: the window coordinate there is 0. -/
theorem rowScatter_window (e : Fin 600000) (h : Fin 128) : rowScatter.window (ix2 e h) 0 = 0 := by
  unfold ScatterDims.window
  rw [dif_neg (show ¬ (0 : Fin 2) ∈ rowScatter.sKept by decide)]

/-- an update element that lands inside the operand belongs to an edge whose index is in range -/
theorem rowScatter_inrange (idx : IVec ⟨2, ![600000, 1]⟩ 32) (e : Fin 600000) (h : Fin 128)
    (i : (⟨2, ![50000, 128]⟩ : Shape).Idx) (hs : rowScatter.resultIdx? (ix2 e h) idx = some i) :
    0 ≤ (idx (ix2 e 0)).toInt ∧ (idx (ix2 e 0)).toInt < 50000 := by
  unfold ScatterDims.resultIdx? at hs
  split at hs
  · next hall =>
    have h0 := hall 0
    rw [rowScatter_start, rowScatter_window] at h0
    have hsz : ((⟨2, ![50000, 128]⟩ : Shape).size 0 : Int) = 50000 := rfl
    rw [hsz] at h0
    simpa using h0
  · exact absurd hs (by simp)

/-! ## Broadcasts read at an index -/

/-- a column broadcast [E] → [E, 1] (broadcast_in_dim with dims = [0]) reads entry e -/
theorem colBcast_apply {w : Nat} (x : IVec ⟨1, ![600000]⟩ w)
    (hb : (⟨1, ![600000]⟩ : Shape).BroadcastsInDim ⟨2, ![600000, 1]⟩ ![0]) (e : Fin 600000) :
    broadcastInDim ⟨2, ![600000, 1]⟩ ![0] hb x (ix2 e 0) = x (ix1 e) := by
  simp only [broadcastInDim]
  congr 1
  funext a
  have ha : a = 0 := Subsingleton.elim _ _
  subst ha
  apply Fin.ext
  split
  · next h1 => exact absurd h1 (by decide)
  · rfl

/-- a row broadcast [E] → [E, 128] (broadcast_in_dim with dims = [0]) reads entry e on all of row e -/
theorem rowBcast_apply {α : Type} (x : (⟨1, ![600000]⟩ : Shape).Idx → α)
    (hb : (⟨1, ![600000]⟩ : Shape).BroadcastsInDim ⟨2, ![600000, 128]⟩ ![0]) (e : Fin 600000) (h : Fin 128) :
    broadcastInDim ⟨2, ![600000, 128]⟩ ![0] hb x (ix2 e h) = x (ix1 e) := by
  simp only [broadcastInDim]
  congr 1
  funext a
  have ha : a = 0 := Subsingleton.elim _ _
  subst ha
  apply Fin.ext
  split
  · next h1 => exact absurd h1 (by decide)
  · rfl

/-! ## The wrap of a negative index -/

/-- a non-negative index is not wrapped -/
theorem wrap_of_nonneg (j : IVec ⟨1, ![600000]⟩ 32) (hb : (⟨0, ![]⟩ : Shape).BroadcastsInDim ⟨1, ![600000]⟩ ![])
    (e : Fin 600000) (h0 : 0 ≤ (j (ix1 e)).toInt) :
    select (cmpi .slt j (broadcastInDim ⟨1, ![600000]⟩ ![] hb (constantI ⟨0, ![]⟩ 32 0#32)))
      (addi j (broadcastInDim ⟨1, ![600000]⟩ ![] hb (constantI ⟨0, ![]⟩ 32 50000#32))) j (ix1 e) = j (ix1 e) := by
  rw [select_apply]
  have hc : cmpi .slt j (broadcastInDim ⟨1, ![600000]⟩ ![] hb (constantI ⟨0, ![]⟩ 32 0#32)) (ix1 e) = 0#1 := by
    apply eq_zero_of_ne_one
    show ¬ IntOp.cmpi .slt (j (ix1 e)) 0#32 = 1#1
    rw [IntOp.cmpi_slt]
    have hz : (0#32 : BitVec 32).toInt = 0 := by decide
    omega
  rw [hc, select_zero]

/-! ## An AND-reduction over ones -/

/-- A left fold by and from 1 over 1s is 1. -/
theorem foldl_andi_of_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    exact foldl_andi_of_ones f l _ (IntOp.andi_eq_one.2 ⟨hi, hl a (List.mem_cons_self ..)⟩)
      fun n hn => hl n (List.mem_cons_of_mem _ hn)

/-- An AND-reduction whose initial value is 1 and whose operand is 1 at every index that reduces into j is 1 at j. -/
theorem reduce_andi_of_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_of_ones x _ _ hinit fun i hi => hx i ?_
  simpa using (List.mem_filter.1 hi).2

/-! ## The fill-mode mask -/

/-- the fill-mode take's in-bounds mask is 1 on an edge whose (column) index is in [0, 49999] -/
theorem takeMask_eq_one (jc : IVec ⟨2, ![600000, 1]⟩ 32)
    (h1 : (⟨0, ![]⟩ : Shape).BroadcastsInDim ⟨2, ![600000, 1]⟩ ![])
    (h2 : (⟨1, ![1]⟩ : Shape).BroadcastsInDim ⟨2, ![1, 1]⟩ ![1])
    (h3 : (⟨2, ![1, 1]⟩ : Shape).BroadcastsInDim ⟨2, ![600000, 1]⟩ ![0, 1])
    (hr : (⟨2, ![600000, 1]⟩ : Shape).ReducesTo [1] ⟨1, ![600000]⟩) (hu : 0 < (⟨0, ![]⟩ : Shape).numel)
    (hb : (⟨1, ![600000]⟩ : Shape).BroadcastsInDim ⟨2, ![600000, 128]⟩ ![0]) (e : Fin 600000) (h : Fin 128)
    (hlo : 0 ≤ (jc (ix2 e 0)).toInt) (hhi : (jc (ix2 e 0)).toInt ≤ 49999) :
    broadcastInDim ⟨2, ![600000, 128]⟩ ![0] hb
      (Host.reduce IntOp.andi
        (andi (cmpi .sge jc (broadcastInDim ⟨2, ![600000, 1]⟩ ![] h1 (constantI ⟨0, ![]⟩ 32 0#32)))
          (cmpi .sle jc (broadcastInDim ⟨2, ![600000, 1]⟩ ![0, 1] h3
            (broadcastInDim ⟨2, ![1, 1]⟩ ![1] h2 (constantI ⟨1, ![1]⟩ 32 49999#32)))))
        (constantI ⟨0, ![]⟩ 1 1#1) hr hu) (ix2 e h) = 1#1 := by
  rw [rowBcast_apply]
  refine reduce_andi_of_ones _ _ hr hu (ix1 e) rfl fun i hi => ?_
  -- the one index that reduces into e is (e, 0)
  have hv : (hr.drop i 0 : Nat) = i 0 := Shape.ReducesTo.drop_apply_val hr i 0
  have hi0 : i 0 = e := by
    rw [hi] at hv
    exact Fin.ext hv.symm
  have hi1 : i 1 = (0 : Fin 1) := Fin.ext (Nat.lt_one_iff.1 (i 1).isLt)
  have hii : i = ix2 e 0 := by
    funext a
    match a with
    | ⟨0, _⟩ => exact hi0
    | ⟨1, _⟩ => exact hi1
  subst hii
  show IntOp.andi (IntOp.cmpi .sge (jc (ix2 e 0)) 0#32) (IntOp.cmpi .sle (jc (ix2 e 0)) 49999#32) = 1#1
  have hz : (0#32 : BitVec 32).toInt = 0 := by decide
  have hm : (49999#32 : BitVec 32).toInt = 49999 := by decide
  exact IntOp.andi_eq_one.2 ⟨IntOp.cmpi_sge.2 (by omega), IntOp.cmpi_sle.2 (by omega)⟩

end Cert.Indexing

end
-- ==== Proof.KernelValueA.lean ====
/-
  The kernel program's intermediate arrays are the reference's stages.

  Reading the kernel program's run boundary by boundary, at the kernel's own argument arrays:
  * the first region's output is the reference's pre-activated sender rows (one layer of each node row);
  * the gathered rows agree with the reference's gather on every edge whose sender index lies in `[0, 50000)`: there the
    index is not wrapped, the in-bounds mask is 1, and both programs read the same row. On the other edges the kernel
    program holds a fill value where the reference holds a clamped row, and the two differ;
  * hence the second region's output, the messages, agrees with the reference's on those edges — given that the radial
    values and the two radial matrices are real numbers, so that multiplying the two matrices first (the kernel) or
    applying the radial values first (the reference) is the same sum;
  * the messages are then summed onto the sender nodes by the SAME index, which drops exactly the edges whose index is
    outside `[0, 50000)`: the two sums agree everywhere.
-/
import proofs.«429009_j55387898250018_2_alg».proof.Proof.KernelHost2
import proofs.«429009_j55387898250018_2_alg».proof.Proof.Region0
import proofs.«429009_j55387898250018_2_alg».proof.Proof.Region1
import proofs.«429009_j55387898250018_2_alg».proof.Proof.RefEdgeRows
import proofs.«429009_j55387898250018_2_alg».proof.Proof.Indexing

set_option maxRecDepth 16384

noncomputable section

namespace Cert.KernelIdeal.Value

open Cert.KernelIdeal Cert.KernelIdeal.Gen Cert.KernelIdeal.Host Cert.MsgPass
open Idealize.ShloMosaic Idealize.ShloMosaic.TcCoe Idealize.ShloMosaic.ValueIdx Idealize.SL.Sem
open Cert.ReferenceIdeal.ReadP (val_main_v2 val_main_v20 val_main_v24 val_main_v30 val_main_v31 val_main_v38 val_main_v41)
open scoped BigOperators

variable (m : (ℓ : Loc nD τ sig) → Buf (Elt Ideal) ℓ) (ρ : Dev nD → PrngReg) (c : Dev nD)

/-! ## The argument arrays by name -/
abbrev a0 : FVec Ideal S50000x128 .f32 := m ((c : Thread nD τ).loc main_arg0)
abbrev a1 : FVec Ideal S600000x6 .f32 := m ((c : Thread nD τ).loc main_arg1)
abbrev a2 : FVec Ideal S600000x128 .f32 := m ((c : Thread nD τ).loc main_arg2)
abbrev a7 : FVec Ideal S128x128 .f32 := m ((c : Thread nD τ).loc main_arg7)
abbrev a8 : FVec Ideal S128 .f32 := m ((c : Thread nD τ).loc main_arg8)
abbrev a9 : FVec Ideal S8x6 .f32 := m ((c : Thread nD τ).loc main_arg9)
abbrev a10 : FVec Ideal S128x8 .f32 := m ((c : Thread nD τ).loc main_arg10)
abbrev a11 : FVec Ideal S128x128 .f32 := m ((c : Thread nD τ).loc main_arg11)
abbrev a12 : FVec Ideal S128 .f32 := m ((c : Thread nD τ).loc main_arg12)
abbrev a28 : IVec S600000 32 := m ((c : Thread nD τ).loc main_arg28)
abbrev a29 : IVec S600000 32 := m ((c : Thread nD τ).loc main_arg29)

/-- A `[128]` vector laid out as a `[1, 128]` row reads back as the vector. -/
theorem row_shapeCast (b : FVec Ideal S128 .f32) (h : S128.ShapeCasts S1x128) : row (shapeCast S1x128 b h) 0 = vec b :=
  funext fun k => shapeCast_a_1a_apply b h 0 k

/-! ## The first region: the senders' pre-activated rows -/

theorem xj_eq : W2 m ρ c (Proc.devRef .tc main_v4) = val_main_v20 (F := Ideal) (a0 m c) (a7 m c) (a8 m c) := by
  refine funext fun (i : (⟨2, ![50000, 128]⟩ : Shape).Idx) => ?_
  obtain ⟨p, q, rfl⟩ : ∃ (p : Fin 50000) (q : Fin 128), i = ix2 p q := ⟨i 0, i 1, eq_ix2 i⟩
  refine (congrFun (W2_arr m ρ c 3) _).trans ((Region0.value (V1 m ρ) c p q).trans ?_)
  rw [Cert.ReferenceIdeal.EdgeRows.xj_row]
  have e7 : Region0.wJ (V1 m ρ) c = a7 m c := W1_arg7 m ρ c
  have e0 : Region0.xV (V1 m ρ) c = a0 m c := W1_arg0 m ρ c
  have e3 : Region0.bJ (V1 m ρ) c = shapeCast S1x128 (a8 m c) shapeCasts_S128_S1x128 := W1_v3 m ρ c
  rw [e7, e0, e3, row_shapeCast]

/-! ## The gathered rows, on an edge whose sender index is in range -/

/-- The wrapped index column is the reference's. -/
theorem wrapCol_eq : wrapCol (a29 m c) = val_main_v30 (F := Ideal) (a29 m c) := rfl

/-- On an edge whose sender index is in `[0, 50000)` the wrapped index is the index itself. -/
theorem wrapCol_apply (e : Fin 600000) (hlo : 0 ≤ (a29 m c (ix1 e)).toInt) :
    wrapCol (a29 m c) (ix2 e 0) = a29 m c (ix1 e) :=
  (Cert.Indexing.colBcast_apply _ bcast_S600000_S600000x1_0 e).trans (Cert.Indexing.wrap_of_nonneg (a29 m c) bcast_S_S600000 e hlo)

theorem gathered_eq (e : Fin 600000) (k : Fin 128) (hlo : 0 ≤ (a29 m c (ix1 e)).toInt) (hhi : (a29 m c (ix1 e)).toInt < 50000) :
    W4 m ρ c (Proc.devRef .tc main_v5) (ix2 e k) = val_main_v31 (F := Ideal) (a0 m c) (a7 m c) (a8 m c) (a29 m c) (ix2 e k) := by
  rw [W4_v5, select_apply]
  have hw := wrapCol_apply m c e hlo
  have hm : takeMask (wrapCol (a29 m c)) (ix2 e k) = 1#1 :=
    Cert.Indexing.takeMask_eq_one (wrapCol (a29 m c)) bcast_S_S600000x1 bcast_S1_S1x1_1 bcast_S1x1_S600000x1_0_1
      reducesTo_S600000x1_S600000_d1 h_S_ bcast_S600000_S600000x128_0 e k (by rw [hw]; exact hlo) (by rw [hw]; omega)
  rw [hm, select_one, xj_eq]
  rfl

/-! ## The second region: the messages, on an edge whose sender index is in range -/

/-- The radial weights as the kernel computes them (the two matrices multiplied first) are the reference's, on real entries. -/
theorem rbf_eq (hr1 : ∀ i, ∃ r : ℝ, a1 m c i = (r : EReal)) (hr9 : ∀ i, ∃ r : ℝ, a9 m c i = (r : EReal))
    (hr10 : ∀ i, ∃ r : ℝ, a10 m c i = (r : EReal)) (e : Fin 600000) :
    (fun h => ∑ r, row (a1 m c) e r * mat (Host.dotGeneral dot_S128x8_S8x6_S128x6_1_0_0_1_n_n none (a10 m c) (a9 m c)) h r)
      = row (val_main_v24 (F := Ideal) (a1 m c) (a9 m c) (a10 m c)) e := by
  have hL : (fun h => ∑ r, row (a1 m c) e r * mat (Host.dotGeneral dot_S128x8_S8x6_S128x6_1_0_0_1_n_n none (a10 m c) (a9 m c)) h r)
      = rbfLeft (mat (a9 m c)) (mat (a10 m c)) (row (a1 m c) e) := by
    funext h
    refine Finset.sum_congr rfl fun r _ => congrArg (row (a1 m c) e r * ·) ?_
    exact Cert.LibRowOps.dotGeneral_plain_apply _ rfl none (a10 m c) (a9 m c) h r
  rw [hL, rbf_assoc (mat (a9 m c)) (mat (a10 m c)) (row (a1 m c) e) (fun r => hr1 (ix2 e r)) (fun b r => hr9 (ix2 b r))
    (fun h b => hr10 (ix2 h b))]
  funext h
  exact (Cert.ReferenceIdeal.EdgeRows.rbf_row (a1 m c) (a9 m c) (a10 m c) e h).symm

theorem msg_eq (hr1 : ∀ i, ∃ r : ℝ, a1 m c i = (r : EReal)) (hr9 : ∀ i, ∃ r : ℝ, a9 m c i = (r : EReal))
    (hr10 : ∀ i, ∃ r : ℝ, a10 m c i = (r : EReal))
    (e : Fin 600000) (h : Fin 128) (hlo : 0 ≤ (a29 m c (ix1 e)).toInt) (hhi : (a29 m c (ix1 e)).toInt < 50000) :
    W5 m ρ c (Proc.devRef .tc main_v8) (ix2 e h)
      = val_main_v38 (F := Ideal) (a0 m c) (a1 m c) (a7 m c) (a8 m c) (a9 m c) (a10 m c) (a11 m c) (a12 m c) (a29 m c) (ix2 e h) := by
  refine (congrFun (W5_arr m ρ c 5) _).trans ((Region1.value (V4 m ρ) c e h).trans ?_)
  rw [Cert.ReferenceIdeal.EdgeRows.msg_row]
  have e11 : Region1.wD (V4 m ρ) c = a11 m c := W4_arg11 m ρ c
  have e1 : Region1.r0 (V4 m ρ) c = a1 m c := W4_arg1 m ρ c
  have e7 : Region1.bD (V4 m ρ) c = shapeCast S1x128 (a12 m c) shapeCasts_S128_S1x128 := W4_v7 m ρ c
  have e6 : Region1.wR (V4 m ρ) c = Host.dotGeneral dot_S128x8_S8x6_S128x6_1_0_0_1_n_n none (a10 m c) (a9 m c) := W4_v6 m ρ c
  have eg : row (Region1.xg (V4 m ρ) c) e = row (val_main_v31 (F := Ideal) (a0 m c) (a7 m c) (a8 m c) (a29 m c)) e :=
    funext fun k => gathered_eq m ρ c e k hlo hhi
  rw [e11, e1, e7, e6, eg, row_shapeCast, rbf_eq m c hr1 hr9 hr10 e]

/-! ## The two summed arrays -/

theorem up_eq : W6 m ρ c (Proc.devRef .tc main_v2) = val_main_v2 (F := Ideal) (a2 m c) (a28 m c) :=
  W6_v2 m ρ c

theorem agg_eq (hr1 : ∀ i, ∃ r : ℝ, a1 m c i = (r : EReal)) (hr9 : ∀ i, ∃ r : ℝ, a9 m c i = (r : EReal))
    (hr10 : ∀ i, ∃ r : ℝ, a10 m c i = (r : EReal)) :
    W6 m ρ c (Proc.devRef .tc main_v11)
      = val_main_v41 (F := Ideal) (a0 m c) (a1 m c) (a7 m c) (a8 m c) (a9 m c) (a10 m c) (a11 m c) (a12 m c) (a29 m c) := by
  rw [W6_v11]
  show Ideal.hostScatterAdd scatter_S50000x128_S600000x1_S600000x128_1_0_0_1 _ _ _ = Ideal.hostScatterAdd _ _ _ _
  refine Cert.Indexing.scatterAdd_congr _ _ _ _ _ fun (j : (⟨2, ![600000, 128]⟩ : Shape).Idx) i hs => ?_
  obtain ⟨e, h, rfl⟩ : ∃ (e : Fin 600000) (h : Fin 128), j = ix2 e h := ⟨j 0, j 1, eq_ix2 j⟩
  have hin := Cert.Indexing.rowScatter_inrange _ e h i hs
  rw [Cert.Indexing.colBcast_apply _ bcast_S600000_S600000x1_0 e] at hin
  exact msg_eq m ρ c hr1 hr9 hr10 e h hin.1 hin.2

end Cert.KernelIdeal.Value

end
-- ==== Proof.Region2Pay.lean ====
import proofs.«429009_j55387898250018_2_alg».proof.Proof.Gen.KernelIdeal.Skeleton
import proofs.«429009_j55387898250018_2_alg».proof.Proof.Spec
import proofs.«429009_j55387898250018_2_alg».proof.Proof.LibRowOps
import proofs.«429009_j55387898250018_2_alg».proof.Proof.LibRowOpsT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2Pay

open Cert.KernelIdeal Cert.KernelIdeal.Gen Cert.MsgPass
open Idealize.ShloMosaic Idealize.ShloMosaic.ValueIdx
open scoped BigOperators

/-! ## Reading a matrix or a bias row out of a stack -/

/-- A rank-3 stack cut along its leading axis from `o` reads, at `(j, b, c)`, the source at `(k, b, c)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- Matrix `a` of a stack `[A, N, K]`, cut out as the `[1, N, K]` slab at offset `o = a` and viewed as `[N, K]`, reads
    the stack at `(a, h, k)`. -/
theorem stackMat_apply {α : Type} {A N K : ℕ} (o : ℕ) (X : (⟨3, ![A, N, K]⟩ : Shape).Idx → α)
    (hs : (⟨3, ![A, N, K]⟩ : Shape).Slices ![o, 0, 0] ⟨3, ![1, N, K]⟩)
    (hc : (⟨3, ![1, N, K]⟩ : Shape).ShapeCasts ⟨2, ![N, K]⟩) (a : Fin A) (ha : a.val = o) (h : Fin N) (k : Fin K) :
    shapeCast ⟨2, ![N, K]⟩ (extractStridedSlice ⟨3, ![1, N, K]⟩ ![o, 0, 0] X hs) hc (ix2 h k) = X (ix3 a h k) :=
  (shapeCast_1ab_ab_apply _ hc h k).trans (slice3_axis0_apply o X hs 0 h k a (ha.trans (Nat.add_zero o).symm))

/-- Row `a` of an `[A, N]` array, cut out as the `[1, N]` row at offset `o = a`, reads the array at `(a, h)`. -/
theorem stackRow_apply {α : Type} {A N : ℕ} (o : ℕ) (X : (⟨2, ![A, N]⟩ : Shape).Idx → α)
    (hs : (⟨2, ![A, N]⟩ : Shape).Slices ![o, 0] ⟨2, ![1, N]⟩) (a : Fin A) (ha : a.val = o) (h : Fin N) :
    extractStridedSlice ⟨2, ![1, N]⟩ ![o, 0] X hs (ix2 0 h) = X (ix2 a h) :=
  slice2_axis0_apply o X hs 0 h a (ha.trans (Nat.add_zero o).symm)

/-! ## One layer as the body spells it -/

/-- One layer of the body: the affine map of a block of rows (a product with the transposed weight into the zero
    accumulator plus the bias row broadcast down the rows), times its logistic. -/
def kLayer (A : FVec Ideal S2000x128 .f32) (W : FVec Ideal S128x128 .f32) (b : FVec Ideal S1x128 .f32) : FVec Ideal S2000x128 .f32 :=
  mulf (addf (matmul dot_S2000x128_S128x128_S2000x128_1_1_0_0_n_n none A W (constant S2000x128 .f32 0x00000000#32))
        (broadcastTo S2000x128 b broadcasts_S1x128_S2000x128))
    (logistic (addf (matmul dot_S2000x128_S128x128_S2000x128_1_1_0_0_n_n none A W (constant S2000x128 .f32 0x00000000#32))
        (broadcastTo S2000x128 b broadcasts_S1x128_S2000x128)))

/-- Row `p` of a layer of the body is the layer of row `p`: `x` is row `p` of the block, `Wf` and `bf` what the weight
    and the bias row read. -/
theorem kLayer_apply (A : FVec Ideal S2000x128 .f32) (W : FVec Ideal S128x128 .f32) (b : FVec Ideal S1x128 .f32)
    (p : Fin 2000) (x : Fin 128 → EReal) (Wf : Fin 128 → Fin 128 → EReal) (bf : Fin 128 → EReal)
    (hx : ∀ k, A (ix2 p k) = x k) (hW : ∀ h k, W (ix2 h k) = Wf h k) (hb : ∀ h, b (ix2 0 h) = bf h) (j : Fin 128) :
    kLayer A W b (ix2 p j) = layer Wf bf x j := by
  have ht := Cert.LibRowOpsT.layerT_apply dot_S2000x128_S128x128_S2000x128_1_1_0_0_n_n rfl A W b
    broadcasts_S1x128_S2000x128 p j x hx
  show _ * Ideal.logistic _ = silu (aff Wf bf x j)
  rw [ht, hb j]
  show _ = silu ((∑ k, x k * Wf j k) + bf j)
  simp only [hW]
  rfl

-- a block of 2000 rows of the three row arrays, and the weight arrays, as the node update's body loads them
variable (x0 x1 x2 : Vec Ideal S2000x128 .f32)
  (x3 : Vec Ideal S128x128 .f32) (x4 : Vec Ideal S1x128 .f32) (x5 : Vec Ideal S128x128 .f32) (x6 : Vec Ideal S1x128 .f32)
  (x7 : Vec Ideal S128x128 .f32) (x8 : Vec Ideal S1x128 .f32) (x9 : Vec Ideal S128x128 .f32) (x10 : Vec Ideal S1x128 .f32)
  (x11 : Vec Ideal S1x128x128 .f32) (x12 : Vec Ideal S1x128 .f32) (x13 : Vec Ideal S1x128x128 .f32) (x14 : Vec Ideal S1x128 .f32)
  (x15 : Vec Ideal S128x128 .f32) (x16 : Vec Ideal S1x128 .f32)
  (x17 : Vec Ideal S2x128x128 .f32) (x18 : Vec Ideal S2x128 .f32) (x19 : Vec Ideal S2x128x128 .f32) (x20 : Vec Ideal S2x128 .f32)
  (x21 : Vec Ideal S1x128 .f32)

/-- The weights, read out of the loaded weight blocks (`Wgu bgu Wi bi Wu bu Wc bc Wb1 bb1 Wb2 bb2 Wl bl Wa1 ba1 Wa2 ba2 W1`
    are the blocks `x3 … x21` in this order). -/
abbrev P : NodeW := NodeW.ofRows x3 x5 x7 x9 x15 x11 x13 x12 x14 x17 x19 x18 x20 x21 x4 x6 x8 x10 x16

/-- The body's value after the first residual block, as the printed body spells it. -/
abbrev mid : FVec Ideal S2000x128 .f32 :=
  k2_pay10 (k2_pay3 x0) x1 (k2_pay4 x2) x3 (k2_pay5 x4) x5 (k2_pay6 x6) x7 (k2_pay7 x8) x9 (k2_pay8 x10) x11 x12 x13 x14

/-- Row `p` of the body's value after the first residual block. -/
theorem mid_apply (p : Fin 2000) (q : Fin 128) :
    mid x0 x1 x2 x3 x4 x5 x6 x7 x8 x9 x10 x11 x12 x13 x14 (ix2 p q)
      = nodeMid (P x3 x4 x5 x6 x7 x8 x9 x10 x11 x12 x13 x14 x15 x16 x17 x18 x19 x20 x21) (row x0 p) (row x1 p) (row x2 p) q := by
  -- the specification's intermediate rows
  let W : NodeW := P x3 x4 x5 x6 x7 x8 x9 x10 x11 x12 x13 x14 x15 x16 x17 x18 x19 x20 x21
  let vu : Fin 128 → EReal := layer W.Wgu W.bgu (row x0 p)
  let xi : Fin 128 → EReal := layer W.Wi W.bi (row x1 p)
  let xm : Fin 128 → EReal := layer W.Wu W.bu (row x2 p)
  let a : Fin 128 → EReal := fun h => xm h + xi h
  let b : Fin 128 → EReal := fun h => layer W.Wc W.bc a h + vu h
  -- the body's intermediate blocks
  let s33 : FVec Ideal S2000x128 .f32 := kLayer (k2_pay3 x0) x3 (k2_pay5 x4)
  let s38 : FVec Ideal S2000x128 .f32 := kLayer x1 x5 (k2_pay6 x6)
  let s43 : FVec Ideal S2000x128 .f32 := kLayer (k2_pay4 x2) x7 (k2_pay7 x8)
  let s44 : FVec Ideal S2000x128 .f32 := addf s43 s38
  let s49 : FVec Ideal S2000x128 .f32 := kLayer s44 x9 (k2_pay8 x10)
  let s50 : FVec Ideal S2000x128 .f32 := addf s49 s33
  let s56 : FVec Ideal S2000x128 .f32 := kLayer s50 (shapeCast S128x128 x11 shapeCasts_S1x128x128_S128x128) x12
  let s62 : FVec Ideal S2000x128 .f32 := kLayer s56 (shapeCast S128x128 x13 shapeCasts_S1x128x128_S128x128) x14
  -- the three gated inputs: a block cast to its own shape is itself
  have h33 : ∀ h, s33 (ix2 p h) = vu h :=
    kLayer_apply _ _ _ p _ _ _ (fun k => congrFun (shapeCast_self x0 _) _) (fun _ _ => rfl)
      (fun h => congrFun (shapeCast_self x4 _) _)
  have h38 : ∀ h, s38 (ix2 p h) = xi h :=
    kLayer_apply _ _ _ p _ _ _ (fun _ => rfl) (fun _ _ => rfl) (fun h => congrFun (shapeCast_self x6 _) _)
  have h43 : ∀ h, s43 (ix2 p h) = xm h :=
    kLayer_apply _ _ _ p _ _ _ (fun k => congrFun (shapeCast_self x2 _) _) (fun _ _ => rfl)
      (fun h => congrFun (shapeCast_self x8 _) _)
  -- their mixture
  have h44 : ∀ h, s44 (ix2 p h) = a h := fun h => by
    show s43 (ix2 p h) + s38 (ix2 p h) = xm h + xi h
    rw [h43, h38]
  have h49 : ∀ h, s49 (ix2 p h) = layer W.Wc W.bc a h :=
    kLayer_apply _ _ _ p _ _ _ h44 (fun _ _ => rfl) (fun h => congrFun (shapeCast_self x10 _) _)
  have h50 : ∀ h, s50 (ix2 p h) = b h := fun h => by
    show s49 (ix2 p h) + s33 (ix2 p h) = layer W.Wc W.bc a h + vu h
    rw [h49, h33]
  -- the residual block: its two weights are the one matrix of a stack of one
  have h56 : ∀ h, s56 (ix2 p h) = layer W.Wb1 W.bb1 b h :=
    kLayer_apply _ _ _ p _ _ _ h50 (fun h k => shapeCast_1ab_ab_apply x11 _ h k) (fun _ => rfl)
  have h62 : ∀ h, s62 (ix2 p h) = layer W.Wb2 W.bb2 (layer W.Wb1 W.bb1 b) h :=
    kLayer_apply _ _ _ p _ _ _ h56 (fun h k => shapeCast_1ab_ab_apply x13 _ h k) (fun _ => rfl)
  show s50 (ix2 p q) + s62 (ix2 p q) = b q + layer W.Wb2 W.bb2 (layer W.Wb1 W.bb1 b) q
  rw [h50, h62]

/-- Row `p` of the first stored value: the node's new row. -/
theorem out_apply (p : Fin 2000) (q : Fin 128) :
    k2_pay1 x1 x15 (k2_pay9 x16) x17 x18 x19 x20 (mid x0 x1 x2 x3 x4 x5 x6 x7 x8 x9 x10 x11 x12 x13 x14)
        (constant S2000x128 .f32 0x00000000#32) (ix2 p q)
      = nodePost (P x3 x4 x5 x6 x7 x8 x9 x10 x11 x12 x13 x14 x15 x16 x17 x18 x19 x20 x21) (row x0 p) (row x1 p) (row x2 p) q := by
  -- the specification's intermediate rows
  let W : NodeW := P x3 x4 x5 x6 x7 x8 x9 x10 x11 x12 x13 x14 x15 x16 x17 x18 x19 x20 x21
  let c : Fin 128 → EReal := nodeMid W (row x0 p) (row x1 p) (row x2 p)
  let d : Fin 128 → EReal := fun h => layer W.Wl W.bl c h + row x1 p h
  let e : Fin 128 → EReal := fun h => d h + layer W.Wa20 W.ba20 (layer W.Wa10 W.ba10 d) h
  -- the body's intermediate blocks
  let s68 : FVec Ideal S2000x128 .f32 := kLayer (mid x0 x1 x2 x3 x4 x5 x6 x7 x8 x9 x10 x11 x12 x13 x14) x15 (k2_pay9 x16)
  let s69 : FVec Ideal S2000x128 .f32 := addf s68 x1
  let s77 : FVec Ideal S2000x128 .f32 := kLayer s69
    (shapeCast S128x128 (extractStridedSlice S1x128x128 ![0, 0, 0] x17 slices_S2x128x128_o0_0_0_S1x128x128) shapeCasts_S1x128x128_S128x128)
    (extractStridedSlice S1x128 ![0, 0] x18 slices_S2x128_o0_0_S1x128)
  let s85 : FVec Ideal S2000x128 .f32 := kLayer s77
    (shapeCast S128x128 (extractStridedSlice S1x128x128 ![0, 0, 0] x19 slices_S2x128x128_o0_0_0_S1x128x128) shapeCasts_S1x128x128_S128x128)
    (extractStridedSlice S1x128 ![0, 0] x20 slices_S2x128_o0_0_S1x128)
  let s86 : FVec Ideal S2000x128 .f32 := addf s69 s85
  let s94 : FVec Ideal S2000x128 .f32 := kLayer s86
    (shapeCast S128x128 (extractStridedSlice S1x128x128 ![1, 0, 0] x17 slices_S2x128x128_o1_0_0_S1x128x128) shapeCasts_S1x128x128_S128x128)
    (extractStridedSlice S1x128 ![1, 0] x18 slices_S2x128_o1_0_S1x128)
  let s102 : FVec Ideal S2000x128 .f32 := kLayer s94
    (shapeCast S128x128 (extractStridedSlice S1x128x128 ![1, 0, 0] x19 slices_S2x128x128_o1_0_0_S1x128x128) shapeCasts_S1x128x128_S128x128)
    (extractStridedSlice S1x128 ![1, 0] x20 slices_S2x128_o1_0_S1x128)
  -- the skip connection to the node's own row
  have h68 : ∀ h, s68 (ix2 p h) = layer W.Wl W.bl c h :=
    kLayer_apply _ _ _ p _ _ _ (mid_apply x0 x1 x2 x3 x4 x5 x6 x7 x8 x9 x10 x11 x12 x13 x14 x15 x16 x17 x18 x19 x20 x21 p)
      (fun _ _ => rfl) (fun h => congrFun (shapeCast_self x16 _) _)
  have h69 : ∀ h, s69 (ix2 p h) = d h := fun h => by
    show s68 (ix2 p h) + x1 (ix2 p h) = layer W.Wl W.bl c h + row x1 p h
    rw [h68]
    rfl
  -- the first residual block: matrix 0 and row 0 of the two stacks
  have h77 : ∀ h, s77 (ix2 p h) = layer W.Wa10 W.ba10 d h :=
    kLayer_apply _ _ _ p _ _ _ h69 (fun h k => stackMat_apply 0 x17 _ _ 0 rfl h k) (fun h => stackRow_apply 0 x18 _ 0 rfl h)
  have h85 : ∀ h, s85 (ix2 p h) = layer W.Wa20 W.ba20 (layer W.Wa10 W.ba10 d) h :=
    kLayer_apply _ _ _ p _ _ _ h77 (fun h k => stackMat_apply 0 x19 _ _ 0 rfl h k) (fun h => stackRow_apply 0 x20 _ 0 rfl h)
  have h86 : ∀ h, s86 (ix2 p h) = e h := fun h => by
    show s69 (ix2 p h) + s85 (ix2 p h) = d h + layer W.Wa20 W.ba20 (layer W.Wa10 W.ba10 d) h
    rw [h69, h85]
  -- the second residual block: matrix 1 and row 1
  have h94 : ∀ h, s94 (ix2 p h) = layer W.Wa11 W.ba11 e h :=
    kLayer_apply _ _ _ p _ _ _ h86 (fun h k => stackMat_apply 1 x17 _ _ 1 rfl h k) (fun h => stackRow_apply 1 x18 _ 1 rfl h)
  have h102 : ∀ h, s102 (ix2 p h) = layer W.Wa21 W.ba21 (layer W.Wa11 W.ba11 e) h :=
    kLayer_apply _ _ _ p _ _ _ h94 (fun h k => stackMat_apply 1 x19 _ _ 1 rfl h k) (fun h => stackRow_apply 1 x20 _ 1 rfl h)
  show s86 (ix2 p q) + s102 (ix2 p q) = e q + layer W.Wa21 W.ba21 (layer W.Wa11 W.ba11 e) q
  rw [h86, h102]

/-- Row `p` of the second stored value: the scalar read out of the node's new row. -/
theorem read_apply (p : Fin 2000) :
    k2_pay2 x1 x15 (k2_pay9 x16) x17 x18 x19 x20 x21 (mid x0 x1 x2 x3 x4 x5 x6 x7 x8 x9 x10 x11 x12 x13 x14)
        (constant S2000x128 .f32 0x00000000#32) (ix2 p 0)
      = readout (P x3 x4 x5 x6 x7 x8 x9 x10 x11 x12 x13 x14 x15 x16 x17 x18 x19 x20 x21)
          (nodePost (P x3 x4 x5 x6 x7 x8 x9 x10 x11 x12 x13 x14 x15 x16 x17 x18 x19 x20 x21) (row x0 p) (row x1 p) (row x2 p)) := by
  refine (Cert.LibRowOpsT.prodT_apply dot_S2000x128_S1x128_S2000x1_1_1_0_0_n_n rfl _ x21 p 0 _
    (out_apply x0 x1 x2 x3 x4 x5 x6 x7 x8 x9 x10 x11 x12 x13 x14 x15 x16 x17 x18 x19 x20 x21 p)).trans ?_
  rfl

end Cert.KernelIdeal.Region2Pay

end
-- ==== Proof.Region2.lean ====
import proofs.«429009_j55387898250018_2_alg».proof.Proof.Gen.KernelIdeal.Frame
import proofs.«429009_j55387898250018_2_alg».proof.Proof.Spec
import proofs.«429009_j55387898250018_2_alg».proof.Proof.LibRowOps
import proofs.«429009_j55387898250018_2_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.MsgPass
open Idealize.ShloMosaic Idealize.ShloMosaic.TcCoe Idealize.ShloMosaic.ValueIdx Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The three row arrays and the weight arrays as the region finds them (window order). -/
abbrev aUp (c : Dev nD) : (⟨2, ![50000, 128]⟩ : Shape).Idx → EReal := V c main_v2
abbrev aV (c : Dev nD) : (⟨2, ![50000, 128]⟩ : Shape).Idx → EReal := V c main_arg0
abbrev aXa (c : Dev nD) : (⟨2, ![50000, 128]⟩ : Shape).Idx → EReal := V c main_v11

/-- The weights read out of the weight arrays as the region finds them. -/
abbrev PV (c : Dev nD) : NodeW :=
  NodeW.ofRows (V c main_arg3) (V c main_arg5) (V c main_arg13) (V c main_arg15) (V c main_arg17) (V c main_arg19) (V c main_arg21)
    (V c main_arg20) (V c main_arg22) (V c main_arg23) (V c main_arg25) (V c main_arg24) (V c main_arg26) (V c main_arg27)
    (V c main_v12) (V c main_v13) (V c main_v14) (V c main_v15) (V c main_v16)

/-! ## Indices, and arrays read through a block -/

theorem hz : (![0, 0] : Fin 2 → Nat) = fun _ => 0 := funext fun a => by fin_cases a <;> rfl
theorem hz3 : (![0, 0, 0] : Fin 3 → Nat) = fun _ => 0 := funext fun a => by fin_cases a <;> rfl

/-- A rank-2 index is determined by its two coordinates. -/
theorem idx2_ext {n0 n1 : ℕ} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)

/-- A rank-3 index is determined by its three coordinates. -/
theorem idx3_ext {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-- A `[n0, n1]` array read through a block of its own size at block index `(o0, o1) = (0, 0)` is the array. -/
theorem whole2 {n0 n1 : ℕ} (A : (⟨2, ![n0, n1]⟩ : Shape).Idx → EReal)
    (e : (⟨2, ![n0, n1]⟩ : Shape).Idx → (⟨2, ![n0, n1]⟩ : Shape).Idx) (o0 o1 : ℕ)
    (h0 : ∀ y, ((e y) 0).val = o0 * n0 + 1 * (y 0).val) (h1 : ∀ y, ((e y) 1).val = o1 * n1 + 1 * (y 1).val)
    (z0 : o0 = 0) (z1 : o1 = 0) : (fun y => A (e y)) = A := by
  subst z0 z1
  funext y
  exact congrArg A (idx2_ext ((h0 y).trans (by omega)) ((h1 y).trans (by omega)))

/-- The same for a `[n0, n1, n2]` stack. -/
theorem whole3 {n0 n1 n2 : ℕ} (A : (⟨3, ![n0, n1, n2]⟩ : Shape).Idx → EReal)
    (e : (⟨3, ![n0, n1, n2]⟩ : Shape).Idx → (⟨3, ![n0, n1, n2]⟩ : Shape).Idx) (o0 o1 o2 : ℕ)
    (h0 : ∀ y, ((e y) 0).val = o0 * n0 + 1 * (y 0).val) (h1 : ∀ y, ((e y) 1).val = o1 * n1 + 1 * (y 1).val)
    (h2 : ∀ y, ((e y) 2).val = o2 * n2 + 1 * (y 2).val)
    (z0 : o0 = 0) (z1 : o1 = 0) (z2 : o2 = 0) : (fun y => A (e y)) = A := by
  subst z0 z1 z2
  funext y
  exact congrArg A (idx3_ext ((h0 y).trans (by omega)) ((h1 y).trans (by omega)) ((h2 y).trans (by omega)))

/-- Row `p` of a block of 2000 rows at row block `o0`, column block `o1 = 0`, of a `[50000, 128]` array is row
    `2000 · o0 + p` of the array. -/
theorem rowblk (A : (⟨2, ![50000, 128]⟩ : Shape).Idx → EReal) (e : S2000x128.Idx → (⟨2, ![50000, 128]⟩ : Shape).Idx) (o0 o1 : ℕ)
    (h0 : ∀ y, ((e y) 0).val = o0 * 2000 + 1 * (y 0).val) (h1 : ∀ y, ((e y) 1).val = o1 * 128 + 1 * (y 1).val)
    (z1 : o1 = 0) (p : Fin 2000) (i0 : Fin 50000) (hi : i0.val = o0 * 2000 + 1 * p.val) :
    row (fun y => A (e y)) p = row A i0 := by
  subst z1
  funext k
  show A (e (ix2 p k)) = A (ix2 i0 k)
  refine congrArg A (idx2_ext ((h0 _).trans hi.symm) ((h1 _).trans ?_))
  show 0 * 128 + 1 * k.val = k.val
  omega

/-! ## Where each window's block sits -/

/-- The weight windows sit at block index 0 on every axis, at every grid point. -/
theorem idx3 : ∀ t : Fin cfg2.N, ∀ a : Fin 2, win2_3.index t a = 0 := (by decide +kernel : ∀ t : Fin grid2.N, ∀ a : Fin 2, win2_3.index t a = 0)
theorem idx4 : ∀ t : Fin cfg2.N, ∀ a : Fin 2, win2_4.index t a = 0 := (by decide +kernel : ∀ t : Fin grid2.N, ∀ a : Fin 2, win2_4.index t a = 0)
theorem idx5 : ∀ t : Fin cfg2.N, ∀ a : Fin 2, win2_5.index t a = 0 := (by decide +kernel : ∀ t : Fin grid2.N, ∀ a : Fin 2, win2_5.index t a = 0)
theorem idx6 : ∀ t : Fin cfg2.N, ∀ a : Fin 2, win2_6.index t a = 0 := (by decide +kernel : ∀ t : Fin grid2.N, ∀ a : Fin 2, win2_6.index t a = 0)
theorem idx7 : ∀ t : Fin cfg2.N, ∀ a : Fin 2, win2_7.index t a = 0 := (by decide +kernel : ∀ t : Fin grid2.N, ∀ a : Fin 2, win2_7.index t a = 0)
theorem idx8 : ∀ t : Fin cfg2.N, ∀ a : Fin 2, win2_8.index t a = 0 := (by decide +kernel : ∀ t : Fin grid2.N, ∀ a : Fin 2, win2_8.index t a = 0)
theorem idx9 : ∀ t : Fin cfg2.N, ∀ a : Fin 2, win2_9.index t a = 0 := (by decide +kernel : ∀ t : Fin grid2.N, ∀ a : Fin 2, win2_9.index t a = 0)
theorem idx10 : ∀ t : Fin cfg2.N, ∀ a : Fin 2, win2_10.index t a = 0 := (by decide +kernel : ∀ t : Fin grid2.N, ∀ a : Fin 2, win2_10.index t a = 0)
theorem idx11 : ∀ t : Fin cfg2.N, ∀ a : Fin 3, win2_11.index t a = 0 := (by decide +kernel : ∀ t : Fin grid2.N, ∀ a : Fin 3, win2_11.index t a = 0)
theorem idx12 : ∀ t : Fin cfg2.N, ∀ a : Fin 2, win2_12.index t a = 0 := (by decide +kernel : ∀ t : Fin grid2.N, ∀ a : Fin 2, win2_12.index t a = 0)
theorem idx13 : ∀ t : Fin cfg2.N, ∀ a : Fin 3, win2_13.index t a = 0 := (by decide +kernel : ∀ t : Fin grid2.N, ∀ a : Fin 3, win2_13.index t a = 0)
theorem idx14 : ∀ t : Fin cfg2.N, ∀ a : Fin 2, win2_14.index t a = 0 := (by decide +kernel : ∀ t : Fin grid2.N, ∀ a : Fin 2, win2_14.index t a = 0)
theorem idx15 : ∀ t : Fin cfg2.N, ∀ a : Fin 2, win2_15.index t a = 0 := (by decide +kernel : ∀ t : Fin grid2.N, ∀ a : Fin 2, win2_15.index t a = 0)
theorem idx16 : ∀ t : Fin cfg2.N, ∀ a : Fin 2, win2_16.index t a = 0 := (by decide +kernel : ∀ t : Fin grid2.N, ∀ a : Fin 2, win2_16.index t a = 0)
theorem idx17 : ∀ t : Fin cfg2.N, ∀ a : Fin 3, win2_17.index t a = 0 := (by decide +kernel : ∀ t : Fin grid2.N, ∀ a : Fin 3, win2_17.index t a = 0)
theorem idx18 : ∀ t : Fin cfg2.N, ∀ a : Fin 2, win2_18.index t a = 0 := (by decide +kernel : ∀ t : Fin grid2.N, ∀ a : Fin 2, win2_18.index t a = 0)
theorem idx19 : ∀ t : Fin cfg2.N, ∀ a : Fin 3, win2_19.index t a = 0 := (by decide +kernel : ∀ t : Fin grid2.N, ∀ a : Fin 3, win2_19.index t a = 0)
theorem idx20 : ∀ t : Fin cfg2.N, ∀ a : Fin 2, win2_20.index t a = 0 := (by decide +kernel : ∀ t : Fin grid2.N, ∀ a : Fin 2, win2_20.index t a = 0)
theorem idx21 : ∀ t : Fin cfg2.N, ∀ a : Fin 2, win2_21.index t a = 0 := (by decide +kernel : ∀ t : Fin grid2.N, ∀ a : Fin 2, win2_21.index t a = 0)

/-- The three row windows and the second output move down the rows with the first output, all at column block 0. -/
theorem idx_rows : ∀ t : Fin cfg2.N, win2_0.index t (0 : Fin 2) = win2_22.index t (0 : Fin 2) ∧ win2_0.index t (1 : Fin 2) = 0
    ∧ win2_1.index t (0 : Fin 2) = win2_22.index t (0 : Fin 2) ∧ win2_1.index t (1 : Fin 2) = 0
    ∧ win2_2.index t (0 : Fin 2) = win2_22.index t (0 : Fin 2) ∧ win2_2.index t (1 : Fin 2) = 0
    ∧ win2_22.index t (1 : Fin 2) = 0
    ∧ win2_23.index t (0 : Fin 2) = win2_22.index t (0 : Fin 2) ∧ win2_23.index t (1 : Fin 2) = 0 :=
  (by decide +kernel : ∀ t : Fin grid2.N, _)

/-- Every row block `0 … 24` is some grid point's, for either output. -/
theorem idx_onto22 : ∀ q0 : Fin 25, ∃ t : Fin cfg2.N, win2_22.index t = ![q0.val, 0] :=
  (by decide +kernel : ∀ q0 : Fin 25, ∃ t : Fin grid2.N, win2_22.index t = ![q0.val, 0])
theorem idx_onto23 : ∀ q0 : Fin 25, ∃ t : Fin cfg2.N, win2_23.index t = ![q0.val, 0] :=
  (by decide +kernel : ∀ q0 : Fin 25, ∃ t : Fin grid2.N, win2_23.index t = ![q0.val, 0])

/-! ## The input blocks at a grid point, at their literal shapes -/

abbrev B0 (c : Dev nD) (t : Fin cfg2.N) : Vec Ideal S2000x128 .f32 := iblk2 V c 0 t
abbrev B1 (c : Dev nD) (t : Fin cfg2.N) : Vec Ideal S2000x128 .f32 := iblk2 V c 1 t
abbrev B2 (c : Dev nD) (t : Fin cfg2.N) : Vec Ideal S2000x128 .f32 := iblk2 V c 2 t
abbrev B3 (c : Dev nD) (t : Fin cfg2.N) : Vec Ideal S128x128 .f32 := iblk2 V c 3 t
abbrev B4 (c : Dev nD) (t : Fin cfg2.N) : Vec Ideal S1x128 .f32 := iblk2 V c 4 t
abbrev B5 (c : Dev nD) (t : Fin cfg2.N) : Vec Ideal S128x128 .f32 := iblk2 V c 5 t
abbrev B6 (c : Dev nD) (t : Fin cfg2.N) : Vec Ideal S1x128 .f32 := iblk2 V c 6 t
abbrev B7 (c : Dev nD) (t : Fin cfg2.N) : Vec Ideal S128x128 .f32 := iblk2 V c 7 t
abbrev B8 (c : Dev nD) (t : Fin cfg2.N) : Vec Ideal S1x128 .f32 := iblk2 V c 8 t
abbrev B9 (c : Dev nD) (t : Fin cfg2.N) : Vec Ideal S128x128 .f32 := iblk2 V c 9 t
abbrev B10 (c : Dev nD) (t : Fin cfg2.N) : Vec Ideal S1x128 .f32 := iblk2 V c 10 t
abbrev B11 (c : Dev nD) (t : Fin cfg2.N) : Vec Ideal S1x128x128 .f32 := iblk2 V c 11 t
abbrev B12 (c : Dev nD) (t : Fin cfg2.N) : Vec Ideal S1x128 .f32 := iblk2 V c 12 t
abbrev B13 (c : Dev nD) (t : Fin cfg2.N) : Vec Ideal S1x128x128 .f32 := iblk2 V c 13 t
abbrev B14 (c : Dev nD) (t : Fin cfg2.N) : Vec Ideal S1x128 .f32 := iblk2 V c 14 t
abbrev B15 (c : Dev nD) (t : Fin cfg2.N) : Vec Ideal S128x128 .f32 := iblk2 V c 15 t
abbrev B16 (c : Dev nD) (t : Fin cfg2.N) : Vec Ideal S1x128 .f32 := iblk2 V c 16 t
abbrev B17 (c : Dev nD) (t : Fin cfg2.N) : Vec Ideal S2x128x128 .f32 := iblk2 V c 17 t
abbrev B18 (c : Dev nD) (t : Fin cfg2.N) : Vec Ideal S2x128 .f32 := iblk2 V c 18 t
abbrev B19 (c : Dev nD) (t : Fin cfg2.N) : Vec Ideal S2x128x128 .f32 := iblk2 V c 19 t
abbrev B20 (c : Dev nD) (t : Fin cfg2.N) : Vec Ideal S2x128 .f32 := iblk2 V c 20 t
abbrev B21 (c : Dev nD) (t : Fin cfg2.N) : Vec Ideal S1x128 .f32 := iblk2 V c 21 t

/-! ## Each weight block is its whole array -/

theorem b3 (c : Dev nD) (t : Fin cfg2.N) : B3 V c t = (V c main_arg3 : (⟨2, ![128, 128]⟩ : Shape).Idx → EReal) :=
  whole2 (V c main_arg3) (fun y => ((cfg2.win 3).blk t).view.emb y) (win2_3.index t 0) (win2_3.index t 1) (fun _ => rfl) (fun _ => rfl) (idx3 t 0) (idx3 t 1)
theorem b4 (c : Dev nD) (t : Fin cfg2.N) : B4 V c t = (V c main_v12 : (⟨2, ![1, 128]⟩ : Shape).Idx → EReal) :=
  whole2 (V c main_v12) (fun y => ((cfg2.win 4).blk t).view.emb y) (win2_4.index t 0) (win2_4.index t 1) (fun _ => rfl) (fun _ => rfl) (idx4 t 0) (idx4 t 1)
theorem b5 (c : Dev nD) (t : Fin cfg2.N) : B5 V c t = (V c main_arg5 : (⟨2, ![128, 128]⟩ : Shape).Idx → EReal) :=
  whole2 (V c main_arg5) (fun y => ((cfg2.win 5).blk t).view.emb y) (win2_5.index t 0) (win2_5.index t 1) (fun _ => rfl) (fun _ => rfl) (idx5 t 0) (idx5 t 1)
theorem b6 (c : Dev nD) (t : Fin cfg2.N) : B6 V c t = (V c main_v13 : (⟨2, ![1, 128]⟩ : Shape).Idx → EReal) :=
  whole2 (V c main_v13) (fun y => ((cfg2.win 6).blk t).view.emb y) (win2_6.index t 0) (win2_6.index t 1) (fun _ => rfl) (fun _ => rfl) (idx6 t 0) (idx6 t 1)
theorem b7 (c : Dev nD) (t : Fin cfg2.N) : B7 V c t = (V c main_arg13 : (⟨2, ![128, 128]⟩ : Shape).Idx → EReal) :=
  whole2 (V c main_arg13) (fun y => ((cfg2.win 7).blk t).view.emb y) (win2_7.index t 0) (win2_7.index t 1) (fun _ => rfl) (fun _ => rfl) (idx7 t 0) (idx7 t 1)
theorem b8 (c : Dev nD) (t : Fin cfg2.N) : B8 V c t = (V c main_v14 : (⟨2, ![1, 128]⟩ : Shape).Idx → EReal) :=
  whole2 (V c main_v14) (fun y => ((cfg2.win 8).blk t).view.emb y) (win2_8.index t 0) (win2_8.index t 1) (fun _ => rfl) (fun _ => rfl) (idx8 t 0) (idx8 t 1)
theorem b9 (c : Dev nD) (t : Fin cfg2.N) : B9 V c t = (V c main_arg15 : (⟨2, ![128, 128]⟩ : Shape).Idx → EReal) :=
  whole2 (V c main_arg15) (fun y => ((cfg2.win 9).blk t).view.emb y) (win2_9.index t 0) (win2_9.index t 1) (fun _ => rfl) (fun _ => rfl) (idx9 t 0) (idx9 t 1)
theorem b10 (c : Dev nD) (t : Fin cfg2.N) : B10 V c t = (V c main_v15 : (⟨2, ![1, 128]⟩ : Shape).Idx → EReal) :=
  whole2 (V c main_v15) (fun y => ((cfg2.win 10).blk t).view.emb y) (win2_10.index t 0) (win2_10.index t 1) (fun _ => rfl) (fun _ => rfl) (idx10 t 0) (idx10 t 1)
theorem b11 (c : Dev nD) (t : Fin cfg2.N) : B11 V c t = (V c main_arg19 : (⟨3, ![1, 128, 128]⟩ : Shape).Idx → EReal) :=
  whole3 (V c main_arg19) (fun y => ((cfg2.win 11).blk t).view.emb y) (win2_11.index t 0) (win2_11.index t 1) (win2_11.index t 2)
    (fun _ => rfl) (fun _ => rfl) (fun _ => rfl) (idx11 t 0) (idx11 t 1) (idx11 t 2)
theorem b12 (c : Dev nD) (t : Fin cfg2.N) : B12 V c t = (V c main_arg20 : (⟨2, ![1, 128]⟩ : Shape).Idx → EReal) :=
  whole2 (V c main_arg20) (fun y => ((cfg2.win 12).blk t).view.emb y) (win2_12.index t 0) (win2_12.index t 1) (fun _ => rfl) (fun _ => rfl) (idx12 t 0) (idx12 t 1)
theorem b13 (c : Dev nD) (t : Fin cfg2.N) : B13 V c t = (V c main_arg21 : (⟨3, ![1, 128, 128]⟩ : Shape).Idx → EReal) :=
  whole3 (V c main_arg21) (fun y => ((cfg2.win 13).blk t).view.emb y) (win2_13.index t 0) (win2_13.index t 1) (win2_13.index t 2)
    (fun _ => rfl) (fun _ => rfl) (fun _ => rfl) (idx13 t 0) (idx13 t 1) (idx13 t 2)
theorem b14 (c : Dev nD) (t : Fin cfg2.N) : B14 V c t = (V c main_arg22 : (⟨2, ![1, 128]⟩ : Shape).Idx → EReal) :=
  whole2 (V c main_arg22) (fun y => ((cfg2.win 14).blk t).view.emb y) (win2_14.index t 0) (win2_14.index t 1) (fun _ => rfl) (fun _ => rfl) (idx14 t 0) (idx14 t 1)
theorem b15 (c : Dev nD) (t : Fin cfg2.N) : B15 V c t = (V c main_arg17 : (⟨2, ![128, 128]⟩ : Shape).Idx → EReal) :=
  whole2 (V c main_arg17) (fun y => ((cfg2.win 15).blk t).view.emb y) (win2_15.index t 0) (win2_15.index t 1) (fun _ => rfl) (fun _ => rfl) (idx15 t 0) (idx15 t 1)
theorem b16 (c : Dev nD) (t : Fin cfg2.N) : B16 V c t = (V c main_v16 : (⟨2, ![1, 128]⟩ : Shape).Idx → EReal) :=
  whole2 (V c main_v16) (fun y => ((cfg2.win 16).blk t).view.emb y) (win2_16.index t 0) (win2_16.index t 1) (fun _ => rfl) (fun _ => rfl) (idx16 t 0) (idx16 t 1)
theorem b17 (c : Dev nD) (t : Fin cfg2.N) : B17 V c t = (V c main_arg23 : (⟨3, ![2, 128, 128]⟩ : Shape).Idx → EReal) :=
  whole3 (V c main_arg23) (fun y => ((cfg2.win 17).blk t).view.emb y) (win2_17.index t 0) (win2_17.index t 1) (win2_17.index t 2)
    (fun _ => rfl) (fun _ => rfl) (fun _ => rfl) (idx17 t 0) (idx17 t 1) (idx17 t 2)
theorem b18 (c : Dev nD) (t : Fin cfg2.N) : B18 V c t = (V c main_arg24 : (⟨2, ![2, 128]⟩ : Shape).Idx → EReal) :=
  whole2 (V c main_arg24) (fun y => ((cfg2.win 18).blk t).view.emb y) (win2_18.index t 0) (win2_18.index t 1) (fun _ => rfl) (fun _ => rfl) (idx18 t 0) (idx18 t 1)
theorem b19 (c : Dev nD) (t : Fin cfg2.N) : B19 V c t = (V c main_arg25 : (⟨3, ![2, 128, 128]⟩ : Shape).Idx → EReal) :=
  whole3 (V c main_arg25) (fun y => ((cfg2.win 19).blk t).view.emb y) (win2_19.index t 0) (win2_19.index t 1) (win2_19.index t 2)
    (fun _ => rfl) (fun _ => rfl) (fun _ => rfl) (idx19 t 0) (idx19 t 1) (idx19 t 2)
theorem b20 (c : Dev nD) (t : Fin cfg2.N) : B20 V c t = (V c main_arg26 : (⟨2, ![2, 128]⟩ : Shape).Idx → EReal) :=
  whole2 (V c main_arg26) (fun y => ((cfg2.win 20).blk t).view.emb y) (win2_20.index t 0) (win2_20.index t 1) (fun _ => rfl) (fun _ => rfl) (idx20 t 0) (idx20 t 1)
theorem b21 (c : Dev nD) (t : Fin cfg2.N) : B21 V c t = (V c main_arg27 : (⟨2, ![1, 128]⟩ : Shape).Idx → EReal) :=
  whole2 (V c main_arg27) (fun y => ((cfg2.win 21).blk t).view.emb y) (win2_21.index t 0) (win2_21.index t 1) (fun _ => rfl) (fun _ => rfl) (idx21 t 0) (idx21 t 1)

/-- So the weights read out of the loaded blocks are the weights read out of the arrays. -/
theorem P_blocks (c : Dev nD) (t : Fin cfg2.N) :
    Region2Pay.P (B3 V c t) (B4 V c t) (B5 V c t) (B6 V c t) (B7 V c t) (B8 V c t) (B9 V c t) (B10 V c t) (B11 V c t) (B12 V c t)
      (B13 V c t) (B14 V c t) (B15 V c t) (B16 V c t) (B17 V c t) (B18 V c t) (B19 V c t) (B20 V c t) (B21 V c t) = PV V c := by
  rw [b3 V c t, b4 V c t, b5 V c t, b6 V c t, b7 V c t, b8 V c t, b9 V c t, b10 V c t, b11 V c t, b12 V c t, b13 V c t, b14 V c t,
    b15 V c t, b16 V c t, b17 V c t, b18 V c t, b19 V c t, b20 V c t, b21 V c t]

/-! ## The output arrays as functions of the inputs -/

/-- Entry `(r, q)` of the first output: feature `q` of the node update of row `r` of the three row arrays. -/
def G22 (c : Dev nD) : (⟨2, ![50000, 128]⟩ : Shape).Idx → EReal :=
  fun i => nodePost (PV V c) (row (aUp V c) (i 0)) (row (aV V c) (i 0)) (row (aXa V c) (i 0)) (i 1)

/-- Entry `(r, 0)` of the second output: the scalar read out of that new row. -/
def G23 (c : Dev nD) : (⟨2, ![50000, 1]⟩ : Shape).Idx → EReal :=
  fun i => readout (PV V c) (nodePost (PV V c) (row (aUp V c) (i 0)) (row (aV V c) (i 0)) (row (aXa V c) (i 0)))

/-- Row `p` of each row block at point `t` is the row of its array that row `p` of the first output's block lands on. -/
theorem rows22 (c : Dev nD) (t : Fin cfg2.N) (p : Fin 2000) (q : Fin 128) :
    row (B0 V c t) p = row (aUp V c) ((((cfg2.win 22).blk t).view.emb (ix2 p q : S2000x128.Idx)) 0)
    ∧ row (B1 V c t) p = row (aV V c) ((((cfg2.win 22).blk t).view.emb (ix2 p q : S2000x128.Idx)) 0)
    ∧ row (B2 V c t) p = row (aXa V c) ((((cfg2.win 22).blk t).view.emb (ix2 p q : S2000x128.Idx)) 0) := by
  obtain ⟨e0, e1, e2, e3, e4, e5, e6, e7, e8⟩ := idx_rows t
  have hi : ((((cfg2.win 22).blk t).view.emb (ix2 p q : S2000x128.Idx)) 0).val = win2_22.index t (0 : Fin 2) * 2000 + 1 * p.val := rfl
  exact ⟨rowblk (V c main_v2) (fun y => ((cfg2.win 0).blk t).view.emb y) (win2_0.index t 0) (win2_0.index t 1) (fun _ => rfl) (fun _ => rfl) e1 p _ (hi.trans (by rw [e0])),
    rowblk (V c main_arg0) (fun y => ((cfg2.win 1).blk t).view.emb y) (win2_1.index t 0) (win2_1.index t 1) (fun _ => rfl) (fun _ => rfl) e3 p _ (hi.trans (by rw [e2])),
    rowblk (V c main_v11) (fun y => ((cfg2.win 2).blk t).view.emb y) (win2_2.index t 0) (win2_2.index t 1) (fun _ => rfl) (fun _ => rfl) e5 p _ (hi.trans (by rw [e4]))⟩

/-- The same against the second output's block. -/
theorem rows23 (c : Dev nD) (t : Fin cfg2.N) (p : Fin 2000) :
    row (B0 V c t) p = row (aUp V c) ((((cfg2.win 23).blk t).view.emb (ix2 p 0 : S2000x1.Idx)) 0)
    ∧ row (B1 V c t) p = row (aV V c) ((((cfg2.win 23).blk t).view.emb (ix2 p 0 : S2000x1.Idx)) 0)
    ∧ row (B2 V c t) p = row (aXa V c) ((((cfg2.win 23).blk t).view.emb (ix2 p 0 : S2000x1.Idx)) 0) := by
  obtain ⟨e0, e1, e2, e3, e4, e5, e6, e7, e8⟩ := idx_rows t
  have hi : ((((cfg2.win 23).blk t).view.emb (ix2 p 0 : S2000x1.Idx)) 0).val = win2_23.index t (0 : Fin 2) * 2000 + 1 * p.val := rfl
  exact ⟨rowblk (V c main_v2) (fun y => ((cfg2.win 0).blk t).view.emb y) (win2_0.index t 0) (win2_0.index t 1) (fun _ => rfl) (fun _ => rfl) e1 p _ (hi.trans (by rw [e0, e7])),
    rowblk (V c main_arg0) (fun y => ((cfg2.win 1).blk t).view.emb y) (win2_1.index t 0) (win2_1.index t 1) (fun _ => rfl) (fun _ => rfl) e3 p _ (hi.trans (by rw [e2, e7])),
    rowblk (V c main_v11) (fun y => ((cfg2.win 2).blk t).view.emb y) (win2_2.index t 0) (win2_2.index t 1) (fun _ => rfl) (fun _ => rfl) e5 p _ (hi.trans (by rw [e4, e7]))⟩

/-- The first output's block keeps the column: it starts at column 0. -/
theorem emb_col22 (t : Fin cfg2.N) (y : S2000x128.Idx) : (((cfg2.win 22).blk t).view.emb y) 1 = y 1 := by
  obtain ⟨e0, e1, e2, e3, e4, e5, e6, e7, e8⟩ := idx_rows t
  refine Fin.ext ?_
  show win2_22.index t (1 : Fin 2) * 128 + 1 * (y 1).val = (y 1).val
  omega

/-- At every entry of the block, what the body stores first, computed from the blocks at point `t`, is `G22` at the array
    index the entry lands on. -/
theorem point22 (c : Dev nD) (t : Fin cfg2.N) (y : S2000x128.Idx) :
    k2_pay1 (B1 V c t) (B15 V c t) (k2_pay9 (B16 V c t)) (B17 V c t) (B18 V c t) (B19 V c t) (B20 V c t)
        (k2_pay10 (k2_pay3 (B0 V c t)) (B1 V c t) (k2_pay4 (B2 V c t)) (B3 V c t) (k2_pay5 (B4 V c t)) (B5 V c t) (k2_pay6 (B6 V c t))
          (B7 V c t) (k2_pay7 (B8 V c t)) (B9 V c t) (k2_pay8 (B10 V c t)) (B11 V c t) (B12 V c t) (B13 V c t) (B14 V c t))
        (constant S2000x128 .f32 0x00000000#32) y
      = G22 V c (((cfg2.win 22).blk t).view.emb y) := by
  obtain ⟨p, q, rfl⟩ : ∃ (p : Fin 2000) (q : Fin 128), y = ix2 p q := ⟨y 0, y 1, eq_ix2 y⟩
  refine (Region2Pay.out_apply (B0 V c t) (B1 V c t) (B2 V c t) (B3 V c t) (B4 V c t) (B5 V c t) (B6 V c t) (B7 V c t) (B8 V c t)
    (B9 V c t) (B10 V c t) (B11 V c t) (B12 V c t) (B13 V c t) (B14 V c t) (B15 V c t) (B16 V c t) (B17 V c t) (B18 V c t) (B19 V c t)
    (B20 V c t) (B21 V c t) p q).trans ?_
  obtain ⟨r0, r1, r2⟩ := rows22 V c t p q
  unfold G22
  rw [emb_col22, P_blocks, r0, r1, r2]

/-- At the one entry of each row of the block, what the body stores second is `G23` at the array index it lands on. -/
theorem point23 (c : Dev nD) (t : Fin cfg2.N) (y : S2000x1.Idx) :
    k2_pay2 (B1 V c t) (B15 V c t) (k2_pay9 (B16 V c t)) (B17 V c t) (B18 V c t) (B19 V c t) (B20 V c t) (B21 V c t)
        (k2_pay10 (k2_pay3 (B0 V c t)) (B1 V c t) (k2_pay4 (B2 V c t)) (B3 V c t) (k2_pay5 (B4 V c t)) (B5 V c t) (k2_pay6 (B6 V c t))
          (B7 V c t) (k2_pay7 (B8 V c t)) (B9 V c t) (k2_pay8 (B10 V c t)) (B11 V c t) (B12 V c t) (B13 V c t) (B14 V c t))
        (constant S2000x128 .f32 0x00000000#32) y
      = G23 V c (((cfg2.win 23).blk t).view.emb y) := by
  obtain ⟨p, rfl⟩ : ∃ p : Fin 2000, y = ix2 p 0 :=
    ⟨y 0, (eq_ix2 (n0 := 2000) (n1 := 1) y).trans (congrArg (ix2 (y 0)) (Fin.ext (Nat.lt_one_iff.mp (y 1).isLt)))⟩
  refine (Region2Pay.read_apply (B0 V c t) (B1 V c t) (B2 V c t) (B3 V c t) (B4 V c t) (B5 V c t) (B6 V c t) (B7 V c t) (B8 V c t)
    (B9 V c t) (B10 V c t) (B11 V c t) (B12 V c t) (B13 V c t) (B14 V c t) (B15 V c t) (B16 V c t) (B17 V c t) (B18 V c t) (B19 V c t)
    (B20 V c t) (B21 V c t) p).trans ?_
  obtain ⟨r0, r1, r2⟩ := rows23 V c t p
  unfold G23
  rw [P_blocks, r0, r1, r2]

/-! ## What each point writes back -/

theorem flushed22_eq (c : Dev nD) (t : Fin cfg2.N) :
    (dat2 V c).flushed 22 t = ((cfg2.win 22).blk t).view.read (Elt Ideal) (G22 V c) := by
  show (cfg2.win 22).cut (grid2.coords t) ((dat2 V c).after 22 t) = _
  rw [after2_22]
  unfold out2_22
  rw [View.canon_unit_zero hz]
  simp only [View.ld_unit_zero (S := S2000x128) hz, View.ld_unit_zero (S := S128x128) hz, View.ld_unit_zero (S := S1x128) hz,
    View.ld_unit_zero (S := S1x128x128) hz3, View.ld_unit_zero (S := S2x128x128) hz3, View.ld_unit_zero (S := S2x128) hz]
  funext y
  exact point22 V c t y

theorem flushed23_eq (c : Dev nD) (t : Fin cfg2.N) :
    (dat2 V c).flushed 23 t = ((cfg2.win 23).blk t).view.read (Elt Ideal) (G23 V c) := by
  show (cfg2.win 23).cut (grid2.coords t) ((dat2 V c).after 23 t) = _
  rw [after2_23]
  unfold out2_23
  rw [View.canon_unit_zero hz]
  simp only [View.ld_unit_zero (S := S2000x128) hz, View.ld_unit_zero (S := S128x128) hz, View.ld_unit_zero (S := S1x128) hz,
    View.ld_unit_zero (S := S1x128x128) hz3, View.ld_unit_zero (S := S2x128x128) hz3, View.ld_unit_zero (S := S2x128) hz]
  funext y
  exact point23 V c t y

/-! ## The blocks cover the arrays -/

/-- An index of an output array is in point `t`'s block iff each coordinate is in the block's range on its axis. -/
theorem mem_blk22 (t : Fin cfg2.N) (i : (⟨2, ![50000, 128]⟩ : Shape).Idx) :
    i ∈ ((cfg2.win 22).blk t).view.set ↔ ∀ a : Fin 2, win2_22.index t a * S2000x128.size a ≤ (i a).val ∧ (i a).val < win2_22.index t a * S2000x128.size a + S2000x128.size a := by
  show i ∈ ((View.whole main_v17_0).slice (win2_22.rect t)).set ↔ _
  rw [View.set_slice_whole, Rect.mem_set_unit]
  exact Iff.rfl

theorem mem_blk23 (t : Fin cfg2.N) (i : (⟨2, ![50000, 1]⟩ : Shape).Idx) :
    i ∈ ((cfg2.win 23).blk t).view.set ↔ ∀ a : Fin 2, win2_23.index t a * S2000x1.size a ≤ (i a).val ∧ (i a).val < win2_23.index t a * S2000x1.size a + S2000x1.size a := by
  show i ∈ ((View.whole main_v17_1).slice (win2_23.rect t)).set ↔ _
  rw [View.set_slice_whole, Rect.mem_set_unit]
  exact Iff.rfl

/-- Row `r` is in the block of the point whose row block is `r / 2000`: `50000 = 25 · 2000`. -/
theorem cover22 (i : (⟨2, ![50000, 128]⟩ : Shape).Idx) :
    ∃ t : Fin cfg2.N, (cfg2.win 22).flush t = true ∧ i ∈ ((cfg2.win 22).blk t).view.set := by
  have hi0 : (i 0).val < 50000 := (i 0).isLt
  have hi1 : (i 1).val < 128 := (i 1).isLt
  obtain ⟨t, ht⟩ := idx_onto22 ⟨(i 0).val / 2000, by omega⟩
  have q0 : win2_22.index t (0 : Fin 2) = (i 0).val / 2000 := congrFun ht 0
  have q1 : win2_22.index t (1 : Fin 2) = 0 := congrFun ht 1
  refine ⟨t, flush2_22 t, ?_⟩
  rw [mem_blk22]
  intro a
  match a with
  | ⟨0, _⟩ => show win2_22.index t (0 : Fin 2) * 2000 ≤ (i 0).val ∧ (i 0).val < win2_22.index t (0 : Fin 2) * 2000 + 2000; omega
  | ⟨1, _⟩ => show win2_22.index t (1 : Fin 2) * 128 ≤ (i 1).val ∧ (i 1).val < win2_22.index t (1 : Fin 2) * 128 + 128; omega

theorem cover23 (i : (⟨2, ![50000, 1]⟩ : Shape).Idx) :
    ∃ t : Fin cfg2.N, (cfg2.win 23).flush t = true ∧ i ∈ ((cfg2.win 23).blk t).view.set := by
  have hi0 : (i 0).val < 50000 := (i 0).isLt
  have hi1 : (i 1).val < 1 := (i 1).isLt
  obtain ⟨t, ht⟩ := idx_onto23 ⟨(i 0).val / 2000, by omega⟩
  have q0 : win2_23.index t (0 : Fin 2) = (i 0).val / 2000 := congrFun ht 0
  have q1 : win2_23.index t (1 : Fin 2) = 0 := congrFun ht 1
  refine ⟨t, flush2_23 t, ?_⟩
  rw [mem_blk23]
  intro a
  match a with
  | ⟨0, _⟩ => show win2_23.index t (0 : Fin 2) * 2000 ≤ (i 0).val ∧ (i 0).val < win2_23.index t (0 : Fin 2) * 2000 + 2000; omega
  | ⟨1, _⟩ => show win2_23.index t (1 : Fin 2) * 1 ≤ (i 1).val ∧ (i 1).val < win2_23.index t (1 : Fin 2) * 1 + 1; omega

/-- The output arrays after the region are `G22` and `G23`, everywhere. -/
theorem final22 (c : Dev nD) : (dat2 V c).arrAt 22 cfg2.N = G22 V c :=
  (dat2 V c).arrAt_eq_of_cover 22 (G22 V c) (fun t _ => flushed22_eq V c t) cover22

theorem final23 (c : Dev nD) : (dat2 V c).arrAt 23 cfg2.N = G23 V c :=
  (dat2 V c).arrAt_eq_of_cover 23 (G23 V c) (fun t _ => flushed23_eq V c t) cover23

/-- After the region, row `p` of its first output array is the node update of row `p` of the three row arrays. -/
theorem value22 (c : Dev nD) (p : Fin 50000) (q : Fin 128) :
    ((dat2 V c).arrAt 22 cfg2.N : (⟨2, ![50000, 128]⟩ : Shape).Idx → EReal) (ix2 p q)
      = nodePost (PV V c) (row (aUp V c) p) (row (aV V c) p) (row (aXa V c) p) q :=
  congrFun (final22 V c) (ix2 p q)

/-- After the region, entry `p` of its second output array is the scalar read out of that new row. -/
theorem value23 (c : Dev nD) (p : Fin 50000) :
    ((dat2 V c).arrAt 23 cfg2.N : (⟨2, ![50000, 1]⟩ : Shape).Idx → EReal) (ix2 p 0)
      = readout (PV V c) (nodePost (PV V c) (row (aUp V c) p) (row (aV V c) p) (row (aXa V c) p)) :=
  congrFun (final23 V c) (ix2 p 0)

end Cert.KernelIdeal.Region2

end
-- ==== Proof.RefNodeRows.lean ====
import proofs.«429009_j55387898250018_2_alg».proof.Proof.RefRead
import proofs.«429009_j55387898250018_2_alg».proof.Proof.Spec
import proofs.«429009_j55387898250018_2_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.NodeRows

open Cert.ReferenceIdeal Cert.ReferenceIdeal.Gen Cert.ReferenceIdeal.ReadP Cert.MsgPass Cert.LibRowOps
open Idealize.ShloMosaic Idealize.ShloMosaic.ValueIdx
open scoped BigOperators

/-!
  The node side of the reference program, read one row at a time.

  Every layer of the program is the same nine operations on different operands: a product with the transposed
  weight matrix, the bias vector laid out as a row and repeated down the rows, their sum `e`, and the activation
  spelled as `e * (1 / (1 + exp (-e)))`. `preT` and `siluT` are these operations over abstract operands, and
  `layerT_row` reads them at `(p, h)` as the specification's `layer` applied to row `p` of the input. The
  residual blocks take their weights out of stacks by a reshape, or by a slice and a reshape, which read matrix
  `a` (row `a`) of the stack. The node update is then eleven instances of the layer lemma joined by five sums of
  rows, in the order of the specification's `nodeMid` and `nodeOut`; the read-out is one more product, with a
  transposed row.
-/

/-! ## One layer over abstract operands -/

/-- The affine part of a layer as the program spells it: the product with the transposed weight matrix, plus the
    bias vector laid out as a row and repeated down the rows. -/
def preT (X : FVec Ideal S50000x128 .f32) (W : FVec Ideal S128x128 .f32) (b : FVec Ideal S128 .f32) :
    FVec Ideal S50000x128 .f32 :=
  addf (Host.dotGeneral dot_S50000x128_S128x128_S50000x128_1_0_0_1_n_n none X
      (transpose S128x128 [1, 0] W transposes_S128x128_S128x128_1_0))
    (broadcastInDim S50000x128 ![0, 1] bcast_S1x128_S50000x128_0_1 (broadcastInDim S1x128 ![1] bcast_S128_S1x128_1 b))

/-- The activation as the program spells it: `e * (1 / (1 + exp (-e)))`, the two ones being broadcast constants. -/
def siluT (E : FVec Ideal S50000x128 .f32) : FVec Ideal S50000x128 .f32 :=
  mulf E (Host.divf (broadcastInDim S50000x128 ![] bcast_S_S50000x128 (constant S_ .f32 0x3F800000#32))
    (addf (broadcastInDim S50000x128 ![] bcast_S_S50000x128 (constant S_ .f32 0x3F800000#32)) (Host.exp (Host.negf E))))

/-- The spelled-out activation is `silu`, entry by entry. -/
theorem siluT_apply (E : FVec Ideal S50000x128 .f32) (i : S50000x128.Idx) : siluT E i = silu (E i) := by
  show E i * Ideal.div (Ideal.ofBits .f32 0x3F800000#32) (Ideal.ofBits .f32 0x3F800000#32 + Ideal.exp (-(E i))) = E i * Ideal.logistic (E i)
  rw [Ideal.ofBits_one_f32]
  rfl

/-- The spelled-out affine part at `(p, h)` is the affine map of row `p`. -/
theorem preT_apply (X : FVec Ideal S50000x128 .f32) (W : FVec Ideal S128x128 .f32) (b : FVec Ideal S128 .f32)
    (p : Fin 50000) (h : Fin 128) : preT X W b (ix2 p h) = aff (mat W) (vec b) (row X p) h := by
  show Host.dotGeneral dot_S50000x128_S128x128_S50000x128_1_0_0_1_n_n none X
      (transpose S128x128 [1, 0] W transposes_S128x128_S128x128_1_0) (ix2 p h)
    + broadcastInDim S50000x128 ![0, 1] bcast_S1x128_S50000x128_0_1 (broadcastInDim S1x128 ![1] bcast_S128_S1x128_1 b) (ix2 p h)
    = (∑ k, X (ix2 p k) * W (ix2 h k)) + b (ix1 h)
  rw [dotGeneral_plain_apply dot_S50000x128_S128x128_S50000x128_1_0_0_1_n_n rfl none X _ p h]
  have hb : broadcastInDim S50000x128 ![0, 1] bcast_S1x128_S50000x128_0_1 (broadcastInDim S1x128 ![1] bcast_S128_S1x128_1 b) (ix2 p h)
      = b (ix1 h) := by
    refine (broadcastInDim_apply _ bcast_S1x128_S50000x128_0_1 _ (ix2 p h) (ix2 0 h) (fun a => by
      match a with
      | ⟨0, _⟩ => rfl
      | ⟨1, _⟩ => rfl)).trans ?_
    exact broadcastInDim_apply _ bcast_S128_S1x128_1 b (ix2 0 h) (ix1 h) (fun a => by
      match a with
      | ⟨0, _⟩ => rfl)
  rw [hb]
  refine congrArg (· + b (ix1 h)) (Finset.sum_congr rfl fun k _ => ?_)
  rw [transpose_apply [1, 0] W transposes_S128x128_S128x128_1_0 (ix2 k h) (ix2 h k) (fun c => by
    match c with
    | ⟨0, _⟩ => rfl
    | ⟨1, _⟩ => rfl)]

/-- One whole layer at `(p, h)`, from row `p` of its input and the weights read as a matrix and a vector. -/
theorem layerT_row (X : FVec Ideal S50000x128 .f32) (W : FVec Ideal S128x128 .f32) (b : FVec Ideal S128 .f32) (p : Fin 50000)
    (W' : Fin 128 → Fin 128 → EReal) (b' : Fin 128 → EReal) (x : Fin 128 → EReal)
    (hW : mat W = W') (hb : vec b = b') (hx : ∀ k, X (ix2 p k) = x k) (h : Fin 128) :
    siluT (preT X W b) (ix2 p h) = layer W' b' x h := by
  rw [siluT_apply, preT_apply, hW, hb, show row X p = x from funext hx]
  rfl

/-! ## The stacked weights: a reshape, or a slice and a reshape, reads one matrix or one row of the stack -/

/-- The one-matrix stack reshaped to a matrix is matrix `0` of the stack. -/
theorem mat_reshape (x : FVec Ideal S1x128x128 .f32) :
    mat (shapeCast S128x128 x shapeCasts_S1x128x128_S128x128) = mat3 x 0 := by
  funext h k
  refine shapeCast_apply x shapeCasts_S1x128x128_S128x128 (ix2 h k) (ix3 0 h k) ?_
  rewrite [Shape.rowMajor_val_three, Shape.rowMajor_val_two]
  show (0 * 128 + h.val) * 128 + k.val = h.val * 128 + k.val
  omega

/-- The one-row stack reshaped to a vector is row `0` of the stack. -/
theorem vec_reshape (x : FVec Ideal S1x128 .f32) : vec (shapeCast S128 x shapeCasts_S1x128_S128) = row x 0 := by
  funext h
  refine shapeCast_apply x shapeCasts_S1x128_S128 (ix1 h) (ix2 0 h) ?_
  rewrite [Shape.rowMajor_val_two, Shape.rowMajor_val_one]
  show 0 * 128 + h.val = h.val
  omega

/-- Matrix `0` cut out of the two-matrix stack and reshaped to a matrix. -/
theorem mat_slice0 (x : FVec Ideal S2x128x128 .f32) :
    mat (shapeCast S128x128 (extractStridedSlice S1x128x128 ![0, 0, 0] x slices_S2x128x128_S1x128x128_0_0_0)
      shapeCasts_S1x128x128_S128x128) = mat3 x 0 := by
  rw [mat_reshape]
  funext h k
  exact extractStridedSlice_apply ![0, 0, 0] x slices_S2x128x128_S1x128x128_0_0_0 (ix3 0 h k) (ix3 0 h k) (fun a => by
    match a with
    | ⟨0, _⟩ => rfl
    | ⟨1, _⟩ => exact (Nat.zero_add h.val).symm
    | ⟨2, _⟩ => exact (Nat.zero_add k.val).symm)

/-- Matrix `1` cut out of the two-matrix stack and reshaped to a matrix. -/
theorem mat_slice1 (x : FVec Ideal S2x128x128 .f32) :
    mat (shapeCast S128x128 (extractStridedSlice S1x128x128 ![1, 0, 0] x slices_S2x128x128_S1x128x128_1_0_0)
      shapeCasts_S1x128x128_S128x128) = mat3 x 1 := by
  rw [mat_reshape]
  funext h k
  exact extractStridedSlice_apply ![1, 0, 0] x slices_S2x128x128_S1x128x128_1_0_0 (ix3 0 h k) (ix3 1 h k) (fun a => by
    match a with
    | ⟨0, _⟩ => rfl
    | ⟨1, _⟩ => exact (Nat.zero_add h.val).symm
    | ⟨2, _⟩ => exact (Nat.zero_add k.val).symm)

/-- Row `0` cut out of the two-row stack and reshaped to a vector. -/
theorem vec_slice0 (x : FVec Ideal S2x128 .f32) :
    vec (shapeCast S128 (extractStridedSlice S1x128 ![0, 0] x slices_S2x128_S1x128_0_0) shapeCasts_S1x128_S128) = row x 0 := by
  rw [vec_reshape]
  funext h
  exact extractStridedSlice_apply ![0, 0] x slices_S2x128_S1x128_0_0 (ix2 0 h) (ix2 0 h) (fun a => by
    match a with
    | ⟨0, _⟩ => rfl
    | ⟨1, _⟩ => exact (Nat.zero_add h.val).symm)

/-- Row `1` cut out of the two-row stack and reshaped to a vector. -/
theorem vec_slice1 (x : FVec Ideal S2x128 .f32) :
    vec (shapeCast S128 (extractStridedSlice S1x128 ![1, 0] x slices_S2x128_S1x128_1_0) shapeCasts_S1x128_S128) = row x 1 := by
  rw [vec_reshape]
  funext h
  exact extractStridedSlice_apply ![1, 0] x slices_S2x128_S1x128_1_0 (ix2 0 h) (ix2 1 h) (fun a => by
    match a with
    | ⟨0, _⟩ => rfl
    | ⟨1, _⟩ => exact (Nat.zero_add h.val).symm)

/-! ## The program's node side, row by row -/

-- every argument of @main
variable (x0 : FVec Ideal S50000x128 .f32) (x1 : FVec Ideal S600000x6 .f32) (x2 : FVec Ideal S600000x128 .f32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S8x6 .f32) (x10 : FVec Ideal S128x8 .f32) (x11 : FVec Ideal S128x128 .f32) (x12 : FVec Ideal S128 .f32) (x13 : FVec Ideal S128x128 .f32) (x14 : FVec Ideal S128 .f32) (x15 : FVec Ideal S128x128 .f32) (x16 : FVec Ideal S128 .f32) (x17 : FVec Ideal S128x128 .f32) (x18 : FVec Ideal S128 .f32) (x19 : FVec Ideal S1x128x128 .f32) (x20 : FVec Ideal S1x128 .f32) (x21 : FVec Ideal S1x128x128 .f32) (x22 : FVec Ideal S1x128 .f32) (x23 : FVec Ideal S2x128x128 .f32) (x24 : FVec Ideal S2x128 .f32) (x25 : FVec Ideal S2x128x128 .f32) (x26 : FVec Ideal S2x128 .f32) (x27 : FVec Ideal S1x128 .f32) (x28 : IVec S600000 32) (x29 : IVec S600000 32)

/-- The node update's weights read out of the argument arrays. -/
abbrev PR : NodeW := NodeW.ofVecs x3 x5 x13 x15 x17 x19 x21 x20 x22 x23 x25 x24 x26 x27 x4 x6 x14 x16 x18

/-- The summed edge features arriving at each node, and the summed messages arriving at each node. -/
abbrev up : FVec Ideal S50000x128 .f32 := val_main_v2 (F := Ideal) x2 x28
abbrev xa : FVec Ideal S50000x128 .f32 := val_main_v41 (F := Ideal) x0 x1 x7 x8 x9 x10 x11 x12 x29

/-- Row `n` of the first result: the node update of that node's three rows. -/
theorem node_row (n : Fin 50000) (h : Fin 128) :
    val_main_v121 (F := Ideal) x0 x1 x2 x3 x4 x5 x6 x7 x8 x9 x10 x11 x12 x13 x14 x15 x16 x17 x18 x19 x20 x21 x22 x23 x24 x25 x26 x28 x29 (ix2 n h)
      = nodePost (PR x3 x4 x5 x6 x13 x14 x15 x16 x17 x18 x19 x20 x21 x22 x23 x24 x25 x26 x27)
          (row (up x2 x28) n) (row x0 n) (row (xa x0 x1 x7 x8 x9 x10 x11 x12 x29) n) h := by
  -- the rows the specification names, in its order
  let P : NodeW := PR x3 x4 x5 x6 x13 x14 x15 x16 x17 x18 x19 x20 x21 x22 x23 x24 x25 x26 x27
  let v : Fin 128 → EReal := row x0 n
  let vu : Fin 128 → EReal := layer P.Wgu P.bgu (row (up x2 x28) n)
  let xi : Fin 128 → EReal := layer P.Wi P.bi v
  let m : Fin 128 → EReal := layer P.Wu P.bu (row (xa x0 x1 x7 x8 x9 x10 x11 x12 x29) n)
  let a : Fin 128 → EReal := fun h => m h + xi h
  let b : Fin 128 → EReal := fun h => layer P.Wc P.bc a h + vu h
  let c : Fin 128 → EReal := fun h => b h + layer P.Wb2 P.bb2 (layer P.Wb1 P.bb1 b) h
  let d : Fin 128 → EReal := fun h => layer P.Wl P.bl c h + v h
  let e : Fin 128 → EReal := fun h => d h + layer P.Wa20 P.ba20 (layer P.Wa10 P.ba10 d) h
  -- the three gated inputs
  have r8 : ∀ h, val_main_v8 (F := Ideal) x2 x3 x4 x28 (ix2 n h) = vu h := fun h =>
    layerT_row (val_main_v2 (F := Ideal) x2 x28) x3 x4 n _ _ _ rfl rfl (fun _ => rfl) h
  have r14 : ∀ h, val_main_v14 (F := Ideal) x0 x5 x6 (ix2 n h) = xi h := fun h =>
    layerT_row x0 x5 x6 n _ _ _ rfl rfl (fun _ => rfl) h
  have r47 : ∀ h, val_main_v47 (F := Ideal) x0 x1 x7 x8 x9 x10 x11 x12 x13 x14 x29 (ix2 n h) = m h := fun h =>
    layerT_row (val_main_v41 (F := Ideal) x0 x1 x7 x8 x9 x10 x11 x12 x29) x13 x14 n _ _ _ rfl rfl (fun _ => rfl) h
  -- their mixing
  have r48 : ∀ h, val_main_v48 (F := Ideal) x0 x1 x5 x6 x7 x8 x9 x10 x11 x12 x13 x14 x29 (ix2 n h) = a h := fun h => by
    rw [val_main_v48_apply, Ideal.addf_def, r47, r14]
  have r54 : ∀ h, val_main_v54 (F := Ideal) x0 x1 x5 x6 x7 x8 x9 x10 x11 x12 x13 x14 x15 x16 x29 (ix2 n h) = layer P.Wc P.bc a h := fun h =>
    layerT_row (val_main_v48 (F := Ideal) x0 x1 x5 x6 x7 x8 x9 x10 x11 x12 x13 x14 x29) x15 x16 n _ _ _ rfl rfl r48 h
  have r55 : ∀ h, val_main_v55 (F := Ideal) x0 x1 x2 x3 x4 x5 x6 x7 x8 x9 x10 x11 x12 x13 x14 x15 x16 x28 x29 (ix2 n h) = b h := fun h => by
    rw [val_main_v55_apply, Ideal.addf_def, r54, r8]
  -- the first residual block
  have r63 : ∀ h, val_main_v63 (F := Ideal) x0 x1 x2 x3 x4 x5 x6 x7 x8 x9 x10 x11 x12 x13 x14 x15 x16 x19 x20 x28 x29 (ix2 n h) = layer P.Wb1 P.bb1 b h := fun h =>
    layerT_row (val_main_v55 (F := Ideal) x0 x1 x2 x3 x4 x5 x6 x7 x8 x9 x10 x11 x12 x13 x14 x15 x16 x28 x29) (val_main_v56 (F := Ideal) x19) (val_main_v57 (F := Ideal) x20) n _ _ _
      (mat_reshape x19) (vec_reshape x20) r55 h
  have r71 : ∀ h, val_main_v71 (F := Ideal) x0 x1 x2 x3 x4 x5 x6 x7 x8 x9 x10 x11 x12 x13 x14 x15 x16 x19 x20 x21 x22 x28 x29 (ix2 n h) = layer P.Wb2 P.bb2 (layer P.Wb1 P.bb1 b) h := fun h =>
    layerT_row (val_main_v63 (F := Ideal) x0 x1 x2 x3 x4 x5 x6 x7 x8 x9 x10 x11 x12 x13 x14 x15 x16 x19 x20 x28 x29) (val_main_v64 (F := Ideal) x21) (val_main_v65 (F := Ideal) x22) n _ _ _
      (mat_reshape x21) (vec_reshape x22) r63 h
  have r72 : ∀ h, val_main_v72 (F := Ideal) x0 x1 x2 x3 x4 x5 x6 x7 x8 x9 x10 x11 x12 x13 x14 x15 x16 x19 x20 x21 x22 x28 x29 (ix2 n h) = c h := fun h => by
    rw [val_main_v72_apply, Ideal.addf_def, r55, r71]
  -- the skip connection to the node's own row
  have r78 : ∀ h, val_main_v78 (F := Ideal) x0 x1 x2 x3 x4 x5 x6 x7 x8 x9 x10 x11 x12 x13 x14 x15 x16 x17 x18 x19 x20 x21 x22 x28 x29 (ix2 n h) = layer P.Wl P.bl c h := fun h =>
    layerT_row (val_main_v72 (F := Ideal) x0 x1 x2 x3 x4 x5 x6 x7 x8 x9 x10 x11 x12 x13 x14 x15 x16 x19 x20 x21 x22 x28 x29) x17 x18 n _ _ _ rfl rfl r72 h
  have r79 : ∀ h, val_main_v79 (F := Ideal) x0 x1 x2 x3 x4 x5 x6 x7 x8 x9 x10 x11 x12 x13 x14 x15 x16 x17 x18 x19 x20 x21 x22 x28 x29 (ix2 n h) = d h := fun h => by
    rw [val_main_v79_apply, Ideal.addf_def, r78]
    rfl
  -- the second residual block
  have r89 : ∀ h, val_main_v89 (F := Ideal) x0 x1 x2 x3 x4 x5 x6 x7 x8 x9 x10 x11 x12 x13 x14 x15 x16 x17 x18 x19 x20 x21 x22 x23 x24 x28 x29 (ix2 n h) = layer P.Wa10 P.ba10 d h := fun h =>
    layerT_row (val_main_v79 (F := Ideal) x0 x1 x2 x3 x4 x5 x6 x7 x8 x9 x10 x11 x12 x13 x14 x15 x16 x17 x18 x19 x20 x21 x22 x28 x29) (val_main_v81 (F := Ideal) x23) (val_main_v83 (F := Ideal) x24) n _ _ _
      (mat_slice0 x23) (vec_slice0 x24) r79 h
  have r99 : ∀ h, val_main_v99 (F := Ideal) x0 x1 x2 x3 x4 x5 x6 x7 x8 x9 x10 x11 x12 x13 x14 x15 x16 x17 x18 x19 x20 x21 x22 x23 x24 x25 x26 x28 x29 (ix2 n h) = layer P.Wa20 P.ba20 (layer P.Wa10 P.ba10 d) h := fun h =>
    layerT_row (val_main_v89 (F := Ideal) x0 x1 x2 x3 x4 x5 x6 x7 x8 x9 x10 x11 x12 x13 x14 x15 x16 x17 x18 x19 x20 x21 x22 x23 x24 x28 x29) (val_main_v91 (F := Ideal) x25) (val_main_v93 (F := Ideal) x26) n _ _ _
      (mat_slice0 x25) (vec_slice0 x26) r89 h
  have r100 : ∀ h, val_main_v100 (F := Ideal) x0 x1 x2 x3 x4 x5 x6 x7 x8 x9 x10 x11 x12 x13 x14 x15 x16 x17 x18 x19 x20 x21 x22 x23 x24 x25 x26 x28 x29 (ix2 n h) = e h := fun h => by
    rw [val_main_v100_apply, Ideal.addf_def, r79, r99]
  -- the third residual block
  have r110 : ∀ h, val_main_v110 (F := Ideal) x0 x1 x2 x3 x4 x5 x6 x7 x8 x9 x10 x11 x12 x13 x14 x15 x16 x17 x18 x19 x20 x21 x22 x23 x24 x25 x26 x28 x29 (ix2 n h) = layer P.Wa11 P.ba11 e h := fun h =>
    layerT_row (val_main_v100 (F := Ideal) x0 x1 x2 x3 x4 x5 x6 x7 x8 x9 x10 x11 x12 x13 x14 x15 x16 x17 x18 x19 x20 x21 x22 x23 x24 x25 x26 x28 x29) (val_main_v102 (F := Ideal) x23) (val_main_v104 (F := Ideal) x24) n _ _ _
      (mat_slice1 x23) (vec_slice1 x24) r100 h
  have r120 : ∀ h, val_main_v120 (F := Ideal) x0 x1 x2 x3 x4 x5 x6 x7 x8 x9 x10 x11 x12 x13 x14 x15 x16 x17 x18 x19 x20 x21 x22 x23 x24 x25 x26 x28 x29 (ix2 n h) = layer P.Wa21 P.ba21 (layer P.Wa11 P.ba11 e) h := fun h =>
    layerT_row (val_main_v110 (F := Ideal) x0 x1 x2 x3 x4 x5 x6 x7 x8 x9 x10 x11 x12 x13 x14 x15 x16 x17 x18 x19 x20 x21 x22 x23 x24 x25 x26 x28 x29) (val_main_v112 (F := Ideal) x25) (val_main_v114 (F := Ideal) x26) n _ _ _
      (mat_slice1 x25) (vec_slice1 x26) r110 h
  rw [val_main_v121_apply, Ideal.addf_def, r100, r120]
  rfl

/-- Entry `n` of the second result: the scalar read out of that new row. -/
theorem read_row (n : Fin 50000) :
    val_main_v123 (F := Ideal) x0 x1 x2 x3 x4 x5 x6 x7 x8 x9 x10 x11 x12 x13 x14 x15 x16 x17 x18 x19 x20 x21 x22 x23 x24 x25 x26 x27 x28 x29 (ix2 n 0)
      = readout (PR x3 x4 x5 x6 x13 x14 x15 x16 x17 x18 x19 x20 x21 x22 x23 x24 x25 x26 x27)
          (nodePost (PR x3 x4 x5 x6 x13 x14 x15 x16 x17 x18 x19 x20 x21 x22 x23 x24 x25 x26 x27)
            (row (up x2 x28) n) (row x0 n) (row (xa x0 x1 x7 x8 x9 x10 x11 x12 x29) n)) := by
  unfold val_main_v123 readout
  rw [dotGeneral_plain_apply dot_S50000x128_S128x1_S50000x1_1_0_0_1_n_n rfl]
  refine Finset.sum_congr rfl fun k _ => ?_
  rw [node_row]
  refine congrArg (_ * ·) ?_
  exact transpose_apply [1, 0] x27 transposes_S1x128_S128x1_1_0 (ix2 k 0) (ix2 0 k) (fun c => by
    match c with
    | ⟨0, _⟩ => rfl
    | ⟨1, _⟩ => rfl)

end Cert.ReferenceIdeal.NodeRows

end
-- ==== Proof.KernelValueB.lean ====
/-
  The kernel program's two results are the reference's last stages, at the kernel's own argument arrays.

  At the last region's entry the three row arrays are the reference's (the summed edge features, the node features, the
  summed messages) and the weight arrays are the arguments themselves, the five plain bias vectors laid out as rows. The
  region applies the node update row by row, and so does the reference.
-/
import proofs.«429009_j55387898250018_2_alg».proof.Proof.KernelValueA
import proofs.«429009_j55387898250018_2_alg».proof.Proof.Region2
import proofs.«429009_j55387898250018_2_alg».proof.Proof.RefNodeRows

set_option maxRecDepth 16384

noncomputable section

namespace Cert.KernelIdeal.Value

open Cert.KernelIdeal Cert.KernelIdeal.Gen Cert.KernelIdeal.Host Cert.MsgPass
open Idealize.ShloMosaic Idealize.ShloMosaic.TcCoe Idealize.ShloMosaic.ValueIdx Idealize.SL.Sem
open Cert.ReferenceIdeal.ReadP (val_main_v2 val_main_v41 val_main_v121 val_main_v123)
open scoped BigOperators

variable (m : (ℓ : Loc nD τ sig) → Buf (Elt Ideal) ℓ) (ρ : Dev nD → PrngReg) (c : Dev nD)

abbrev a3 : FVec Ideal S128x128 .f32 := m ((c : Thread nD τ).loc main_arg3)
abbrev a4 : FVec Ideal S128 .f32 := m ((c : Thread nD τ).loc main_arg4)
abbrev a5 : FVec Ideal S128x128 .f32 := m ((c : Thread nD τ).loc main_arg5)
abbrev a6 : FVec Ideal S128 .f32 := m ((c : Thread nD τ).loc main_arg6)
abbrev a13 : FVec Ideal S128x128 .f32 := m ((c : Thread nD τ).loc main_arg13)
abbrev a14 : FVec Ideal S128 .f32 := m ((c : Thread nD τ).loc main_arg14)
abbrev a15 : FVec Ideal S128x128 .f32 := m ((c : Thread nD τ).loc main_arg15)
abbrev a16 : FVec Ideal S128 .f32 := m ((c : Thread nD τ).loc main_arg16)
abbrev a17 : FVec Ideal S128x128 .f32 := m ((c : Thread nD τ).loc main_arg17)
abbrev a18 : FVec Ideal S128 .f32 := m ((c : Thread nD τ).loc main_arg18)
abbrev a19 : FVec Ideal S1x128x128 .f32 := m ((c : Thread nD τ).loc main_arg19)
abbrev a20 : FVec Ideal S1x128 .f32 := m ((c : Thread nD τ).loc main_arg20)
abbrev a21 : FVec Ideal S1x128x128 .f32 := m ((c : Thread nD τ).loc main_arg21)
abbrev a22 : FVec Ideal S1x128 .f32 := m ((c : Thread nD τ).loc main_arg22)
abbrev a23 : FVec Ideal S2x128x128 .f32 := m ((c : Thread nD τ).loc main_arg23)
abbrev a24 : FVec Ideal S2x128 .f32 := m ((c : Thread nD τ).loc main_arg24)
abbrev a25 : FVec Ideal S2x128x128 .f32 := m ((c : Thread nD τ).loc main_arg25)
abbrev a26 : FVec Ideal S2x128 .f32 := m ((c : Thread nD τ).loc main_arg26)
abbrev a27 : FVec Ideal S1x128 .f32 := m ((c : Thread nD τ).loc main_arg27)

/-- With the five plain bias vectors laid out as rows, the weight record read off the rows is the one read off the vectors. -/
theorem ofRows_shapeCast (Wgu Wi Wu Wc Wl : FVec Ideal S128x128 .f32) (Wb1 Wb2 : FVec Ideal S1x128x128 .f32)
    (bb1 bb2 : FVec Ideal S1x128 .f32) (Wa1 Wa2 : FVec Ideal S2x128x128 .f32) (ba1 ba2 : FVec Ideal S2x128 .f32)
    (W1 : FVec Ideal S1x128 .f32) (bgu bi bu bc bl : FVec Ideal S128 .f32) (h : S128.ShapeCasts S1x128) :
    NodeW.ofRows Wgu Wi Wu Wc Wl Wb1 Wb2 bb1 bb2 Wa1 Wa2 ba1 ba2 W1 (shapeCast S1x128 bgu h) (shapeCast S1x128 bi h)
        (shapeCast S1x128 bu h) (shapeCast S1x128 bc h) (shapeCast S1x128 bl h)
      = NodeW.ofVecs Wgu Wi Wu Wc Wl Wb1 Wb2 bb1 bb2 Wa1 Wa2 ba1 ba2 W1 bgu bi bu bc bl := by
  simp only [NodeW.ofRows, NodeW.ofVecs, row_shapeCast]

/-- The weights the last region finds are the reference's. -/
theorem weights_eq : Region2.PV (V6 m ρ) c = Cert.ReferenceIdeal.NodeRows.PR (a3 m c) (a4 m c) (a5 m c) (a6 m c) (a13 m c) (a14 m c) (a15 m c) (a16 m c) (a17 m c) (a18 m c) (a19 m c) (a20 m c) (a21 m c) (a22 m c) (a23 m c) (a24 m c) (a25 m c) (a26 m c) (a27 m c) := by
  show NodeW.ofRows (W6 m ρ c (Proc.devRef .tc main_arg3)) (W6 m ρ c (Proc.devRef .tc main_arg5)) (W6 m ρ c (Proc.devRef .tc main_arg13))
      (W6 m ρ c (Proc.devRef .tc main_arg15)) (W6 m ρ c (Proc.devRef .tc main_arg17)) (W6 m ρ c (Proc.devRef .tc main_arg19))
      (W6 m ρ c (Proc.devRef .tc main_arg21)) (W6 m ρ c (Proc.devRef .tc main_arg20)) (W6 m ρ c (Proc.devRef .tc main_arg22))
      (W6 m ρ c (Proc.devRef .tc main_arg23)) (W6 m ρ c (Proc.devRef .tc main_arg25)) (W6 m ρ c (Proc.devRef .tc main_arg24))
      (W6 m ρ c (Proc.devRef .tc main_arg26)) (W6 m ρ c (Proc.devRef .tc main_arg27)) (W6 m ρ c (Proc.devRef .tc main_v12))
      (W6 m ρ c (Proc.devRef .tc main_v13)) (W6 m ρ c (Proc.devRef .tc main_v14)) (W6 m ρ c (Proc.devRef .tc main_v15))
      (W6 m ρ c (Proc.devRef .tc main_v16)) = _
  rw [W6_arg3, W6_arg5, W6_arg13, W6_arg15, W6_arg17, W6_arg19, W6_arg21, W6_arg20, W6_arg22, W6_arg23, W6_arg25, W6_arg24,
    W6_arg26, W6_arg27, W6_v12, W6_v13, W6_v14, W6_v15, W6_v16]
  exact ofRows_shapeCast _ _ _ _ _ _ _ _ _ _ _ _ _ _ _ _ _ _ _ _

variable (hr1 : ∀ i, ∃ r : ℝ, a1 m c i = (r : EReal)) (hr9 : ∀ i, ∃ r : ℝ, a9 m c i = (r : EReal))
  (hr10 : ∀ i, ∃ r : ℝ, a10 m c i = (r : EReal))
include hr1 hr9 hr10

/-- Row `n` of the kernel program's first result, in the reference's terms. -/
theorem node_eq (n : Fin 50000) (h : Fin 128) :
    W7 m ρ c (Proc.devRef .tc main_v17_0) (ix2 n h) = val_main_v121 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a28 m c) (a29 m c) (ix2 n h) := by
  refine (congrFun (W7_arr m ρ c 22) _).trans ((Region2.value22 (V6 m ρ) c n h).trans ?_)
  rw [Cert.ReferenceIdeal.NodeRows.node_row]
  have eu : Region2.aUp (V6 m ρ) c = Cert.ReferenceIdeal.NodeRows.up (a2 m c) (a28 m c) := up_eq m ρ c
  have ev : Region2.aV (V6 m ρ) c = a0 m c := W6_arg0 m ρ c
  have ea : Region2.aXa (V6 m ρ) c = Cert.ReferenceIdeal.NodeRows.xa (a0 m c) (a1 m c) (a7 m c) (a8 m c) (a9 m c) (a10 m c) (a11 m c) (a12 m c) (a29 m c) := agg_eq m ρ c hr1 hr9 hr10
  rw [eu, ev, ea, weights_eq]

/-- The kernel program's first result is the reference's first result's stage. -/
theorem out0_eq : W7 m ρ c (Proc.devRef .tc main_v17_0) = val_main_v121 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a28 m c) (a29 m c) := by
  refine funext fun (i : (⟨2, ![50000, 128]⟩ : Shape).Idx) => ?_
  obtain ⟨p, q, rfl⟩ : ∃ (p : Fin 50000) (q : Fin 128), i = ix2 p q := ⟨i 0, i 1, eq_ix2 i⟩
  exact node_eq m ρ c hr1 hr9 hr10 p q

/-- Entry `n` of the kernel program's second result, in the reference's terms. -/
theorem read_eq (n : Fin 50000) :
    W7 m ρ c (Proc.devRef .tc main_v17_1) (ix2 n 0) = val_main_v123 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (ix2 n 0) := by
  refine (congrFun (W7_arr m ρ c 23) _).trans ((Region2.value23 (V6 m ρ) c n).trans ?_)
  rw [Cert.ReferenceIdeal.NodeRows.read_row]
  have eu : Region2.aUp (V6 m ρ) c = Cert.ReferenceIdeal.NodeRows.up (a2 m c) (a28 m c) := up_eq m ρ c
  have ev : Region2.aV (V6 m ρ) c = a0 m c := W6_arg0 m ρ c
  have ea : Region2.aXa (V6 m ρ) c = Cert.ReferenceIdeal.NodeRows.xa (a0 m c) (a1 m c) (a7 m c) (a8 m c) (a9 m c) (a10 m c) (a11 m c) (a12 m c) (a29 m c) := agg_eq m ρ c hr1 hr9 hr10
  rw [eu, ev, ea, weights_eq]

/-- The kernel program's second result is the reference's second result's stage. -/
theorem out1_eq : W7 m ρ c (Proc.devRef .tc main_v17_1) = val_main_v123 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) := by
  refine funext fun (i : (⟨2, ![50000, 1]⟩ : Shape).Idx) => ?_
  obtain ⟨p, q, rfl⟩ : ∃ (p : Fin 50000) (q : Fin 1), i = ix2 p q := ⟨i 0, i 1, eq_ix2 i⟩
  obtain rfl : q = 0 := Subsingleton.elim _ _
  exact read_eq m ρ c hr1 hr9 hr10 p

end Cert.KernelIdeal.Value

end
-- ==== Proof.FiniteInputs.lean ====
import proofs.«429009_j55387898250018_2_alg».proof.Pre_finite_inputs
import Idealize.ShloMosaic.Lib.ReduceAll
import Idealize.ShloMosaic.Lib.Affine
import Idealize.ShloMosaic.Lib.ValueIdx
import Idealize.ShloMosaic.PureOps.Ideal.Laws
import Mathlib.Data.EReal.Basic

/-!
  The precondition "every float input is finite", read at the ideal instance.

  The printed predicate computes, for each float argument `a`, the bit `all (|a| < +∞)` — the absolute value,
  a comparison against the constant `+∞`, and a reduction by `and` over every axis — and joins the bits of all
  arguments by `and`. At the ideal instance a float is an extended real, `|x|` is `max x (-x)`, and `+∞` is `⊤`;
  an extended real with `max x (-x) < ⊤` is neither `⊤` nor `⊥`, so it is a real number. Hence, when the predicate's
  bit is 1, every entry of every float argument is a real number. The theorem below records this for the three
  arguments that are used later.
-/

noncomputable section

namespace Cert.FiniteInputs

open Idealize.ShloMosaic Idealize.ShloMosaic.ValueIdx

/-- The scalar shape has exactly one index. -/
instance : Subsingleton Cert.Pre_finite_inputs.S_.Idx := ⟨fun a b => funext fun d => d.elim0⟩

/-- An extended real whose absolute value `max x (-x)` lies below `⊤` is a real number:
    the cases `⊥` and `⊤` both have `max x (-x) = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One argument's bit. If the reduction by `and`, over all axes, of the comparisons `|x i| < +∞` is 1, then
    every comparison is 1; the constant compared against is `⊤`, so every `x i` is a real number. -/
theorem real_of_all_finite {s : Shape} {axes : List (Fin s.rank)} (x : FVec Ideal s .f32)
    (hb : Cert.Pre_finite_inputs.S_.BroadcastsInDim s (![] : Fin 0 → Fin s.rank)) (hred : s.ReducesTo axes Cert.Pre_finite_inputs.S_)
    (hu : 0 < Cert.Pre_finite_inputs.S_.numel)
    (h : Host.reduce IntOp.andi
          (cmpf .olt (Host.absf x) (broadcastInDim s ![] hb (constant Cert.Pre_finite_inputs.S_ .f32 0x7F800000#32)))
          (constantI Cert.Pre_finite_inputs.S_ 1 1#1) hred hu ix0 = 1#1) :
    ∀ i, ∃ r : ℝ, x i = (r : EReal) := by
  intro i
  -- every element of the reduced array is 1
  have e := Host.reduce_andi_all _ _ hred hu ix0 h i
  -- the pattern 0x7F800000 (exponent all ones, fraction zero, sign clear) denotes `⊤`
  have htop : Ideal.ofBits .f32 0x7F800000#32 = ⊤ := by simp [Ideal.ofBits, Ideal.ieee]
  -- the element at `i` is the comparison `max (x i) (-(x i)) < +∞`
  have e' : Ideal.cmp .olt (max (x i : EReal) (-(x i : EReal))) (Ideal.ofBits .f32 0x7F800000#32) = 1#1 := e
  rw [htop] at e'
  have hlt : max (x i : EReal) (-(x i : EReal)) < ⊤ := by
    by_contra hn
    simp [Ideal.cmp, hn] at e'
  exact real_of_abs_lt_top _ hlt

/-- The `and` of two one-bit scalars, read at the scalar's index, is 1 only if both are. -/
theorem andi_ix0 (c d : IVec Cert.Pre_finite_inputs.S_ 1) (h : andi c d ix0 = 1#1) : c ix0 = 1#1 ∧ d ix0 = 1#1 :=
  IntOp.andi_eq_one.1 h

/-- If the finiteness predicate holds of the inputs, the entries of the second, tenth and eleventh float
    arguments are real numbers. The predicate's bit is a conjunction nested to the left,
    `((b₀ ∧ b₁) ∧ b₂) ∧ … ∧ b₂₇`, one bit per float argument in order; it is split from the outside, keeping the
    three bits wanted. -/
theorem real_of_pre [Cert.Pre_finite_inputs.Facts]
    (a0 : FVec Ideal Cert.Pre_finite_inputs.S50000x128 .f32) (a1 : FVec Ideal Cert.Pre_finite_inputs.S600000x6 .f32)
    (a2 : FVec Ideal Cert.Pre_finite_inputs.S600000x128 .f32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x128 .f32)
    (a8 : FVec Ideal Cert.Pre_finite_inputs.S128 .f32) (a9 : FVec Ideal Cert.Pre_finite_inputs.S8x6 .f32)
    (a10 : FVec Ideal Cert.Pre_finite_inputs.S128x8 .f32) (a11 : FVec Ideal Cert.Pre_finite_inputs.S128x128 .f32)
    (a12 : FVec Ideal Cert.Pre_finite_inputs.S128 .f32) (a13 : FVec Ideal Cert.Pre_finite_inputs.S128x128 .f32)
    (a14 : FVec Ideal Cert.Pre_finite_inputs.S128 .f32) (a15 : FVec Ideal Cert.Pre_finite_inputs.S128x128 .f32)
    (a16 : FVec Ideal Cert.Pre_finite_inputs.S128 .f32) (a17 : FVec Ideal Cert.Pre_finite_inputs.S128x128 .f32)
    (a18 : FVec Ideal Cert.Pre_finite_inputs.S128 .f32) (a19 : FVec Ideal Cert.Pre_finite_inputs.S1x128x128 .f32)
    (a20 : FVec Ideal Cert.Pre_finite_inputs.S1x128 .f32) (a21 : FVec Ideal Cert.Pre_finite_inputs.S1x128x128 .f32)
    (a22 : FVec Ideal Cert.Pre_finite_inputs.S1x128 .f32) (a23 : FVec Ideal Cert.Pre_finite_inputs.S2x128x128 .f32)
    (a24 : FVec Ideal Cert.Pre_finite_inputs.S2x128 .f32) (a25 : FVec Ideal Cert.Pre_finite_inputs.S2x128x128 .f32)
    (a26 : FVec Ideal Cert.Pre_finite_inputs.S2x128 .f32) (a27 : FVec Ideal Cert.Pre_finite_inputs.S1x128 .f32)
    (a28 a29 : IVec Cert.Pre_finite_inputs.S600000 32)
    (h : Cert.Pre_finite_inputs.fn (F := Ideal) a0 a1 a2 a3 a4 a5 a6 a7 a8 a9 a10 a11 a12 a13 a14 a15 a16 a17 a18 a19 a20
          a21 a22 a23 a24 a25 a26 a27 a28 a29 = fun _ => 1#1) :
    (∀ i, ∃ r : ℝ, a1 i = (r : EReal)) ∧ (∀ i, ∃ r : ℝ, a9 i = (r : EReal)) ∧
      (∀ i, ∃ r : ℝ, a10 i = (r : EReal)) := by
  have k := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at k
  -- drop the bits of the arguments after the eleventh (b₂₇ down to b₁₁)
  iterate 17 replace k := (andi_ix0 _ _ k).1
  -- b₁₀ and b₉
  obtain ⟨k, r10⟩ := andi_ix0 _ _ k
  obtain ⟨k, r9⟩ := andi_ix0 _ _ k
  -- drop b₈ down to b₂
  iterate 7 replace k := (andi_ix0 _ _ k).1
  -- b₁
  obtain ⟨-, r1⟩ := andi_ix0 _ _ k
  exact ⟨real_of_all_finite a1 _ _ _ r1, real_of_all_finite a9 _ _ _ r9, real_of_all_finite a10 _ _ _ r10⟩

end Cert.FiniteInputs

end
-- ==== Proof.lean ====
/-
  One round of message passing on a graph of 50000 nodes and 600000 edges, computed two ways.

  Both programs sum the edge features onto their receiving nodes, pre-activate every node row with one layer, gather the
  sender's row for every edge, multiply it feature by feature with radial weights, apply one layer, sum the messages back
  onto the sender nodes, and run a chain of eleven layers with residual sums on every node row, ending in a scalar read
  out of each row. The kernel program runs the row-wise parts in three tiled regions; the reference is plain array code.
  They differ in three places, none of which changes a result on finite inputs:
  * the kernel multiplies the two small radial matrices together first, the reference applies the radial values first:
    the same finite sum once the entries are real numbers, which the precondition gives;
  * the kernel's gather fills the rows of edges whose sender index is outside `[-50000, 50000)` with a fill value where
    the reference reads a clamped row; but the messages are summed back by the same index, and an edge whose index is
    outside `[0, 50000)` is dropped from that sum, while on the other edges the two gathers read the same row;
  * an activation is one logistic operation in the kernel and its four-operation expansion in the reference: one
    function on the extended reals.
  So the kernel program's two result arrays are the reference's two result arrays (`algebraic`); the three frames are
  the generated ones (the reference's is its run with the results dropped), and nothing was rewritten by the
  idealization (`preserves`).
-/
import proofs.«429009_j55387898250018_2_alg».proof.Defs
import proofs.«429009_j55387898250018_2_alg».proof.Proof.Gen.Kernel
import proofs.«429009_j55387898250018_2_alg».proof.Proof.Gen.Kernel.Skeleton
import proofs.«429009_j55387898250018_2_alg».proof.Proof.Gen.Kernel.Launch
import proofs.«429009_j55387898250018_2_alg».proof.Proof.Gen.Kernel.Points
import proofs.«429009_j55387898250018_2_alg».proof.Proof.Gen.Kernel.Frame
import proofs.«429009_j55387898250018_2_alg».proof.Proof.Gen.KernelIdeal
import proofs.«429009_j55387898250018_2_alg».proof.Proof.Gen.KernelIdeal.Skeleton
import proofs.«429009_j55387898250018_2_alg».proof.Proof.Gen.KernelIdeal.Launch
import proofs.«429009_j55387898250018_2_alg».proof.Proof.Gen.KernelIdeal.Points
import proofs.«429009_j55387898250018_2_alg».proof.Proof.Gen.KernelIdeal.Frame
import proofs.«429009_j55387898250018_2_alg».proof.Proof.Gen.ReferenceIdeal
import proofs.«429009_j55387898250018_2_alg».proof.Proof.Gen.Pre_finite_inputs
import proofs.«429009_j55387898250018_2_alg».proof.Proof.KernelValueB
import proofs.«429009_j55387898250018_2_alg».proof.Proof.RefRunStaged
import proofs.«429009_j55387898250018_2_alg».proof.Proof.FiniteInputs
import Idealize.ShloMosaic.Adequacy
import Idealize.ShloMosaic.Init

set_option maxRecDepth 16384

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.StageRun.run (F := Ideal) m ρ)

/-- The idealization rewrote nothing. -/
theorem preserves : Cert.preserves_Kernel_KernelIdeal := trivial

set_option maxHeartbeats 2000000 in
/-- The precondition makes the radial values and the two radial matrices real-valued, on every device. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.KernelIdeal.Value.a1 m c i = (r : EReal)) ∧ (∀ i, ∃ r : ℝ, Cert.KernelIdeal.Value.a9 m c i = (r : EReal))
      ∧ (∀ i, ∃ r : ℝ, Cert.KernelIdeal.Value.a10 m c i = (r : EReal)) :=
  Cert.FiniteInputs.real_of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29))
      (hpre c)

set_option maxHeartbeats 2000000 in
/-- On finite inputs the two idealized programs end with equal results: both at the reference's last stages applied
    to the (shared) argument arrays. -/
theorem algebraic : Cert.algebraic_KernelIdeal_ReferenceIdeal := by
  intro m ρ m' ρ' hpre hagree
  have hfin := finite_of_pre m hpre
  refine ⟨_, _, (θ_run Cert.KernelIdeal.defs _ _).mono (fun _ h c =>
      ⟨(h c).1.trans (Cert.KernelIdeal.Value.out0_eq m ρ c (hfin c).1 (hfin c).2.1 (hfin c).2.2),
       (h c).2.1.trans (Cert.KernelIdeal.Value.out1_eq m ρ c (hfin c).1 (hfin c).2.1 (hfin c).2.2),
       (h c).2.2⟩) (Cert.KernelIdeal.Named.run_named (F := Ideal) m ρ), ?_⟩
  refine (θ_run Cert.ReferenceIdeal.defs _ _).mono (fun _ h c => ?_) (Cert.ReferenceIdeal.StageRun.run (F := Ideal) m' ρ')
  obtain ⟨h0, h1, h2, h3, h4, h5, h6, h7, h8, h9, h10, h11, h12, h13, h14, h15, h16, h17, h18, h19, h20, h21, h22, h23, h24, h25, h26, h27, h28, h29⟩ := hagree c
  refine ⟨(h c).1.trans ?_, (h c).2.1.trans ?_, (h c).2.2⟩
  · rw [h0, h1, h2, h3, h4, h5, h6, h7, h8, h9, h10, h11, h12, h13, h14, h15, h16, h17, h18, h19, h20, h21, h22, h23, h24, h25, h26, h28, h29]
  · rw [h0, h1, h2, h3, h4, h5, h6, h7, h8, h9, h10, h11, h12, h13, h14, h15, h16, h17, h18, h19, h20, h21, h22, h23, h24, h25, h26, h27, h28, h29]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
